-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S512 : Shape := ⟨1, ![512]⟩
abbrev S5x65 : Shape := ⟨2, ![5, 65]⟩
abbrev S_ : Shape := ⟨0, ![]⟩

class Facts : Prop where
  bcast_S_S5x65 : S_.BroadcastsInDim S5x65 (![] : Fin 0 → Fin S5x65.rank)
  reducesTo_S5x65_S_d0_1 : S5x65.ReducesTo [0, 1] S_
  h_S_ : 0 < S_.numel

variable [Facts]

def fn {F : FTy → Type} [FloatOps F] (main_arg0 : IVec S512x8192 32) (main_arg1 : IVec S512x8192 32) (main_arg2 : IVec S512x8192 32) (main_arg3 : IVec S512 32) (main_arg4 : IVec S512x8192 1) (main_arg5 : FVec F S5x65 .f32) : IVec S_ 1 :=
  let main_v0 : FVec F S5x65 .f32 := Host.absf main_arg5
  let main_cst : FVec F S_ .f32 := constant S_ .f32 0x7F800000#32
  let main_v1 : FVec F S5x65 .f32 := broadcastInDim S5x65 ![] bcast_S_S5x65 main_cst
  let main_v2 : IVec S5x65 1 := cmpf .olt main_v0 main_v1
  let main_c : IVec S_ 1 := constantI S_ 1 1#1
  let main_v3 : IVec S_ 1 := (fun x v => Host.reduce IntOp.andi x v reducesTo_S5x65_S_d0_1 h_S_) main_v2 main_c
  main_v3
-- ==== Kernel.lean ====
abbrev S512x8192 : Shape := ⟨2, ![512, 8192]⟩
abbrev S512 : Shape := ⟨1, ![512]⟩
abbrev S5x65 : Shape := ⟨2, ![5, 65]⟩
abbrev S65 : Shape := ⟨1, ![65]⟩
abbrev S512x65 : Shape := ⟨2, ![512, 65]⟩
abbrev S64x8192 : Shape := ⟨2, ![64, 8192]⟩
abbrev S64x65 : Shape := ⟨2, ![64, 65]⟩
abbrev S64x1 : Shape := ⟨2, ![64, 1]⟩
abbrev S64 : Shape := ⟨1, ![64]⟩
abbrev S_ : Shape := ⟨0, ![]⟩
abbrev S512x24 : Shape := ⟨2, ![512, 24]⟩
abbrev S65x1 : Shape := ⟨2, ![65, 1]⟩
abbrev S1x65 : Shape := ⟨2, ![1, 65]⟩
abbrev S512x1 : Shape := ⟨2, ![512, 1]⟩

abbrev nBuf : Space → Nat
  | .hbm => 137
  | .vmem => 10
  | .smem => 0
  | _ => 0

abbrev hbmTy0_0 (i : Nat) : BufTy := match i % 128 with
  | 0 => ⟨S512x8192, .i32⟩
  | 1 => ⟨S512x8192, .i32⟩
  | 2 => ⟨S512x8192, .i32⟩
  | 3 => ⟨S512, .i32⟩
  | 4 => ⟨S512x8192, .i1⟩
  | 5 => ⟨S5x65, .f32⟩
  | 6 => ⟨S65, .i32⟩
  | 7 => ⟨S65, .f32⟩
  | 8 => ⟨S512x8192, .i32⟩
  | 9 => ⟨S512x65, .f32⟩
  | 10 => ⟨S512x65, .f32⟩
  | 11 => ⟨S_, .f32⟩
  | 12 => ⟨S512x24, .f32⟩
  | 13 => ⟨S_, .i32⟩
  | 14 => ⟨S65, .i32⟩
  | 15 => ⟨S65, .i1⟩
  | 16 => ⟨S_, .i32⟩
  | 17 => ⟨S65, .i32⟩
  | 18 => ⟨S65, .i32⟩
  | 19 => ⟨S65, .i32⟩
  | 20 => ⟨S65x1, .i32⟩
  | 21 => ⟨S512x24, .f32⟩
  | 22 => ⟨S_, .i32⟩
  | 23 => ⟨S65, .i32⟩
  | 24 => ⟨S65, .i1⟩
  | 25 => ⟨S_, .i32⟩
  | 26 => ⟨S65, .i32⟩
  | 27 => ⟨S65, .i32⟩
  | 28 => ⟨S65, .i32⟩
  | 29 => ⟨S65x1, .i32⟩
  | 30 => ⟨S512x65, .f32⟩
  | 31 => ⟨S_, .f32⟩
  | 32 => ⟨S512x65, .f32⟩
  | 33 => ⟨S512x65, .i1⟩
  | 34 => ⟨S1x65, .f32⟩
  | 35 => ⟨S512x65, .f32⟩
  | 36 => ⟨S512x65, .f32⟩
  | 37 => ⟨S_, .f32⟩
  | 38 => ⟨S512x65, .f32⟩
  | 39 => ⟨S512x65, .f32⟩
  | 40 => ⟨S512x65, .f32⟩
  | 41 => ⟨S_, .f32⟩
  | 42 => ⟨S_, .f32⟩
  | 43 => ⟨S512x65, .f32⟩
  | 44 => ⟨S512x65, .f32⟩
  | 45 => ⟨S_, .f32⟩
  | 46 => ⟨S512x24, .f32⟩
  | 47 => ⟨S_, .i32⟩
  | 48 => ⟨S65, .i32⟩
  | 49 => ⟨S65, .i1⟩
  | 50 => ⟨S_, .i32⟩
  | 51 => ⟨S65, .i32⟩
  | 52 => ⟨S65, .i32⟩
  | 53 => ⟨S65, .i32⟩
  | 54 => ⟨S65x1, .i32⟩
  | 55 => ⟨S512x24, .f32⟩
  | 56 => ⟨S_, .i32⟩
  | 57 => ⟨S65, .i32⟩
  | 58 => ⟨S65, .i1⟩
  | 59 => ⟨S_, .i32⟩
  | 60 => ⟨S65, .i32⟩
  | 61 => ⟨S65, .i32⟩
  | 62 => ⟨S65, .i32⟩
  | 63 => ⟨S65x1, .i32⟩
  | 64 => ⟨S512x65, .f32⟩
  | 65 => ⟨S_, .f32⟩
  | 66 => ⟨S512x65, .f32⟩
  | 67 => ⟨S512x65, .i1⟩
  | 68 => ⟨S1x65, .f32⟩
  | 69 => ⟨S512x65, .f32⟩
  | 70 => ⟨S512x65, .f32⟩
  | 71 => ⟨S_, .f32⟩
  | 72 => ⟨S512x65, .f32⟩
  | 73 => ⟨S512x65, .f32⟩
  | 74 => ⟨S512x65, .f32⟩
  | 75 => ⟨S_, .f32⟩
  | 76 => ⟨S_, .f32⟩
  | 77 => ⟨S512x65, .f32⟩
  | 78 => ⟨S512x65, .f32⟩
  | 79 => ⟨S_, .i32⟩
  | 80 => ⟨S512, .i32⟩
  | 81 => ⟨S512, .i1⟩
  | 82 => ⟨S_, .i32⟩
  | 83 => ⟨S512, .i32⟩
  | 84 => ⟨S512, .i1⟩
  | 85 => ⟨S512, .i1⟩
  | 86 => ⟨S_, .i32⟩
  | 87 => ⟨S_, .i32⟩
  | 88 => ⟨S_, .i32⟩
  | 89 => ⟨S512, .i32⟩
  | 90 => ⟨S512, .i32⟩
  | 91 => ⟨S_, .i32⟩
  | 92 => ⟨S512, .i32⟩
  | 93 => ⟨S512, .i32⟩
  | 94 => ⟨S512x1, .i1⟩
  | 95 => ⟨S_, .i32⟩
  | 96 => ⟨S512, .i32⟩
  | 97 => ⟨S512, .i1⟩
  | 98 => ⟨S_, .i32⟩
  | 99 => ⟨S512, .i32⟩
  | 100 => ⟨S512, .i32⟩
  | 101 => ⟨S512, .i32⟩
  | 102 => ⟨S512x1, .i32⟩
  | 103 => ⟨S512x65, .f32⟩
  | 104 => ⟨S_, .f32⟩
  | 105 => ⟨S_, .f32⟩
  | 106 => ⟨S512x65, .i1⟩
  | 107 => ⟨S512x65, .f32⟩
  | 108 => ⟨S512x65, .f32⟩
  | 109 => ⟨S_, .f32⟩
  | 110 => ⟨S512x65, .f32⟩
  | 111 => ⟨S512x65, .f32⟩
  | 112 => ⟨S_, .f32⟩
  | 113 => ⟨S512x65, .f32⟩
  | 114 => ⟨S512x65, .f32⟩
  | 115 => ⟨S512x65, .f32⟩
  | 116 => ⟨S_, .f32⟩
  | 117 => ⟨S512x65, .f32⟩
  | 118 => ⟨S512x65, .f32⟩
  | 119 => ⟨S_, .f32⟩
  | 120 => ⟨S512x65, .f32⟩
  | 121 => ⟨S512x65, .f32⟩
  | 122 => ⟨S_, .f32⟩
  | 123 => ⟨S512, .f32⟩
  | 124 => ⟨S512x1, .f32⟩
  | 125 => ⟨S512x65, .f32⟩
  | 126 => ⟨S512x65, .f32⟩
  | 127 => ⟨S_, .f32⟩
  | _ => ⟨S512x8192, .i32⟩

abbrev hbmTy0_1 (i : Nat) : BufTy := match i % 128 with
  | 0 => ⟨S512, .f32⟩
  | 1 => ⟨S512x1, .f32⟩
  | 2 => ⟨S512x65, .f32⟩
  | 3 => ⟨S512x65, .f32⟩
  | 4 => ⟨S512x65, .f32⟩
  | 5 => ⟨S512x65, .f32⟩
  | 6 => ⟨S512x65, .f32⟩
  | 7 => ⟨S_, .f32⟩
  | 8 => ⟨S512, .f32⟩
  | _ => ⟨S512x8192, .i32⟩

abbrev hbmTy (i : Nat) : BufTy := match i / 128 with
  | 0 => hbmTy0_0 i
  | 1 => hbmTy0_1 i
  | _ => ⟨S512x8192, .i32⟩

abbrev bufTy : (tb : Table) → Fin (tcTables nBuf tb) → BufTy
  | .hbm, ⟨i, _⟩ => hbmTy i
  | .local _ .vmem, ⟨0, _⟩ => ⟨S64x8192, .i32⟩
  | .local _ .vmem, ⟨1, _⟩ => ⟨S64x8192, .i32⟩
  | .local _ .vmem, ⟨2, _⟩ => ⟨S64x8192, .i32⟩
  | .local _ .vmem, ⟨3, _⟩ => ⟨S64x8192, .i32⟩
  | .local _ .vmem, ⟨4, _⟩ => ⟨S64x8192, .i32⟩
  | .local _ .vmem, ⟨5, _⟩ => ⟨S64x8192, .i32⟩
  | .local _ .vmem, ⟨6, _⟩ => ⟨S64x65, .f32⟩
  | .local _ .vmem, ⟨7, _⟩ => ⟨S64x65, .f32⟩
  | .local _ .vmem, ⟨8, _⟩ => ⟨S64x65, .f32⟩
  | .local _ .vmem, ⟨9, _⟩ => ⟨S64x65, .f32⟩
  | _, _ => ⟨S512x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_cst_0 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_c_9 : Ref sig .tc := ⟨.hbm, 47, rfl⟩
abbrev main_v27 : Ref sig .tc := ⟨.hbm, 48, rfl⟩
abbrev main_v28 : Ref sig .tc := ⟨.hbm, 49, rfl⟩
abbrev main_c_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_c_12 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_call1_v0 : Ref sig .tc := ⟨.hbm, 76, rfl⟩
abbrev main_call1_v1 : Ref sig .tc := ⟨.hbm, 77, rfl⟩
abbrev main_v49 : Ref sig .tc := ⟨.hbm, 78, rfl⟩
abbrev main_c_16 : Ref sig .tc := ⟨.hbm, 79, rfl⟩
abbrev main_v50 : Ref sig .tc := ⟨.hbm, 80, rfl⟩
abbrev main_v51 : Ref sig .tc := ⟨.hbm, 81, rfl⟩
abbrev main_c_17 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_18 : Ref sig .tc := ⟨.hbm, 86, rfl⟩
abbrev main_c_19 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v55 : Ref sig .tc := ⟨.hbm, 93, rfl⟩
abbrev main_v56 : Ref sig .tc := ⟨.hbm, 94, rfl⟩
abbrev main_c_20 : Ref sig .tc := ⟨.hbm, 95, rfl⟩
abbrev main_v57 : Ref sig .tc := ⟨.hbm, 96, rfl⟩
abbrev main_v58 : Ref sig .tc := ⟨.hbm, 97, rfl⟩
abbrev main_c_21 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_22 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v64 : Ref sig .tc := ⟨.hbm, 108, rfl⟩
abbrev main_cst_23 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_28 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_29 : Ref sig .tc := ⟨.hbm, 135, rfl⟩
abbrev main_v85 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x65 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x65 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  natLt_1_32 : 1 < 32
  inb_S64x8192_S64x8192_0_0 : ∀ a, (![0, 0] : Fin 2 → Nat) a + S64x8192.size a ≤ S64x8192.size a
  h_S64x8192 : 0 < S64x8192.numel
  reduces_S64x8192_S64 : S64x8192.Reduces [1] S64
  shapeCasts_S64_S64x1 : S64.ShapeCasts S64x1
  concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x65_d1 : Shape.Concatenates (S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: S64x1 :: []) S64x65 1
  inb_S64x65_S64x65_0_0 : ∀ a, (![0, 0] : Fin 2 → Nat) a + S64x65.size a ≤ S64x65.size a
  h_S64x65 : 0 < S64x65.numel
  bcast_S_S512x24 : S_.BroadcastsInDim S512x24 (![] : Fin 0 → Fin S512x24.rank)
  bcast_S_S65 : S_.BroadcastsInDim S65 (![] : Fin 0 → Fin S65.rank)
  bcast_S65_S65x1_0 : S65.BroadcastsInDim S65x1 (![0] : Fin 1 → Fin S65x1.rank)
  bcast_S_S512x65 : S_.BroadcastsInDim S512x65 (![] : Fin 0 → Fin S512x65.rank)
  bcast_S65_S1x65_1 : S65.BroadcastsInDim S1x65 (![1] : Fin 1 → Fin S1x65.rank)
  bcast_S1x65_S512x65_0_1 : S1x65.BroadcastsInDim S512x65 (![0, 1] : Fin 2 → Fin S512x65.rank)
  bcast_S_S512 : S_.BroadcastsInDim S512 (![] : Fin 0 → Fin S512.rank)
  bcast_S512_S512x1_0 : S512.BroadcastsInDim S512x1 (![0] : Fin 1 → Fin S512x1.rank)
  bcast_S512x1_S512x65_0_1 : S512x1.BroadcastsInDim S512x65 (![0, 1] : Fin 2 → Fin S512x65.rank)
  reducesTo_S512x65_S512_d1 : S512x65.ReducesTo [1] S512
  h_S_ : 0 < S_.numel
  scatter_S512x24_S65x1_S512x65_0_1_1_1_wf : ScatterDims.WF S512x24 S65x1 S512x65 [0] [1] [1] 1
  gather_S512x24_S65x1_S512x65_0_1_n_n_1_1_5121_wf : GatherDims.WF S512x24 S65x1 S512x65 [0] [1] [] [1] [] 1 ![512, 1]
  gather_S5x65_S512x1_S512x65_1_0_n_n_0_1_165_wf : GatherDims.WF S5x65 S512x1 S512x65 [1] [0] [] [0] [] 1 ![1, 65]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S512x8192.size a
  hwx0_0 : ∀ i : grid0.Coords, EltTy.bits .i32 = 32 ∨ (Rect.block (s := S512x8192) S64x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S512x8192.size a
  hwx0_1 : ∀ i : grid0.Coords, EltTy.bits .i32 = 32 ∨ (Rect.block (s := S512x8192) S64x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S512x8192.size a
  hwx0_2 : ∀ i : grid0.Coords, EltTy.bits .i32 = 32 ∨ (Rect.block (s := S512x8192) S64x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x65.size a ≤ S512x65.size a
  hwx0_3 : ∀ i : grid0.Coords, EltTy.bits .f32 = 32 ∨ (Rect.block (s := S512x65) S64x65.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x65.size a ≤ S512x65.size a
  hwx0_4 : ∀ i : grid0.Coords, EltTy.bits .f32 = 32 ∨ (Rect.block (s := S512x65) S64x65.size (cc0_transform_4 i) (hinb0_4 i)).WholeWords (EltTy.packing .f32)

variable [Facts₀]

def scatter_S512x24_S65x1_S512x65_0_1_1_1 : ScatterDims S512x24 S65x1 S512x65 where
  updateWindowDims := [0]
  insertedWindowDims := [1]
  scatterDimsToOperandDims := [1]
  indexVectorDim := 1
  wf := scatter_S512x24_S65x1_S512x65_0_1_1_1_wf
def gather_S512x24_S65x1_S512x65_0_1_n_n_1_1_5121 : GatherDims S512x24 S65x1 S512x65 where
  offsetDims := [0]
  collapsedSliceDims := [1]
  operandBatchingDims := []
  startIndicesBatchingDims := []
  startIndexMap := [1]
  indexVectorDim := 1
  sliceSizes := ![512, 1]
  wf := gather_S512x24_S65x1_S512x65_0_1_n_n_1_1_5121_wf
def gather_S5x65_S512x1_S512x65_1_0_n_n_0_1_165 : GatherDims S5x65 S512x1 S512x65 where
  offsetDims := [1]
  collapsedSliceDims := [0]
  operandBatchingDims := []
  startIndicesBatchingDims := []
  startIndexMap := [0]
  indexVectorDim := 1
  sliceSizes := ![1, 65]
  wf := gather_S5x65_S512x1_S512x65_1_0_n_n_0_1_165_wf

abbrev win0_0 : Pipeline.Window sig grid0 :=
  Pipeline.Window.ofSpec (Memref.whole main_arg0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S64x65.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S64x65.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x8192 : Shape := ⟨2, ![512, 8192]⟩
abbrev S512 : Shape := ⟨1, ![512]⟩
abbrev S5x65 : Shape := ⟨2, ![5, 65]⟩
abbrev S65 : Shape := ⟨1, ![65]⟩
abbrev S_ : Shape := ⟨0, ![]⟩
abbrev S512x65 : Shape := ⟨2, ![512, 65]⟩
abbrev S512x1 : Shape := ⟨2, ![512, 1]⟩
abbrev S512x8192x1 : Shape := ⟨3, ![512, 8192, 1]⟩
abbrev S512x8192x2 : Shape := ⟨3, ![512, 8192, 2]⟩
abbrev S512x24 : Shape := ⟨2, ![512, 24]⟩
abbrev S65x1 : Shape := ⟨2, ![65, 1]⟩
abbrev S1x65 : Shape := ⟨2, ![1, 65]⟩

abbrev nBuf : Space → Nat
  | .hbm => 190
  | .vmem => 0
  | .smem => 0
  | _ => 0

abbrev hbmTy0_0 (i : Nat) : BufTy := match i % 128 with
  | 0 => ⟨S512x8192, .i32⟩
  | 1 => ⟨S512x8192, .i32⟩
  | 2 => ⟨S512x8192, .i32⟩
  | 3 => ⟨S512, .i32⟩
  | 4 => ⟨S512x8192, .i1⟩
  | 5 => ⟨S5x65, .f32⟩
  | 6 => ⟨S65, .i32⟩
  | 7 => ⟨S65, .f32⟩
  | 8 => ⟨S_, .i32⟩
  | 9 => ⟨S512x8192, .i32⟩
  | 10 => ⟨S512x8192, .i1⟩
  | 11 => ⟨S512x8192, .i1⟩
  | 12 => ⟨S512x8192, .f32⟩
  | 13 => ⟨S_, .f32⟩
  | 14 => ⟨S512x65, .f32⟩
  | 15 => ⟨S512, .i32⟩
  | 16 => ⟨S512x1, .i32⟩
  | 17 => ⟨S_, .i32⟩
  | 18 => ⟨S512x1, .i32⟩
  | 19 => ⟨S512x1, .i1⟩
  | 20 => ⟨S_, .i32⟩
  | 21 => ⟨S512x1, .i32⟩
  | 22 => ⟨S512x1, .i32⟩
  | 23 => ⟨S512x1, .i32⟩
  | 24 => ⟨S_, .i32⟩
  | 25 => ⟨S512x8192, .i32⟩
  | 26 => ⟨S512x8192, .i1⟩
  | 27 => ⟨S_, .i32⟩
  | 28 => ⟨S512x8192, .i32⟩
  | 29 => ⟨S512x8192, .i32⟩
  | 30 => ⟨S512x8192, .i32⟩
  | 31 => ⟨S512x8192, .i32⟩
  | 32 => ⟨S512x8192x1, .i32⟩
  | 33 => ⟨S512x8192x1, .i32⟩
  | 34 => ⟨S512x8192x2, .i32⟩
  | 35 => ⟨S512x65, .f32⟩
  | 36 => ⟨S_, .f32⟩
  | 37 => ⟨S512x24, .f32⟩
  | 38 => ⟨S_, .i32⟩
  | 39 => ⟨S65, .i32⟩
  | 40 => ⟨S65, .i1⟩
  | 41 => ⟨S_, .i32⟩
  | 42 => ⟨S65, .i32⟩
  | 43 => ⟨S65, .i32⟩
  | 44 => ⟨S65, .i32⟩
  | 45 => ⟨S65x1, .i32⟩
  | 46 => ⟨S512x24, .f32⟩
  | 47 => ⟨S_, .i32⟩
  | 48 => ⟨S65, .i32⟩
  | 49 => ⟨S65, .i1⟩
  | 50 => ⟨S_, .i32⟩
  | 51 => ⟨S65, .i32⟩
  | 52 => ⟨S65, .i32⟩
  | 53 => ⟨S65, .i32⟩
  | 54 => ⟨S65x1, .i32⟩
  | 55 => ⟨S512x65, .f32⟩
  | 56 => ⟨S_, .f32⟩
  | 57 => ⟨S512x65, .f32⟩
  | 58 => ⟨S512x65, .i1⟩
  | 59 => ⟨S1x65, .f32⟩
  | 60 => ⟨S512x65, .f32⟩
  | 61 => ⟨S512x65, .f32⟩
  | 62 => ⟨S_, .f32⟩
  | 63 => ⟨S512x65, .f32⟩
  | 64 => ⟨S512x65, .f32⟩
  | 65 => ⟨S512x65, .f32⟩
  | 66 => ⟨S_, .f32⟩
  | 67 => ⟨S_, .f32⟩
  | 68 => ⟨S512x65, .f32⟩
  | 69 => ⟨S512x65, .f32⟩
  | 70 => ⟨S_, .i32⟩
  | 71 => ⟨S512x8192, .i32⟩
  | 72 => ⟨S512x8192, .i1⟩
  | 73 => ⟨S512x8192, .i1⟩
  | 74 => ⟨S512x8192, .f32⟩
  | 75 => ⟨S_, .f32⟩
  | 76 => ⟨S512x65, .f32⟩
  | 77 => ⟨S512, .i32⟩
  | 78 => ⟨S512x1, .i32⟩
  | 79 => ⟨S_, .i32⟩
  | 80 => ⟨S512x1, .i32⟩
  | 81 => ⟨S512x1, .i1⟩
  | 82 => ⟨S_, .i32⟩
  | 83 => ⟨S512x1, .i32⟩
  | 84 => ⟨S512x1, .i32⟩
  | 85 => ⟨S512x1, .i32⟩
  | 86 => ⟨S_, .i32⟩
  | 87 => ⟨S512x8192, .i32⟩
  | 88 => ⟨S512x8192, .i1⟩
  | 89 => ⟨S_, .i32⟩
  | 90 => ⟨S512x8192, .i32⟩
  | 91 => ⟨S512x8192, .i32⟩
  | 92 => ⟨S512x8192, .i32⟩
  | 93 => ⟨S512x8192, .i32⟩
  | 94 => ⟨S512x8192x1, .i32⟩
  | 95 => ⟨S512x8192x1, .i32⟩
  | 96 => ⟨S512x8192x2, .i32⟩
  | 97 => ⟨S512x65, .f32⟩
  | 98 => ⟨S_, .f32⟩
  | 99 => ⟨S512x24, .f32⟩
  | 100 => ⟨S_, .i32⟩
  | 101 => ⟨S65, .i32⟩
  | 102 => ⟨S65, .i1⟩
  | 103 => ⟨S_, .i32⟩
  | 104 => ⟨S65, .i32⟩
  | 105 => ⟨S65, .i32⟩
  | 106 => ⟨S65, .i32⟩
  | 107 => ⟨S65x1, .i32⟩
  | 108 => ⟨S512x24, .f32⟩
  | 109 => ⟨S_, .i32⟩
  | 110 => ⟨S65, .i32⟩
  | 111 => ⟨S65, .i1⟩
  | 112 => ⟨S_, .i32⟩
  | 113 => ⟨S65, .i32⟩
  | 114 => ⟨S65, .i32⟩
  | 115 => ⟨S65, .i32⟩
  | 116 => ⟨S65x1, .i32⟩
  | 117 => ⟨S512x65, .f32⟩
  | 118 => ⟨S_, .f32⟩
  | 119 => ⟨S512x65, .f32⟩
  | 120 => ⟨S512x65, .i1⟩
  | 121 => ⟨S1x65, .f32⟩
  | 122 => ⟨S512x65, .f32⟩
  | 123 => ⟨S512x65, .f32⟩
  | 124 => ⟨S_, .f32⟩
  | 125 => ⟨S512x65, .f32⟩
  | 126 => ⟨S512x65, .f32⟩
  | 127 => ⟨S512x65, .f32⟩
  | _ => ⟨S512x8192, .i32⟩

abbrev hbmTy0_1 (i : Nat) : BufTy := match i % 128 with
  | 0 => ⟨S_, .f32⟩
  | 1 => ⟨S_, .f32⟩
  | 2 => ⟨S512x65, .f32⟩
  | 3 => ⟨S512x65, .f32⟩
  | 4 => ⟨S_, .i32⟩
  | 5 => ⟨S512, .i32⟩
  | 6 => ⟨S512, .i1⟩
  | 7 => ⟨S_, .i32⟩
  | 8 => ⟨S512, .i32⟩
  | 9 => ⟨S512, .i1⟩
  | 10 => ⟨S512, .i1⟩
  | 11 => ⟨S512x1, .i1⟩
  | 12 => ⟨S_, .i32⟩
  | 13 => ⟨S_, .i32⟩
  | 14 => ⟨S_, .i32⟩
  | 15 => ⟨S512, .i32⟩
  | 16 => ⟨S512, .i32⟩
  | 17 => ⟨S_, .i32⟩
  | 18 => ⟨S512, .i32⟩
  | 19 => ⟨S512, .i32⟩
  | 20 => ⟨S_, .i32⟩
  | 21 => ⟨S512, .i32⟩
  | 22 => ⟨S512, .i1⟩
  | 23 => ⟨S_, .i32⟩
  | 24 => ⟨S512, .i32⟩
  | 25 => ⟨S512, .i32⟩
  | 26 => ⟨S512, .i32⟩
  | 27 => ⟨S512x1, .i32⟩
  | 28 => ⟨S512x65, .f32⟩
  | 29 => ⟨S_, .f32⟩
  | 30 => ⟨S_, .f32⟩
  | 31 => ⟨S512x65, .i1⟩
  | 32 => ⟨S512x65, .f32⟩
  | 33 => ⟨S512x65, .f32⟩
  | 34 => ⟨S_, .f32⟩
  | 35 => ⟨S512x65, .f32⟩
  | 36 => ⟨S512x65, .f32⟩
  | 37 => ⟨S_, .f32⟩
  | 38 => ⟨S512x65, .f32⟩
  | 39 => ⟨S512x65, .f32⟩
  | 40 => ⟨S512x65, .f32⟩
  | 41 => ⟨S_, .f32⟩
  | 42 => ⟨S512x65, .f32⟩
  | 43 => ⟨S512x65, .f32⟩
  | 44 => ⟨S_, .f32⟩
  | 45 => ⟨S512x65, .f32⟩
  | 46 => ⟨S512x65, .f32⟩
  | 47 => ⟨S_, .f32⟩
  | 48 => ⟨S512, .f32⟩
  | 49 => ⟨S512x1, .f32⟩
  | 50 => ⟨S512x65, .f32⟩
  | 51 => ⟨S512x65, .f32⟩
  | 52 => ⟨S_, .f32⟩
  | 53 => ⟨S512, .f32⟩
  | 54 => ⟨S512x1, .f32⟩
  | 55 => ⟨S512x65, .f32⟩
  | 56 => ⟨S512x65, .f32⟩
  | 57 => ⟨S512x65, .f32⟩
  | 58 => ⟨S512x65, .f32⟩
  | 59 => ⟨S512x65, .f32⟩
  | 60 => ⟨S_, .f32⟩
  | 61 => ⟨S512, .f32⟩
  | _ => ⟨S512x8192, .i32⟩

abbrev hbmTy (i : Nat) : BufTy := match i / 128 with
  | 0 => hbmTy0_0 i
  | 1 => hbmTy0_1 i
  | _ => ⟨S512x8192, .i32⟩

abbrev bufTy : (tb : Table) → Fin (tcTables nBuf tb) → BufTy
  | .hbm, ⟨i, _⟩ => hbmTy i
  | _, _ => ⟨S512x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_c_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_call0_v0 : Ref sig .tc := ⟨.hbm, 67, rfl⟩
abbrev main_call0_v1 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_v53 : Ref sig .tc := ⟨.hbm, 80, rfl⟩
abbrev main_v54 : Ref sig .tc := ⟨.hbm, 81, rfl⟩
abbrev main_c_17 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_18 : Ref sig .tc := ⟨.hbm, 86, rfl⟩
abbrev main_v58 : Ref sig .tc := ⟨.hbm, 87, rfl⟩
abbrev main_v59 : Ref sig .tc := ⟨.hbm, 88, rfl⟩
abbrev main_c_19 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_20 : Ref sig .tc := ⟨.hbm, 98, rfl⟩
abbrev main_v68 : Ref sig .tc := ⟨.hbm, 99, rfl⟩
abbrev main_c_21 : Ref sig .tc := ⟨.hbm, 100, rfl⟩
abbrev main_v69 : Ref sig .tc := ⟨.hbm, 101, rfl⟩
abbrev main_v70 : Ref sig .tc := ⟨.hbm, 102, rfl⟩
abbrev main_c_22 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_23 : Ref sig .tc := ⟨.hbm, 109, rfl⟩
abbrev main_v76 : Ref sig .tc := ⟨.hbm, 110, rfl⟩
abbrev main_v77 : Ref sig .tc := ⟨.hbm, 111, rfl⟩
abbrev main_c_24 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_25 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_26 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_27 : Ref sig .tc := ⟨.hbm, 128, rfl⟩
abbrev main_call1_v0 : Ref sig .tc := ⟨.hbm, 129, rfl⟩
abbrev main_call1_v1 : Ref sig .tc := ⟨.hbm, 130, rfl⟩
abbrev main_v91 : Ref sig .tc := ⟨.hbm, 131, rfl⟩
abbrev main_c_28 : Ref sig .tc := ⟨.hbm, 132, rfl⟩
abbrev main_v92 : Ref sig .tc := ⟨.hbm, 133, rfl⟩
abbrev main_v93 : Ref sig .tc := ⟨.hbm, 134, rfl⟩
abbrev main_c_29 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_30 : Ref sig .tc := ⟨.hbm, 140, rfl⟩
abbrev main_c_31 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_v98 : Ref sig .tc := ⟨.hbm, 147, rfl⟩
abbrev main_c_32 : Ref sig .tc := ⟨.hbm, 148, rfl⟩
abbrev main_v99 : Ref sig .tc := ⟨.hbm, 149, rfl⟩
abbrev main_v100 : Ref sig .tc := ⟨.hbm, 150, rfl⟩
abbrev main_c_33 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_34 : Ref sig .tc := ⟨.hbm, 157, rfl⟩
abbrev main_call3_v0 : Ref sig .tc := ⟨.hbm, 158, rfl⟩
abbrev main_call3_v1 : Ref sig .tc := ⟨.hbm, 159, rfl⟩
abbrev main_call3_v2 : Ref sig .tc := ⟨.hbm, 160, rfl⟩
abbrev main_v106 : Ref sig .tc := ⟨.hbm, 161, rfl⟩
abbrev main_cst_35 : Ref sig .tc := ⟨.hbm, 162, rfl⟩
abbrev main_v107 : Ref sig .tc := ⟨.hbm, 163, rfl⟩
abbrev main_v108 : Ref sig .tc := ⟨.hbm, 164, rfl⟩
abbrev main_cst_36 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_37 : Ref sig .tc := ⟨.hbm, 169, rfl⟩
abbrev main_v112 : Ref sig .tc := ⟨.hbm, 170, rfl⟩
abbrev main_v113 : Ref sig .tc := ⟨.hbm, 171, rfl⟩
abbrev main_cst_38 : Ref sig .tc := ⟨.hbm, 172, rfl⟩
abbrev main_v114 : Ref sig .tc := ⟨.hbm, 173, rfl⟩
abbrev main_v115 : Ref sig .tc := ⟨.hbm, 174, rfl⟩
abbrev main_cst_39 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_cst_40 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_41 : Ref sig .tc := ⟨.hbm, 188, rfl⟩
abbrev main_v127 : Ref sig .tc := ⟨.hbm, 189, rfl⟩

abbrev nD : Nat := 1
abbrev τ : Topo := Topo.v7x

variable {F : FTy → Type} [FloatOps F]

class Facts₀ : Prop where
  bcast_S_S512x8192 : S_.BroadcastsInDim S512x8192 (![] : Fin 0 → Fin S512x8192.rank)
  bcast_S_S512x65 : S_.BroadcastsInDim S512x65 (![] : Fin 0 → Fin S512x65.rank)
  bcast_S512_S512x1_0 : S512.BroadcastsInDim S512x1 (![0] : Fin 1 → Fin S512x1.rank)
  bcast_S_S512x1 : S_.BroadcastsInDim S512x1 (![] : Fin 0 → Fin S512x1.rank)
  bcast_S512x1_S512x8192_0_1 : S512x1.BroadcastsInDim S512x8192 (![0, 1] : Fin 2 → Fin S512x8192.rank)
  bcast_S512x8192_S512x8192x1_0_1 : S512x8192.BroadcastsInDim S512x8192x1 (![0, 1] : Fin 2 → Fin S512x8192x1.rank)
  concatenates_S512x8192x1_S512x8192x1_S512x8192x2_d2 : Shape.Concatenates [S512x8192x1, S512x8192x1] S512x8192x2 2
  bcast_S_S512x24 : S_.BroadcastsInDim S512x24 (![] : Fin 0 → Fin S512x24.rank)
  bcast_S_S65 : S_.BroadcastsInDim S65 (![] : Fin 0 → Fin S65.rank)
  bcast_S65_S65x1_0 : S65.BroadcastsInDim S65x1 (![0] : Fin 1 → Fin S65x1.rank)
  bcast_S65_S1x65_1 : S65.BroadcastsInDim S1x65 (![1] : Fin 1 → Fin S1x65.rank)
  bcast_S1x65_S512x65_0_1 : S1x65.BroadcastsInDim S512x65 (![0, 1] : Fin 2 → Fin S512x65.rank)
  bcast_S_S512 : S_.BroadcastsInDim S512 (![] : Fin 0 → Fin S512.rank)
  bcast_S512x1_S512x65_0_1 : S512x1.BroadcastsInDim S512x65 (![0, 1] : Fin 2 → Fin S512x65.rank)
  reducesTo_S512x65_S512_d1 : S512x65.ReducesTo [1] S512
  h_S_ : 0 < S_.numel
  scatter_S512x65_S512x8192x2_S512x8192_n_01_01_2_wf : ScatterDims.WF S512x65 S512x8192x2 S512x8192 [] [0, 1] [0, 1] 2
  scatter_S512x24_S65x1_S512x65_0_1_1_1_wf : ScatterDims.WF S512x24 S65x1 S512x65 [0] [1] [1] 1
  gather_S512x24_S65x1_S512x65_0_1_n_n_1_1_5121_wf : GatherDims.WF S512x24 S65x1 S512x65 [0] [1] [] [1] [] 1 ![512, 1]
  gather_S5x65_S512x1_S512x65_1_0_n_n_0_1_165_wf : GatherDims.WF S5x65 S512x1 S512x65 [1] [0] [] [0] [] 1 ![1, 65]

variable [Facts₀]

def scatter_S512x65_S512x8192x2_S512x8192_n_01_01_2 : ScatterDims S512x65 S512x8192x2 S512x8192 where
  updateWindowDims := []
  insertedWindowDims := [0, 1]
  scatterDimsToOperandDims := [0, 1]
  indexVectorDim := 2
  wf := scatter_S512x65_S512x8192x2_S512x8192_n_01_01_2_wf
def scatter_S512x24_S65x1_S512x65_0_1_1_1 : ScatterDims S512x24 S65x1 S512x65 where
  updateWindowDims := [0]
  insertedWindowDims := [1]
  scatterDimsToOperandDims := [1]
  indexVectorDim := 1
  wf := scatter_S512x24_S65x1_S512x65_0_1_1_1_wf
def gather_S512x24_S65x1_S512x65_0_1_n_n_1_1_5121 : GatherDims S512x24 S65x1 S512x65 where
  offsetDims := [0]
  collapsedSliceDims := [1]
  operandBatchingDims := []
  startIndicesBatchingDims := []
  startIndexMap := [1]
  indexVectorDim := 1
  sliceSizes := ![512, 1]
  wf := gather_S512x24_S65x1_S512x65_0_1_n_n_1_1_5121_wf
def gather_S5x65_S512x1_S512x65_1_0_n_n_0_1_165 : GatherDims S5x65 S512x1 S512x65 where
  offsetDims := [1]
  collapsedSliceDims := [0]
  operandBatchingDims := []
  startIndicesBatchingDims := []
  startIndexMap := [0]
  indexVectorDim := 1
  sliceSizes := ![1, 65]
  wf := gather_S5x65_S512x1_S512x65_1_0_n_n_0_1_165_wf

class Facts : Prop extends Facts₀ where

variable [Facts]
-- ==== Proof.KBlk.lean ====
/-
  One grid point's result block, written once and regularly.  For a block of 64 rows of codon ids and of
  mask words the kernel forms the weight  [mask word ≠ 0] · [id > 0]  per position, and for each codon
  1 … 64 the row sums of that weight over the positions whose id, converted to a float, equals the codon's
  float constant.  The block is the 65 columns side by side: a zero column for codon 0, then one column per
  codon.  Each codon enters only through the 16-bit pattern of its float constant.
-/
import proofs.«415818_j19533511262776_3_alg».proof.Proof.Gen.Kernel

noncomputable section

namespace Cert.Kernel.Blk

open Idealize.ShloMosaic Cert.Kernel Cert.Kernel.Facts₀ Cert.Kernel.Facts

variable {F : FTy → Type} [FloatOps F] [Cert.Kernel.Facts]

/-- The weight of a position: 1 where the mask word is not zero and the id is positive, else 0 (a product of two
    0/1 floats). -/
def wgt (ids msk : Vec F S64x8192 .i32) : FVec F S64x8192 .f32 :=
  mulf (sitofp .f32 (extui 32 (cmpi .ne msk (constantI S64x8192 32 0#32)) natLt_1_32) : FVec F S64x8192 .f32)
    (sitofp .f32 (extui 32 (cmpi .sgt ids (broadcast S64x8192 0#32)) natLt_1_32) : FVec F S64x8192 .f32)

/-- The column of the codon whose float constant has the 16-bit pattern `w`: per row, the sum over the positions
    of the weight where the id as a float equals that constant, and of 0 elsewhere. -/
def col (w : BitVec 16) (ids msk : Vec F S64x8192 .i32) : FVec F S64x1 .f32 :=
  shapeCast S64x1
    (multiReduction .add [1] S64
      (select (cmpf .oeq (sitofp .bf16 ids : FVec F S64x8192 .bf16) (broadcast S64x8192 (Scalar.ofBits .bf16 w : F .bf16))) (wgt ids msk)
        (broadcast S64x8192 (Scalar.ofBits .f32 0x00000000#32 : F .f32)) : FVec F S64x8192 .f32)
      0x00000000#32 reduces_S64x8192_S64 (.inl rfl) rfl)
    shapeCasts_S64_S64x1

/-- The zero column (codon 0 is never counted). -/
def zcol : FVec F S64x1 .f32 := broadcast S64x1 (Scalar.ofBits .f32 0x00000000#32 : F .f32)

/-- The result block of one grid point: the zero column, then the columns of the codons 1 … 64 in order. -/
def blk (ids msk : Vec F S64x8192 .i32) : FVec F S64x65 .f32 :=
  concatenate S64x65 1 (⟨S64x1, zcol (F := F)⟩ :: ⟨S64x1, col (F := F) 0x3F80#16 ids msk⟩ :: ⟨S64x1, col (F := F) 0x4000#16 ids msk⟩ :: ⟨S64x1, col (F := F) 0x4040#16 ids msk⟩ :: ⟨S64x1, col (F := F) 0x4080#16 ids msk⟩ :: ⟨S64x1, col (F := F) 0x40A0#16 ids msk⟩ :: ⟨S64x1, col (F := F) 0x40C0#16 ids msk⟩ :: ⟨S64x1, col (F := F) 0x40E0#16 ids msk⟩ :: ⟨S64x1, col (F := F) 0x4100#16 ids msk⟩ :: ⟨S64x1, col (F := F) 0x4110#16 ids msk⟩ :: ⟨S64x1, col (F := F) 0x4120#16 ids msk⟩ :: ⟨S64x1, col (F := F) 0x4130#16 ids msk⟩ :: ⟨S64x1, col (F := F) 0x4140#16 ids msk⟩ :: ⟨S64x1, col (F := F) 0x4150#16 ids msk⟩ :: ⟨S64x1, col (F := F) 0x4160#16 ids msk⟩ :: ⟨S64x1, col (F := F) 0x4170#16 ids msk⟩ :: ⟨S64x1, col (F := F) 0x4180#16 ids msk⟩ :: ⟨S64x1, col (F := F) 0x4188#16 ids msk⟩ :: ⟨S64x1, col (F := F) 0x4190#16 ids msk⟩ :: ⟨S64x1, col (F := F) 0x4198#16 ids msk⟩ :: ⟨S64x1, col (F := F) 0x41A0#16 ids msk⟩ :: ⟨S64x1, col (F := F) 0x41A8#16 ids msk⟩ :: ⟨S64x1, col (F := F) 0x41B0#16 ids msk⟩ :: ⟨S64x1, col (F := F) 0x41B8#16 ids msk⟩ :: ⟨S64x1, col (F := F) 0x41C0#16 ids msk⟩ :: ⟨S64x1, col (F := F) 0x41C8#16 ids msk⟩ :: ⟨S64x1, col (F := F) 0x41D0#16 ids msk⟩ :: ⟨S64x1, col (F := F) 0x41D8#16 ids msk⟩ :: ⟨S64x1, col (F := F) 0x41E0#16 ids msk⟩ :: ⟨S64x1, col (F := F) 0x41E8#16 ids msk⟩ :: ⟨S64x1, col (F := F) 0x41F0#16 ids msk⟩ :: ⟨S64x1, col (F := F) 0x41F8#16 ids msk⟩ :: ⟨S64x1, col (F := F) 0x4200#16 ids msk⟩ :: ⟨S64x1, col (F := F) 0x4204#16 ids msk⟩ :: ⟨S64x1, col (F := F) 0x4208#16 ids msk⟩ :: ⟨S64x1, col (F := F) 0x420C#16 ids msk⟩ :: ⟨S64x1, col (F := F) 0x4210#16 ids msk⟩ :: ⟨S64x1, col (F := F) 0x4214#16 ids msk⟩ :: ⟨S64x1, col (F := F) 0x4218#16 ids msk⟩ :: ⟨S64x1, col (F := F) 0x421C#16 ids msk⟩ :: ⟨S64x1, col (F := F) 0x4220#16 ids msk⟩ :: ⟨S64x1, col (F := F) 0x4224#16 ids msk⟩ :: ⟨S64x1, col (F := F) 0x4228#16 ids msk⟩ :: ⟨S64x1, col (F := F) 0x422C#16 ids msk⟩ :: ⟨S64x1, col (F := F) 0x4230#16 ids msk⟩ :: ⟨S64x1, col (F := F) 0x4234#16 ids msk⟩ :: ⟨S64x1, col (F := F) 0x4238#16 ids msk⟩ :: ⟨S64x1, col (F := F) 0x423C#16 ids msk⟩ :: ⟨S64x1, col (F := F) 0x4240#16 ids msk⟩ :: ⟨S64x1, col (F := F) 0x4244#16 ids msk⟩ :: ⟨S64x1, col (F := F) 0x4248#16 ids msk⟩ :: ⟨S64x1, col (F := F) 0x424C#16 ids msk⟩ :: ⟨S64x1, col (F := F) 0x4250#16 ids msk⟩ :: ⟨S64x1, col (F := F) 0x4254#16 ids msk⟩ :: ⟨S64x1, col (F := F) 0x4258#16 ids msk⟩ :: ⟨S64x1, col (F := F) 0x425C#16 ids msk⟩ :: ⟨S64x1, col (F := F) 0x4260#16 ids msk⟩ :: ⟨S64x1, col (F := F) 0x4264#16 ids msk⟩ :: ⟨S64x1, col (F := F) 0x4268#16 ids msk⟩ :: ⟨S64x1, col (F := F) 0x426C#16 ids msk⟩ :: ⟨S64x1, col (F := F) 0x4270#16 ids msk⟩ :: ⟨S64x1, col (F := F) 0x4274#16 ids msk⟩ :: ⟨S64x1, col (F := F) 0x4278#16 ids msk⟩ :: ⟨S64x1, col (F := F) 0x427C#16 ids msk⟩ :: ⟨S64x1, col (F := F) 0x4280#16 ids msk⟩ :: [])
    concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x65_d1

end Cert.Kernel.Blk

end
-- ==== Proof.KFrame.lean ====
/-
  The frame of the program, and its run with every output named.  @main is three host operations, one pipelined
  region over a grid of 8 points, and 126 host operations after it.  At each point the region stages a 64-row block
  of the two id arrays and of the mask words, the body writes the two 64 × 65 histogram blocks, and the pipeline
  writes them back.  The region is run by the library's launch theorem for a region with host operations on both
  sides: the proof data name what every staging buffer holds after the body at each point, the body's triple is run
  once at symbolic blocks, and the operations after the region touch no array the region stages and no argument.
-/
import proofs.«415818_j19533511262776_3_alg».proof.Proof.Gen.Kernel.Launch
import proofs.«415818_j19533511262776_3_alg».proof.Proof.Gen.Kernel.Skeleton
import proofs.«415818_j19533511262776_3_alg».proof.Proof.Gen.Kernel.Points
import proofs.«415818_j19533511262776_3_alg».proof.Proof.KBlk
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and writes -/

/-- The whole 64 × 8192 block of an input window, and the whole 64 × 65 block of an output window. -/
abbrev rIn : Rect S64x8192 := Rect.unit (s := S64x8192) ![0, 0] S64x8192.size inb_S64x8192_S64x8192_0_0
abbrev rOut : Rect S64x65 := Rect.unit (s := S64x65) ![0, 0] S64x65.size inb_S64x65_S64x65_0_0

/-- An output window's staging buffer after the body: its one whole-block store, of the histogram block of the id
    block `x` under the mask block `x2`. -/
def outOf (x x2 : Vec F S64x8192 .i32) : Vec F S64x65 .f32 :=
  View.canon [⟨rOut, Cert.Kernel.Blk.blk (View.ld x rIn) (View.ld x2 rIn)⟩]

/-- The one store covers the buffer. -/
theorem coverOut (p0 : Vec F S64x65 .f32) (y : S64x65.Idx) :
    ∃ pc ∈ ([⟨rOut, p0⟩] : List (View.Piece (Elt F) S64x65 .f32)), y ∈ pc.1.set :=
  View.cover_of_tiled [⟨rOut, p0⟩] S64x65.size (by rfl) y

/-! ## The body's triple -/

set_option maxHeartbeats 4000000 in
/-- The kernel body on whole staging buffers — the three inputs' at contents `x0`, `x1`, `x2`, the two outputs'
    at anything — runs to its return holding the inputs' as they were and each output's at the histogram block of
    its id block under the mask block. The composed columns the body computes are, by unfolding, the columns of
    the regular block definition. -/
theorem sound_kernel (c : Dev nD) (E : Set ℕ) (i : grid0.Coords)
    (arg1 : Memref sig .tc .vmem S64x8192 .i32) (harg1 : arg1.IsWhole) (arg2 : Memref sig .tc .vmem S64x8192 .i32) (harg2 : arg2.IsWhole)
    (arg3 : Memref sig .tc .vmem S64x8192 .i32) (harg3 : arg3.IsWhole) (arg4 : Memref sig .tc .vmem S64x65 .f32) (harg4 : arg4.IsWhole)
    (arg5 : Memref sig .tc .vmem S64x65 .f32) (harg5 : arg5.IsWhole)
    (x0 x1 x2 : Vec F S64x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outOf x0 x2) ∗ owns (c : Thread nD τ) arg5 fullShare (outOf x1 x2)) -∗ K ⟨⟩))
      ⊢ wp frame (wpE (defs₀ (F := F)) Variants.none c none) E (cc0__hist_kernel i arg1 harg1 arg2 harg2 arg3 harg3 arg4 harg4 arg5 harg5) K := by
  simp only [cc0__hist_kernel_eq_skeleton]; unfold cc0__hist_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (coverOut _)).trans rfl
  iexists _; isplitr
  swap; · iexact H4
  ipureintro
  exact (View.read_writes_eq_canon _ _ _ (coverOut _)).trans rfl

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2, hostOps1_3, hostOps1_4, hostOps1_5, hostOps1_6, hostOps1_7, hostOps1_8]

/-- Core `c`'s buffer contents when the region is entered: the launch contents after the three host operations
    before it (the two constant tables and the mask widened to 32-bit words). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host operations before the region, the region, and the host operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later operation touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- None allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No operation of this stretch writes an array the region stages: each writes its own result buffer only. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And none writes an array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- A buffer none of the three operations before the region writes enters the region as launched. -/
theorem V_of_not_written (c : Dev nD) (b : Ref sig .tc) (h0 : b ≠ main_c) (h1 : b ≠ main_cst) (h2 : b ≠ main_v0) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    each input's buffer at its block, the first output's at the histogram block of the first id block under the mask
    block, the second's at that of the second id block; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (iblk m c 0 t) (iblk m c 2 t)
    | ⟨4, _⟩ => outOf (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outOf (iblk m c 0 t) (iblk m c 2 t) := by dsimp only [dats]
theorem after0_4 (c : Dev nD) (t : Fin cfg0.N) : (dats m 0 c).after 4 t = outOf (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    each array of the pipeline at what the proof data give and every other unscoped buffer as the operations after the
    region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The arguments end as launched -/

theorem hostOps1_args : (hostOps1 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_args : (hostOps1_1 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_args : (hostOps1_2 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_args : (hostOps1_3 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_args : (hostOps1_4 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_args : (hostOps1_5 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_args : (hostOps1_6 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_args : (hostOps1_7 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_args : (hostOps1_8 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation after the region writes one of the four arguments the region does not stage. -/
theorem tail_args : ∀ op ∈ (tailOps : List (List (HloOp τ sig (Elt F)))).flatten,
    Proc.devRef .tc main_arg2 ∉ op.writes ∧ Proc.devRef .tc main_arg3 ∉ op.writes ∧ Proc.devRef .tc main_arg4 ∉ op.writes ∧ Proc.devRef .tc main_arg5 ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop
  · exact (List.forall_iff_forall_mem.mp hostOps1_7_args) op hop
  · exact (List.forall_iff_forall_mem.mp hostOps1_8_args) op hop

/-- `main_arg2` is no array of the pipeline and no operation before or after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => (tail_args op hop).1),
    Pipeline.withArrays_of_ne _ c (V0 m c) _ main_arg2 (by exact (by decide : ∀ w, Pipeline.arrRef spec0 w ≠ main_arg2))]
  exact V_of_not_written m c main_arg2 (by decide) (by decide) (by decide)
/-- `main_arg3` is no array of the pipeline and no operation before or after the region writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => (tail_args op hop).2.1),
    Pipeline.withArrays_of_ne _ c (V0 m c) _ main_arg3 (by exact (by decide : ∀ w, Pipeline.arrRef spec0 w ≠ main_arg3))]
  exact V_of_not_written m c main_arg3 (by decide) (by decide) (by decide)
/-- `main_arg4` is no array of the pipeline and no operation before or after the region writes it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => (tail_args op hop).2.2.1),
    Pipeline.withArrays_of_ne _ c (V0 m c) _ main_arg4 (by exact (by decide : ∀ w, Pipeline.arrRef spec0 w ≠ main_arg4))]
  exact V_of_not_written m c main_arg4 (by decide) (by decide) (by decide)
/-- `main_arg5` is no array of the pipeline and no operation before or after the region writes it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (fun op hop => (tail_args op hop).2.2.2),
    Pipeline.withArrays_of_ne _ c (V0 m c) _ main_arg5 (by exact (by decide : ∀ w, Pipeline.arrRef spec0 w ≠ main_arg5))]
  exact V_of_not_written m c main_arg5 (by decide) (by decide) (by decide)

/-! ## The frame -/

/-- The frame claim's post from the run's: the two id arrays are staged inputs (their arrays end as the region found
    them, which is as launched); the other four arguments bypass the region and no operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((((dats m) 0 c).arrAt_in 0 rfl _).trans ((A_eq m c 0).trans (V_of_not_written m c main_arg0 (by decide) (by decide) (by decide)))),
     ((h c).1 1).trans ((((dats m) 0 c).arrAt_in 1 rfl _).trans ((A_eq m c 1).trans (V_of_not_written m c main_arg1 (by decide) (by decide) (by decide)))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩) (run_main m ρ)

end Cert.Kernel.HFrame

end
-- ==== Proof.KIBlk.lean ====
/-
  One grid point's result block, written once and regularly.  For a block of 64 rows of codon ids and of
  mask words the kernel forms the weight  [mask word ≠ 0] · [id > 0]  per position, and for each codon
  1 … 64 the row sums of that weight over the positions whose id, converted to a float, equals the codon's
  float constant.  The block is the 65 columns side by side: a zero column for codon 0, then one column per
  codon.  Each codon enters only through the 16-bit pattern of its float constant.
-/
import proofs.«415818_j19533511262776_3_alg».proof.Proof.Gen.KernelIdeal

noncomputable section

namespace Cert.KernelIdeal.Blk

open Idealize.ShloMosaic Cert.KernelIdeal Cert.KernelIdeal.Facts₀ Cert.KernelIdeal.Facts

variable {F : FTy → Type} [FloatOps F] [Cert.KernelIdeal.Facts]

/-- The weight of a position: 1 where the mask word is not zero and the id is positive, else 0 (a product of two
    0/1 floats). -/
def wgt (ids msk : Vec F S64x8192 .i32) : FVec F S64x8192 .f32 :=
  mulf (sitofp .f32 (extui 32 (cmpi .ne msk (constantI S64x8192 32 0#32)) natLt_1_32) : FVec F S64x8192 .f32)
    (sitofp .f32 (extui 32 (cmpi .sgt ids (broadcast S64x8192 0#32)) natLt_1_32) : FVec F S64x8192 .f32)

/-- The column of the codon whose float constant has the 16-bit pattern `w`: per row, the sum over the positions
    of the weight where the id as a float equals that constant, and of 0 elsewhere. -/
def col (w : BitVec 16) (ids msk : Vec F S64x8192 .i32) : FVec F S64x1 .f32 :=
  shapeCast S64x1
    (multiReduction .add [1] S64
      (select (cmpf .oeq (sitofp .bf16 ids : FVec F S64x8192 .bf16) (broadcast S64x8192 (Scalar.ofBits .bf16 w : F .bf16))) (wgt ids msk)
        (broadcast S64x8192 (Scalar.ofBits .f32 0x00000000#32 : F .f32)) : FVec F S64x8192 .f32)
      0x00000000#32 reduces_S64x8192_S64 (.inl rfl) rfl)
    shapeCasts_S64_S64x1

/-- The zero column (codon 0 is never counted). -/
def zcol : FVec F S64x1 .f32 := broadcast S64x1 (Scalar.ofBits .f32 0x00000000#32 : F .f32)

/-- The result block of one grid point: the zero column, then the columns of the codons 1 … 64 in order. -/
def blk (ids msk : Vec F S64x8192 .i32) : FVec F S64x65 .f32 :=
  concatenate S64x65 1 (⟨S64x1, zcol (F := F)⟩ :: ⟨S64x1, col (F := F) 0x3F80#16 ids msk⟩ :: ⟨S64x1, col (F := F) 0x4000#16 ids msk⟩ :: ⟨S64x1, col (F := F) 0x4040#16 ids msk⟩ :: ⟨S64x1, col (F := F) 0x4080#16 ids msk⟩ :: ⟨S64x1, col (F := F) 0x40A0#16 ids msk⟩ :: ⟨S64x1, col (F := F) 0x40C0#16 ids msk⟩ :: ⟨S64x1, col (F := F) 0x40E0#16 ids msk⟩ :: ⟨S64x1, col (F := F) 0x4100#16 ids msk⟩ :: ⟨S64x1, col (F := F) 0x4110#16 ids msk⟩ :: ⟨S64x1, col (F := F) 0x4120#16 ids msk⟩ :: ⟨S64x1, col (F := F) 0x4130#16 ids msk⟩ :: ⟨S64x1, col (F := F) 0x4140#16 ids msk⟩ :: ⟨S64x1, col (F := F) 0x4150#16 ids msk⟩ :: ⟨S64x1, col (F := F) 0x4160#16 ids msk⟩ :: ⟨S64x1, col (F := F) 0x4170#16 ids msk⟩ :: ⟨S64x1, col (F := F) 0x4180#16 ids msk⟩ :: ⟨S64x1, col (F := F) 0x4188#16 ids msk⟩ :: ⟨S64x1, col (F := F) 0x4190#16 ids msk⟩ :: ⟨S64x1, col (F := F) 0x4198#16 ids msk⟩ :: ⟨S64x1, col (F := F) 0x41A0#16 ids msk⟩ :: ⟨S64x1, col (F := F) 0x41A8#16 ids msk⟩ :: ⟨S64x1, col (F := F) 0x41B0#16 ids msk⟩ :: ⟨S64x1, col (F := F) 0x41B8#16 ids msk⟩ :: ⟨S64x1, col (F := F) 0x41C0#16 ids msk⟩ :: ⟨S64x1, col (F := F) 0x41C8#16 ids msk⟩ :: ⟨S64x1, col (F := F) 0x41D0#16 ids msk⟩ :: ⟨S64x1, col (F := F) 0x41D8#16 ids msk⟩ :: ⟨S64x1, col (F := F) 0x41E0#16 ids msk⟩ :: ⟨S64x1, col (F := F) 0x41E8#16 ids msk⟩ :: ⟨S64x1, col (F := F) 0x41F0#16 ids msk⟩ :: ⟨S64x1, col (F := F) 0x41F8#16 ids msk⟩ :: ⟨S64x1, col (F := F) 0x4200#16 ids msk⟩ :: ⟨S64x1, col (F := F) 0x4204#16 ids msk⟩ :: ⟨S64x1, col (F := F) 0x4208#16 ids msk⟩ :: ⟨S64x1, col (F := F) 0x420C#16 ids msk⟩ :: ⟨S64x1, col (F := F) 0x4210#16 ids msk⟩ :: ⟨S64x1, col (F := F) 0x4214#16 ids msk⟩ :: ⟨S64x1, col (F := F) 0x4218#16 ids msk⟩ :: ⟨S64x1, col (F := F) 0x421C#16 ids msk⟩ :: ⟨S64x1, col (F := F) 0x4220#16 ids msk⟩ :: ⟨S64x1, col (F := F) 0x4224#16 ids msk⟩ :: ⟨S64x1, col (F := F) 0x4228#16 ids msk⟩ :: ⟨S64x1, col (F := F) 0x422C#16 ids msk⟩ :: ⟨S64x1, col (F := F) 0x4230#16 ids msk⟩ :: ⟨S64x1, col (F := F) 0x4234#16 ids msk⟩ :: ⟨S64x1, col (F := F) 0x4238#16 ids msk⟩ :: ⟨S64x1, col (F := F) 0x423C#16 ids msk⟩ :: ⟨S64x1, col (F := F) 0x4240#16 ids msk⟩ :: ⟨S64x1, col (F := F) 0x4244#16 ids msk⟩ :: ⟨S64x1, col (F := F) 0x4248#16 ids msk⟩ :: ⟨S64x1, col (F := F) 0x424C#16 ids msk⟩ :: ⟨S64x1, col (F := F) 0x4250#16 ids msk⟩ :: ⟨S64x1, col (F := F) 0x4254#16 ids msk⟩ :: ⟨S64x1, col (F := F) 0x4258#16 ids msk⟩ :: ⟨S64x1, col (F := F) 0x425C#16 ids msk⟩ :: ⟨S64x1, col (F := F) 0x4260#16 ids msk⟩ :: ⟨S64x1, col (F := F) 0x4264#16 ids msk⟩ :: ⟨S64x1, col (F := F) 0x4268#16 ids msk⟩ :: ⟨S64x1, col (F := F) 0x426C#16 ids msk⟩ :: ⟨S64x1, col (F := F) 0x4270#16 ids msk⟩ :: ⟨S64x1, col (F := F) 0x4274#16 ids msk⟩ :: ⟨S64x1, col (F := F) 0x4278#16 ids msk⟩ :: ⟨S64x1, col (F := F) 0x427C#16 ids msk⟩ :: ⟨S64x1, col (F := F) 0x4280#16 ids msk⟩ :: [])
    concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x65_d1

end Cert.KernelIdeal.Blk

end
-- ==== Proof.KIFrame.lean ====
/-
  The frame of the program, and its run with every output named.  @main is three host operations, one pipelined
  region over a grid of 8 points, and 126 host operations after it.  At each point the region stages a 64-row block
  of the two id arrays and of the mask words, the body writes the two 64 × 65 histogram blocks, and the pipeline
  writes them back.  The region is run by the library's launch theorem for a region with host operations on both
  sides: the proof data name what every staging buffer holds after the body at each point, the body's triple is run
  once at symbolic blocks, and the operations after the region touch no array the region stages and no argument.
-/
import proofs.«415818_j19533511262776_3_alg».proof.Proof.Gen.KernelIdeal.Launch
import proofs.«415818_j19533511262776_3_alg».proof.Proof.Gen.KernelIdeal.Skeleton
import proofs.«415818_j19533511262776_3_alg».proof.Proof.Gen.KernelIdeal.Points
import proofs.«415818_j19533511262776_3_alg».proof.Proof.KIBlk
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and writes -/

/-- The whole 64 × 8192 block of an input window, and the whole 64 × 65 block of an output window. -/
abbrev rIn : Rect S64x8192 := Rect.unit (s := S64x8192) ![0, 0] S64x8192.size inb_S64x8192_S64x8192_0_0
abbrev rOut : Rect S64x65 := Rect.unit (s := S64x65) ![0, 0] S64x65.size inb_S64x65_S64x65_0_0

/-- An output window's staging buffer after the body: its one whole-block store, of the histogram block of the id
    block `x` under the mask block `x2`. -/
def outOf (x x2 : Vec F S64x8192 .i32) : Vec F S64x65 .f32 :=
  View.canon [⟨rOut, Cert.KernelIdeal.Blk.blk (View.ld x rIn) (View.ld x2 rIn)⟩]

/-- The one store covers the buffer. -/
theorem coverOut (p0 : Vec F S64x65 .f32) (y : S64x65.Idx) :
    ∃ pc ∈ ([⟨rOut, p0⟩] : List (View.Piece (Elt F) S64x65 .f32)), y ∈ pc.1.set :=
  View.cover_of_tiled [⟨rOut, p0⟩] S64x65.size (by rfl) y

/-! ## The body's triple -/

set_option maxHeartbeats 4000000 in
/-- The kernel body on whole staging buffers — the three inputs' at contents `x0`, `x1`, `x2`, the two outputs'
    at anything — runs to its return holding the inputs' as they were and each output's at the histogram block of
    its id block under the mask block. The composed columns the body computes are, by unfolding, the columns of
    the regular block definition. -/
theorem sound_kernel (c : Dev nD) (E : Set ℕ) (i : grid0.Coords)
    (arg1 : Memref sig .tc .vmem S64x8192 .i32) (harg1 : arg1.IsWhole) (arg2 : Memref sig .tc .vmem S64x8192 .i32) (harg2 : arg2.IsWhole)
    (arg3 : Memref sig .tc .vmem S64x8192 .i32) (harg3 : arg3.IsWhole) (arg4 : Memref sig .tc .vmem S64x65 .f32) (harg4 : arg4.IsWhole)
    (arg5 : Memref sig .tc .vmem S64x65 .f32) (harg5 : arg5.IsWhole)
    (x0 x1 x2 : Vec F S64x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outOf x0 x2) ∗ owns (c : Thread nD τ) arg5 fullShare (outOf x1 x2)) -∗ K ⟨⟩))
      ⊢ wp frame (wpE (defs₀ (F := F)) Variants.none c none) E (cc0__hist_kernel i arg1 harg1 arg2 harg2 arg3 harg3 arg4 harg4 arg5 harg5) K := by
  simp only [cc0__hist_kernel_eq_skeleton]; unfold cc0__hist_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (coverOut _)).trans rfl
  iexists _; isplitr
  swap; · iexact H4
  ipureintro
  exact (View.read_writes_eq_canon _ _ _ (coverOut _)).trans rfl

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2, hostOps1_3, hostOps1_4, hostOps1_5, hostOps1_6, hostOps1_7, hostOps1_8]

/-- Core `c`'s buffer contents when the region is entered: the launch contents after the three host operations
    before it (the two constant tables and the mask widened to 32-bit words). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host operations before the region, the region, and the host operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later operation touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- None allocates. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No operation of this stretch writes an array the region stages: each writes its own result buffer only. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array the region stages: each writes its own result buffer only. -/
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And none writes an array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- A buffer none of the three operations before the region writes enters the region as launched. -/
theorem V_of_not_written (c : Dev nD) (b : Ref sig .tc) (h0 : b ≠ main_c) (h1 : b ≠ main_cst) (h2 : b ≠ main_v0) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    each input's buffer at its block, the first output's at the histogram block of the first id block under the mask
    block, the second's at that of the second id block; the invariant is the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outOf (iblk m c 0 t) (iblk m c 2 t)
    | ⟨4, _⟩ => outOf (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outOf (iblk m c 0 t) (iblk m c 2 t) := by dsimp only [dats]
theorem after0_4 (c : Dev nD) (t : Fin cfg0.N) : (dats m 0 c).after 4 t = outOf (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    each array of the pipeline at what the proof data give and every other unscoped buffer as the operations after the
    region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The arguments end as launched -/

theorem hostOps1_args : (hostOps1 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_args : (hostOps1_1 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_args : (hostOps1_2 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_args : (hostOps1_3 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_args : (hostOps1_4 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_args : (hostOps1_5 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_args : (hostOps1_6 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_args : (hostOps1_7 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_args : (hostOps1_8 : List (HloOp τ sig (Elt F))).Forall fun op =>
    Proc.devRef .tc main_arg2 ∉ op.writes ∧ Proc.devRef .tc main_arg3 ∉ op.writes ∧ Proc.devRef .tc main_arg4 ∉ op.writes ∧ Proc.devRef .tc main_arg5 ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- No operation after the region writes one of the four arguments the region does not stage. -/
theorem tail_args : ∀ op ∈ (tailOps : List (List (HloOp τ sig (Elt F)))).flatten,
    Proc.devRef .tc main_arg2 ∉ op.writes ∧ Proc.devRef .tc main_arg3 ∉ op.writes ∧ Proc.devRef .tc main_arg4 ∉ op.writes ∧ Proc.devRef .tc main_arg5 ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl
  · exact (List.forall_iff_forall_mem.mp hostOps1_args) op hop
  · exact (List.forall_iff_forall_mem.mp hostOps1_1_args) op hop
  · exact (List.forall_iff_forall_mem.mp hostOps1_2_args) op hop
  · exact (List.forall_iff_forall_mem.mp hostOps1_3_args) op hop
  · exact (List.forall_iff_forall_mem.mp hostOps1_4_args) op hop
  · exact (List.forall_iff_forall_mem.mp hostOps1_5_args) op hop
  · exact (List.forall_iff_forall_mem.mp hostOps1_6_args) op hop
  · exact (List.forall_iff_forall_mem.mp hostOps1_7_args) op hop
  · exact (List.forall_iff_forall_mem.mp hostOps1_8_args) op hop

/-- `main_arg2` is no array of the pipeline and no operation before or after the region writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (fun op hop => (tail_args op hop).1),
    Pipeline.withArrays_of_ne _ c (V0 m c) _ main_arg2 (by exact (by decide : ∀ w, Pipeline.arrRef spec0 w ≠ main_arg2))]
  exact V_of_not_written m c main_arg2 (by decide) (by decide) (by decide)
/-- `main_arg3` is no array of the pipeline and no operation before or after the region writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (fun op hop => (tail_args op hop).2.1),
    Pipeline.withArrays_of_ne _ c (V0 m c) _ main_arg3 (by exact (by decide : ∀ w, Pipeline.arrRef spec0 w ≠ main_arg3))]
  exact V_of_not_written m c main_arg3 (by decide) (by decide) (by decide)
/-- `main_arg4` is no array of the pipeline and no operation before or after the region writes it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (fun op hop => (tail_args op hop).2.2.1),
    Pipeline.withArrays_of_ne _ c (V0 m c) _ main_arg4 (by exact (by decide : ∀ w, Pipeline.arrRef spec0 w ≠ main_arg4))]
  exact V_of_not_written m c main_arg4 (by decide) (by decide) (by decide)
/-- `main_arg5` is no array of the pipeline and no operation before or after the region writes it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (fun op hop => (tail_args op hop).2.2.2),
    Pipeline.withArrays_of_ne _ c (V0 m c) _ main_arg5 (by exact (by decide : ∀ w, Pipeline.arrRef spec0 w ≠ main_arg5))]
  exact V_of_not_written m c main_arg5 (by decide) (by decide) (by decide)

/-! ## The frame -/

/-- The frame claim's post from the run's: the two id arrays are staged inputs (their arrays end as the region found
    them, which is as launched); the other four arguments bypass the region and no operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((((dats m) 0 c).arrAt_in 0 rfl _).trans ((A_eq m c 0).trans (V_of_not_written m c main_arg0 (by decide) (by decide) (by decide)))),
     ((h c).1 1).trans ((((dats m) 0 c).arrAt_in 1 rfl _).trans ((A_eq m c 1).trans (V_of_not_written m c main_arg1 (by decide) (by decide) (by decide)))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩) (run_main m ρ)

end Cert.KernelIdeal.HFrame

end
-- ==== Proof.RefOps.lean ====
/-
  The reference program's @main as three lists of host operations, one per printed window, in program order.
  A call of a module-local function executes the callee's body on the caller's buffers, so the body's
  operations stand in the call's place, over the call's own buffers.
-/
import proofs.«415818_j19533511262776_3_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- Statements 1 … 60. The indicator (as a float) of the mask and the first index array being positive, scatter-added into a 512×65 table of zeros at (row, index), a negative row or index first moved up by the axis' size; that table scatter-added along the constant group table into 24 columns and gathered back along the same table; and the quotient of the table times the constant weights by the regrouped table bounded below by one. 60 operations, in order. -/
abbrev ops0 : List (HloOp τ sig (Elt F)) :=
  [ StableHlo.nullary main_c (fun i => lit0 (S65.rowMajor i)),
    StableHlo.nullary main_cst (fun i => FloatOps.ofBits .f32 (lit1 (S65.rowMajor i))),
    StableHlo.nullary main_c_0 (constantI S_ 32 0#32),
    StableHlo.unary main_c_0 main_v0 (broadcastInDim S512x8192 ![] bcast_S_S512x8192 : (⟨S_, .i32⟩ : BufTy).Contents (Elt F) → (⟨S512x8192, .i32⟩ : BufTy).Contents (Elt F)),
    StableHlo.binary main_arg0 main_v0 main_v1 (cmpi .sgt : (⟨S512x8192, .i32⟩ : BufTy).Contents (Elt F) → (⟨S512x8192, .i32⟩ : BufTy).Contents (Elt F) → (⟨S512x8192, .i1⟩ : BufTy).Contents (Elt F)),
    StableHlo.binary main_arg4 main_v1 main_v2 (andi : (⟨S512x8192, .i1⟩ : BufTy).Contents (Elt F) → (⟨S512x8192, .i1⟩ : BufTy).Contents (Elt F) → (⟨S512x8192, .i1⟩ : BufTy).Contents (Elt F)),
    StableHlo.unary main_v2 main_v3 (uitofp .f32 : (⟨S512x8192, .i1⟩ : BufTy).Contents (Elt F) → (⟨S512x8192, .f32⟩ : BufTy).Contents (Elt F)),
    StableHlo.nullary main_cst_1 (constant S_ .f32 0x00000000#32),
    StableHlo.unary main_cst_1 main_v4 (broadcastInDim S512x65 ![] bcast_S_S512x65 : (⟨S_, .f32⟩ : BufTy).Contents (Elt F) → (⟨S512x65, .f32⟩ : BufTy).Contents (Elt F)),
    StableHlo.nullary main_v5 (iotaInDim S512 32 0),
    StableHlo.unary main_v5 main_v6 (broadcastInDim S512x1 ![0] bcast_S512_S512x1_0 : (⟨S512, .i32⟩ : BufTy).Contents (Elt F) → (⟨S512x1, .i32⟩ : BufTy).Contents (Elt F)),
    StableHlo.nullary main_c_2 (constantI S_ 32 0#32),
    StableHlo.unary main_c_2 main_v7 (broadcastInDim S512x1 ![] bcast_S_S512x1 : (⟨S_, .i32⟩ : BufTy).Contents (Elt F) → (⟨S512x1, .i32⟩ : BufTy).Contents (Elt F)),
    StableHlo.binary main_v6 main_v7 main_v8 (cmpi .slt : (⟨S512x1, .i32⟩ : BufTy).Contents (Elt F) → (⟨S512x1, .i32⟩ : BufTy).Contents (Elt F) → (⟨S512x1, .i1⟩ : BufTy).Contents (Elt F)),
    StableHlo.nullary main_c_3 (constantI S_ 32 512#32),
    StableHlo.unary main_c_3 main_v9 (broadcastInDim S512x1 ![] bcast_S_S512x1 : (⟨S_, .i32⟩ : BufTy).Contents (Elt F) → (⟨S512x1, .i32⟩ : BufTy).Contents (Elt F)),
    StableHlo.binary main_v6 main_v9 main_v10 (addi : (⟨S512x1, .i32⟩ : BufTy).Contents (Elt F) → (⟨S512x1, .i32⟩ : BufTy).Contents (Elt F) → (⟨S512x1, .i32⟩ : BufTy).Contents (Elt F)),
    StableHlo.ternary main_v8 main_v10 main_v6 main_v11 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    StableHlo.nullary main_c_4 (constantI S_ 32 0#32),
    StableHlo.unary main_c_4 main_v12 (broadcastInDim S512x8192 ![] bcast_S_S512x8192 : (⟨S_, .i32⟩ : BufTy).Contents (Elt F) → (⟨S512x8192, .i32⟩ : BufTy).Contents (Elt F)),
    StableHlo.binary main_arg0 main_v12 main_v13 (cmpi .slt : (⟨S512x8192, .i32⟩ : BufTy).Contents (Elt F) → (⟨S512x8192, .i32⟩ : BufTy).Contents (Elt F) → (⟨S512x8192, .i1⟩ : BufTy).Contents (Elt F)),
    StableHlo.nullary main_c_5 (constantI S_ 32 65#32),
    StableHlo.unary main_c_5 main_v14 (broadcastInDim S512x8192 ![] bcast_S_S512x8192 : (⟨S_, .i32⟩ : BufTy).Contents (Elt F) → (⟨S512x8192, .i32⟩ : BufTy).Contents (Elt F)),
    StableHlo.binary main_arg0 main_v14 main_v15 (addi : (⟨S512x8192, .i32⟩ : BufTy).Contents (Elt F) → (⟨S512x8192, .i32⟩ : BufTy).Contents (Elt F) → (⟨S512x8192, .i32⟩ : BufTy).Contents (Elt F)),
    StableHlo.ternary main_v13 main_v15 main_arg0 main_v16 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    StableHlo.unary main_v11 main_v17 (broadcastInDim S512x8192 ![0, 1] bcast_S512x1_S512x8192_0_1 : (⟨S512x1, .i32⟩ : BufTy).Contents (Elt F) → (⟨S512x8192, .i32⟩ : BufTy).Contents (Elt F)),
    StableHlo.unary main_v17 main_v18 (broadcastInDim S512x8192x1 ![0, 1] bcast_S512x8192_S512x8192x1_0_1 : (⟨S512x8192, .i32⟩ : BufTy).Contents (Elt F) → (⟨S512x8192x1, .i32⟩ : BufTy).Contents (Elt F)),
    StableHlo.unary main_v16 main_v19 (broadcastInDim S512x8192x1 ![0, 1] bcast_S512x8192_S512x8192x1_0_1 : (⟨S512x8192, .i32⟩ : BufTy).Contents (Elt F) → (⟨S512x8192x1, .i32⟩ : BufTy).Contents (Elt F)),
    StableHlo.binary main_v18 main_v19 main_v20 ((fun a b => concatenate S512x8192x2 2 [⟨S512x8192x1, a⟩, ⟨S512x8192x1, b⟩] concatenates_S512x8192x1_S512x8192x1_S512x8192x2_d2) : (⟨S512x8192x1, .i32⟩ : BufTy).Contents (Elt F) → (⟨S512x8192x1, .i32⟩ : BufTy).Contents (Elt F) → (⟨S512x8192x2, .i32⟩ : BufTy).Contents (Elt F)),
    StableHlo.ternary main_v4 main_v20 main_v3 main_v21 ((fun x i u => Host.scatterAdd scatter_S512x65_S512x8192x2_S512x8192_n_01_01_2 x i u) : (⟨S512x65, .f32⟩ : BufTy).Contents (Elt F) → (⟨S512x8192x2, .i32⟩ : BufTy).Contents (Elt F) → (⟨S512x8192, .f32⟩ : BufTy).Contents (Elt F) → (⟨S512x65, .f32⟩ : BufTy).Contents (Elt F)),
    StableHlo.nullary main_cst_6 (constant S_ .f32 0x00000000#32),
    StableHlo.unary main_cst_6 main_v22 (broadcastInDim S512x24 ![] bcast_S_S512x24 : (⟨S_, .f32⟩ : BufTy).Contents (Elt F) → (⟨S512x24, .f32⟩ : BufTy).Contents (Elt F)),
    StableHlo.nullary main_c_7 (constantI S_ 32 0#32),
    StableHlo.unary main_c_7 main_v23 (broadcastInDim S65 ![] bcast_S_S65 : (⟨S_, .i32⟩ : BufTy).Contents (Elt F) → (⟨S65, .i32⟩ : BufTy).Contents (Elt F)),
    StableHlo.binary main_c main_v23 main_v24 (cmpi .slt : (⟨S65, .i32⟩ : BufTy).Contents (Elt F) → (⟨S65, .i32⟩ : BufTy).Contents (Elt F) → (⟨S65, .i1⟩ : BufTy).Contents (Elt F)),
    StableHlo.nullary main_c_8 (constantI S_ 32 24#32),
    StableHlo.unary main_c_8 main_v25 (broadcastInDim S65 ![] bcast_S_S65 : (⟨S_, .i32⟩ : BufTy).Contents (Elt F) → (⟨S65, .i32⟩ : BufTy).Contents (Elt F)),
    StableHlo.binary main_c main_v25 main_v26 (addi : (⟨S65, .i32⟩ : BufTy).Contents (Elt F) → (⟨S65, .i32⟩ : BufTy).Contents (Elt F) → (⟨S65, .i32⟩ : BufTy).Contents (Elt F)),
    StableHlo.ternary main_v24 main_v26 main_c main_v27 (select : (⟨S65, .i1⟩ : BufTy).Contents (Elt F) → (⟨S65, .i32⟩ : BufTy).Contents (Elt F) → (⟨S65, .i32⟩ : BufTy).Contents (Elt F) → (⟨S65, .i32⟩ : BufTy).Contents (Elt F)),
    StableHlo.unary main_v27 main_v28 (broadcastInDim S65x1 ![0] bcast_S65_S65x1_0 : (⟨S65, .i32⟩ : BufTy).Contents (Elt F) → (⟨S65x1, .i32⟩ : BufTy).Contents (Elt F)),
    StableHlo.ternary main_v22 main_v28 main_v21 main_v29 ((fun x i u => Host.scatterAdd scatter_S512x24_S65x1_S512x65_0_1_1_1 x i u) : (⟨S512x24, .f32⟩ : BufTy).Contents (Elt F) → (⟨S65x1, .i32⟩ : BufTy).Contents (Elt F) → (⟨S512x65, .f32⟩ : BufTy).Contents (Elt F) → (⟨S512x24, .f32⟩ : BufTy).Contents (Elt F)),
    StableHlo.nullary main_c_9 (constantI S_ 32 0#32),
    StableHlo.unary main_c_9 main_v30 (broadcastInDim S65 ![] bcast_S_S65 : (⟨S_, .i32⟩ : BufTy).Contents (Elt F) → (⟨S65, .i32⟩ : BufTy).Contents (Elt F)),
    StableHlo.binary main_c main_v30 main_v31 (cmpi .slt : (⟨S65, .i32⟩ : BufTy).Contents (Elt F) → (⟨S65, .i32⟩ : BufTy).Contents (Elt F) → (⟨S65, .i1⟩ : BufTy).Contents (Elt F)),
    StableHlo.nullary main_c_10 (constantI S_ 32 24#32),
    StableHlo.unary main_c_10 main_v32 (broadcastInDim S65 ![] bcast_S_S65 : (⟨S_, .i32⟩ : BufTy).Contents (Elt F) → (⟨S65, .i32⟩ : BufTy).Contents (Elt F)),
    StableHlo.binary main_c main_v32 main_v33 (addi : (⟨S65, .i32⟩ : BufTy).Contents (Elt F) → (⟨S65, .i32⟩ : BufTy).Contents (Elt F) → (⟨S65, .i32⟩ : BufTy).Contents (Elt F)),
    StableHlo.ternary main_v31 main_v33 main_c main_v34 (select : (⟨S65, .i1⟩ : BufTy).Contents (Elt F) → (⟨S65, .i32⟩ : BufTy).Contents (Elt F) → (⟨S65, .i32⟩ : BufTy).Contents (Elt F) → (⟨S65, .i32⟩ : BufTy).Contents (Elt F)),
    StableHlo.unary main_v34 main_v35 (broadcastInDim S65x1 ![0] bcast_S65_S65x1_0 : (⟨S65, .i32⟩ : BufTy).Contents (Elt F) → (⟨S65x1, .i32⟩ : BufTy).Contents (Elt F)),
    StableHlo.binary main_v29 main_v35 main_v36 ((fun x i => Host.gather gather_S512x24_S65x1_S512x65_0_1_n_n_1_1_5121 x i) : (⟨S512x24, .f32⟩ : BufTy).Contents (Elt F) → (⟨S65x1, .i32⟩ : BufTy).Contents (Elt F) → (⟨S512x65, .f32⟩ : BufTy).Contents (Elt F)),
    StableHlo.nullary main_cst_11 (constant S_ .f32 0x00000000#32),
    StableHlo.unary main_cst_11 main_v37 (broadcastInDim S512x65 ![] bcast_S_S512x65 : (⟨S_, .f32⟩ : BufTy).Contents (Elt F) → (⟨S512x65, .f32⟩ : BufTy).Contents (Elt F)),
    StableHlo.binary main_v36 main_v37 main_v38 (cmpf .ogt : (⟨S512x65, .f32⟩ : BufTy).Contents (Elt F) → (⟨S512x65, .f32⟩ : BufTy).Contents (Elt F) → (⟨S512x65, .i1⟩ : BufTy).Contents (Elt F)),
    StableHlo.unary main_cst main_v39 (broadcastInDim S1x65 ![1] bcast_S65_S1x65_1 : (⟨S65, .f32⟩ : BufTy).Contents (Elt F) → (⟨S1x65, .f32⟩ : BufTy).Contents (Elt F)),
    StableHlo.unary main_v39 main_v40 (broadcastInDim S512x65 ![0, 1] bcast_S1x65_S512x65_0_1 : (⟨S1x65, .f32⟩ : BufTy).Contents (Elt F) → (⟨S512x65, .f32⟩ : BufTy).Contents (Elt F)),
    StableHlo.binary main_v21 main_v40 main_v41 (mulf : (⟨S512x65, .f32⟩ : BufTy).Contents (Elt F) → (⟨S512x65, .f32⟩ : BufTy).Contents (Elt F) → (⟨S512x65, .f32⟩ : BufTy).Contents (Elt F)),
    StableHlo.nullary main_cst_12 (constant S_ .f32 0x3F800000#32),
    StableHlo.unary main_cst_12 main_v42 (broadcastInDim S512x65 ![] bcast_S_S512x65 : (⟨S_, .f32⟩ : BufTy).Contents (Elt F) → (⟨S512x65, .f32⟩ : BufTy).Contents (Elt F)),
    StableHlo.binary main_v36 main_v42 main_v43 (maximumf : (⟨S512x65, .f32⟩ : BufTy).Contents (Elt F) → (⟨S512x65, .f32⟩ : BufTy).Contents (Elt F) → (⟨S512x65, .f32⟩ : BufTy).Contents (Elt F)),
    StableHlo.binary main_v41 main_v43 main_v44 (Host.divf : (⟨S512x65, .f32⟩ : BufTy).Contents (Elt F) → (⟨S512x65, .f32⟩ : BufTy).Contents (Elt F) → (⟨S512x65, .f32⟩ : BufTy).Contents (Elt F)) ]

/-- Statements 61 … 120. The first call (three operations): that quotient where the regrouped table is positive, zero elsewhere. Then the same chain for the second index array, down to its quotient. 62 operations, in order. -/
abbrev ops1 : List (HloOp τ sig (Elt F)) :=
  [ StableHlo.nullary main_cst_13 (constant S_ .f32 0x00000000#32),
    StableHlo.TRef.unary (.of main_cst_13 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S512x65, .f32⟩) (broadcastInDim S512x65 ![] bcast_S_S512x65),
    StableHlo.TRef.ternary (.of main_v38 : StableHlo.TRef sig ⟨S512x65, .i1⟩) (.of main_v44 : StableHlo.TRef sig ⟨S512x65, .f32⟩) (.of main_call0_v1 : StableHlo.TRef sig ⟨S512x65, .f32⟩) (.of main_v45 : StableHlo.TRef sig ⟨S512x65, .f32⟩) select,
    StableHlo.nullary main_c_14 (constantI S_ 32 0#32),
    StableHlo.unary main_c_14 main_v46 (broadcastInDim S512x8192 ![] bcast_S_S512x8192 : (⟨S_, .i32⟩ : BufTy).Contents (Elt F) → (⟨S512x8192, .i32⟩ : BufTy).Contents (Elt F)),
    StableHlo.binary main_arg1 main_v46 main_v47 (cmpi .sgt : (⟨S512x8192, .i32⟩ : BufTy).Contents (Elt F) → (⟨S512x8192, .i32⟩ : BufTy).Contents (Elt F) → (⟨S512x8192, .i1⟩ : BufTy).Contents (Elt F)),
    StableHlo.binary main_arg4 main_v47 main_v48 (andi : (⟨S512x8192, .i1⟩ : BufTy).Contents (Elt F) → (⟨S512x8192, .i1⟩ : BufTy).Contents (Elt F) → (⟨S512x8192, .i1⟩ : BufTy).Contents (Elt F)),
    StableHlo.unary main_v48 main_v49 (uitofp .f32 : (⟨S512x8192, .i1⟩ : BufTy).Contents (Elt F) → (⟨S512x8192, .f32⟩ : BufTy).Contents (Elt F)),
    StableHlo.nullary main_cst_15 (constant S_ .f32 0x00000000#32),
    StableHlo.unary main_cst_15 main_v50 (broadcastInDim S512x65 ![] bcast_S_S512x65 : (⟨S_, .f32⟩ : BufTy).Contents (Elt F) → (⟨S512x65, .f32⟩ : BufTy).Contents (Elt F)),
    StableHlo.nullary main_v51 (iotaInDim S512 32 0),
    StableHlo.unary main_v51 main_v52 (broadcastInDim S512x1 ![0] bcast_S512_S512x1_0 : (⟨S512, .i32⟩ : BufTy).Contents (Elt F) → (⟨S512x1, .i32⟩ : BufTy).Contents (Elt F)),
    StableHlo.nullary main_c_16 (constantI S_ 32 0#32),
    StableHlo.unary main_c_16 main_v53 (broadcastInDim S512x1 ![] bcast_S_S512x1 : (⟨S_, .i32⟩ : BufTy).Contents (Elt F) → (⟨S512x1, .i32⟩ : BufTy).Contents (Elt F)),
    StableHlo.binary main_v52 main_v53 main_v54 (cmpi .slt : (⟨S512x1, .i32⟩ : BufTy).Contents (Elt F) → (⟨S512x1, .i32⟩ : BufTy).Contents (Elt F) → (⟨S512x1, .i1⟩ : BufTy).Contents (Elt F)),
    StableHlo.nullary main_c_17 (constantI S_ 32 512#32),
    StableHlo.unary main_c_17 main_v55 (broadcastInDim S512x1 ![] bcast_S_S512x1 : (⟨S_, .i32⟩ : BufTy).Contents (Elt F) → (⟨S512x1, .i32⟩ : BufTy).Contents (Elt F)),
    StableHlo.binary main_v52 main_v55 main_v56 (addi : (⟨S512x1, .i32⟩ : BufTy).Contents (Elt F) → (⟨S512x1, .i32⟩ : BufTy).Contents (Elt F) → (⟨S512x1, .i32⟩ : BufTy).Contents (Elt F)),
    StableHlo.ternary main_v54 main_v56 main_v52 main_v57 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    StableHlo.nullary main_c_18 (constantI S_ 32 0#32),
    StableHlo.unary main_c_18 main_v58 (broadcastInDim S512x8192 ![] bcast_S_S512x8192 : (⟨S_, .i32⟩ : BufTy).Contents (Elt F) → (⟨S512x8192, .i32⟩ : BufTy).Contents (Elt F)),
    StableHlo.binary main_arg1 main_v58 main_v59 (cmpi .slt : (⟨S512x8192, .i32⟩ : BufTy).Contents (Elt F) → (⟨S512x8192, .i32⟩ : BufTy).Contents (Elt F) → (⟨S512x8192, .i1⟩ : BufTy).Contents (Elt F)),
    StableHlo.nullary main_c_19 (constantI S_ 32 65#32),
    StableHlo.unary main_c_19 main_v60 (broadcastInDim S512x8192 ![] bcast_S_S512x8192 : (⟨S_, .i32⟩ : BufTy).Contents (Elt F) → (⟨S512x8192, .i32⟩ : BufTy).Contents (Elt F)),
    StableHlo.binary main_arg1 main_v60 main_v61 (addi : (⟨S512x8192, .i32⟩ : BufTy).Contents (Elt F) → (⟨S512x8192, .i32⟩ : BufTy).Contents (Elt F) → (⟨S512x8192, .i32⟩ : BufTy).Contents (Elt F)),
    StableHlo.ternary main_v59 main_v61 main_arg1 main_v62 (select : (⟨S512x8192, .i1⟩ : BufTy).Contents (Elt F) → (⟨S512x8192, .i32⟩ : BufTy).Contents (Elt F) → (⟨S512x8192, .i32⟩ : BufTy).Contents (Elt F) → (⟨S512x8192, .i32⟩ : BufTy).Contents (Elt F)),
    StableHlo.unary main_v57 main_v63 (broadcastInDim S512x8192 ![0, 1] bcast_S512x1_S512x8192_0_1 : (⟨S512x1, .i32⟩ : BufTy).Contents (Elt F) → (⟨S512x8192, .i32⟩ : BufTy).Contents (Elt F)),
    StableHlo.unary main_v63 main_v64 (broadcastInDim S512x8192x1 ![0, 1] bcast_S512x8192_S512x8192x1_0_1 : (⟨S512x8192, .i32⟩ : BufTy).Contents (Elt F) → (⟨S512x8192x1, .i32⟩ : BufTy).Contents (Elt F)),
    StableHlo.unary main_v62 main_v65 (broadcastInDim S512x8192x1 ![0, 1] bcast_S512x8192_S512x8192x1_0_1 : (⟨S512x8192, .i32⟩ : BufTy).Contents (Elt F) → (⟨S512x8192x1, .i32⟩ : BufTy).Contents (Elt F)),
    StableHlo.binary main_v64 main_v65 main_v66 ((fun a b => concatenate S512x8192x2 2 [⟨S512x8192x1, a⟩, ⟨S512x8192x1, b⟩] concatenates_S512x8192x1_S512x8192x1_S512x8192x2_d2) : (⟨S512x8192x1, .i32⟩ : BufTy).Contents (Elt F) → (⟨S512x8192x1, .i32⟩ : BufTy).Contents (Elt F) → (⟨S512x8192x2, .i32⟩ : BufTy).Contents (Elt F)),
    StableHlo.ternary main_v50 main_v66 main_v49 main_v67 ((fun x i u => Host.scatterAdd scatter_S512x65_S512x8192x2_S512x8192_n_01_01_2 x i u) : (⟨S512x65, .f32⟩ : BufTy).Contents (Elt F) → (⟨S512x8192x2, .i32⟩ : BufTy).Contents (Elt F) → (⟨S512x8192, .f32⟩ : BufTy).Contents (Elt F) → (⟨S512x65, .f32⟩ : BufTy).Contents (Elt F)),
    StableHlo.nullary main_cst_20 (constant S_ .f32 0x00000000#32),
    StableHlo.unary main_cst_20 main_v68 (broadcastInDim S512x24 ![] bcast_S_S512x24 : (⟨S_, .f32⟩ : BufTy).Contents (Elt F) → (⟨S512x24, .f32⟩ : BufTy).Contents (Elt F)),
    StableHlo.nullary main_c_21 (constantI S_ 32 0#32),
    StableHlo.unary main_c_21 main_v69 (broadcastInDim S65 ![] bcast_S_S65 : (⟨S_, .i32⟩ : BufTy).Contents (Elt F) → (⟨S65, .i32⟩ : BufTy).Contents (Elt F)),
    StableHlo.binary main_c main_v69 main_v70 (cmpi .slt : (⟨S65, .i32⟩ : BufTy).Contents (Elt F) → (⟨S65, .i32⟩ : BufTy).Contents (Elt F) → (⟨S65, .i1⟩ : BufTy).Contents (Elt F)),
    StableHlo.nullary main_c_22 (constantI S_ 32 24#32),
    StableHlo.unary main_c_22 main_v71 (broadcastInDim S65 ![] bcast_S_S65 : (⟨S_, .i32⟩ : BufTy).Contents (Elt F) → (⟨S65, .i32⟩ : BufTy).Contents (Elt F)),
    StableHlo.binary main_c main_v71 main_v72 (addi : (⟨S65, .i32⟩ : BufTy).Contents (Elt F) → (⟨S65, .i32⟩ : BufTy).Contents (Elt F) → (⟨S65, .i32⟩ : BufTy).Contents (Elt F)),
    StableHlo.ternary main_v70 main_v72 main_c main_v73 (select : (⟨S65, .i1⟩ : BufTy).Contents (Elt F) → (⟨S65, .i32⟩ : BufTy).Contents (Elt F) → (⟨S65, .i32⟩ : BufTy).Contents (Elt F) → (⟨S65, .i32⟩ : BufTy).Contents (Elt F)),
    StableHlo.unary main_v73 main_v74 (broadcastInDim S65x1 ![0] bcast_S65_S65x1_0 : (⟨S65, .i32⟩ : BufTy).Contents (Elt F) → (⟨S65x1, .i32⟩ : BufTy).Contents (Elt F)),
    StableHlo.ternary main_v68 main_v74 main_v67 main_v75 ((fun x i u => Host.scatterAdd scatter_S512x24_S65x1_S512x65_0_1_1_1 x i u) : (⟨S512x24, .f32⟩ : BufTy).Contents (Elt F) → (⟨S65x1, .i32⟩ : BufTy).Contents (Elt F) → (⟨S512x65, .f32⟩ : BufTy).Contents (Elt F) → (⟨S512x24, .f32⟩ : BufTy).Contents (Elt F)),
    StableHlo.nullary main_c_23 (constantI S_ 32 0#32),
    StableHlo.unary main_c_23 main_v76 (broadcastInDim S65 ![] bcast_S_S65 : (⟨S_, .i32⟩ : BufTy).Contents (Elt F) → (⟨S65, .i32⟩ : BufTy).Contents (Elt F)),
    StableHlo.binary main_c main_v76 main_v77 (cmpi .slt : (⟨S65, .i32⟩ : BufTy).Contents (Elt F) → (⟨S65, .i32⟩ : BufTy).Contents (Elt F) → (⟨S65, .i1⟩ : BufTy).Contents (Elt F)),
    StableHlo.nullary main_c_24 (constantI S_ 32 24#32),
    StableHlo.unary main_c_24 main_v78 (broadcastInDim S65 ![] bcast_S_S65 : (⟨S_, .i32⟩ : BufTy).Contents (Elt F) → (⟨S65, .i32⟩ : BufTy).Contents (Elt F)),
    StableHlo.binary main_c main_v78 main_v79 (addi : (⟨S65, .i32⟩ : BufTy).Contents (Elt F) → (⟨S65, .i32⟩ : BufTy).Contents (Elt F) → (⟨S65, .i32⟩ : BufTy).Contents (Elt F)),
    StableHlo.ternary main_v77 main_v79 main_c main_v80 (select : (⟨S65, .i1⟩ : BufTy).Contents (Elt F) → (⟨S65, .i32⟩ : BufTy).Contents (Elt F) → (⟨S65, .i32⟩ : BufTy).Contents (Elt F) → (⟨S65, .i32⟩ : BufTy).Contents (Elt F)),
    StableHlo.unary main_v80 main_v81 (broadcastInDim S65x1 ![0] bcast_S65_S65x1_0 : (⟨S65, .i32⟩ : BufTy).Contents (Elt F) → (⟨S65x1, .i32⟩ : BufTy).Contents (Elt F)),
    StableHlo.binary main_v75 main_v81 main_v82 ((fun x i => Host.gather gather_S512x24_S65x1_S512x65_0_1_n_n_1_1_5121 x i) : (⟨S512x24, .f32⟩ : BufTy).Contents (Elt F) → (⟨S65x1, .i32⟩ : BufTy).Contents (Elt F) → (⟨S512x65, .f32⟩ : BufTy).Contents (Elt F)),
    StableHlo.nullary main_cst_25 (constant S_ .f32 0x00000000#32),
    StableHlo.unary main_cst_25 main_v83 (broadcastInDim S512x65 ![] bcast_S_S512x65 : (⟨S_, .f32⟩ : BufTy).Contents (Elt F) → (⟨S512x65, .f32⟩ : BufTy).Contents (Elt F)),
    StableHlo.binary main_v82 main_v83 main_v84 (cmpf .ogt : (⟨S512x65, .f32⟩ : BufTy).Contents (Elt F) → (⟨S512x65, .f32⟩ : BufTy).Contents (Elt F) → (⟨S512x65, .i1⟩ : BufTy).Contents (Elt F)),
    StableHlo.unary main_cst main_v85 (broadcastInDim S1x65 ![1] bcast_S65_S1x65_1 : (⟨S65, .f32⟩ : BufTy).Contents (Elt F) → (⟨S1x65, .f32⟩ : BufTy).Contents (Elt F)),
    StableHlo.unary main_v85 main_v86 (broadcastInDim S512x65 ![0, 1] bcast_S1x65_S512x65_0_1 : (⟨S1x65, .f32⟩ : BufTy).Contents (Elt F) → (⟨S512x65, .f32⟩ : BufTy).Contents (Elt F)),
    StableHlo.binary main_v67 main_v86 main_v87 (mulf : (⟨S512x65, .f32⟩ : BufTy).Contents (Elt F) → (⟨S512x65, .f32⟩ : BufTy).Contents (Elt F) → (⟨S512x65, .f32⟩ : BufTy).Contents (Elt F)),
    StableHlo.nullary main_cst_26 (constant S_ .f32 0x3F800000#32),
    StableHlo.unary main_cst_26 main_v88 (broadcastInDim S512x65 ![] bcast_S_S512x65 : (⟨S_, .f32⟩ : BufTy).Contents (Elt F) → (⟨S512x65, .f32⟩ : BufTy).Contents (Elt F)),
    StableHlo.binary main_v82 main_v88 main_v89 (maximumf : (⟨S512x65, .f32⟩ : BufTy).Contents (Elt F) → (⟨S512x65, .f32⟩ : BufTy).Contents (Elt F) → (⟨S512x65, .f32⟩ : BufTy).Contents (Elt F)),
    StableHlo.binary main_v87 main_v89 main_v90 (Host.divf : (⟨S512x65, .f32⟩ : BufTy).Contents (Elt F) → (⟨S512x65, .f32⟩ : BufTy).Contents (Elt F) → (⟨S512x65, .f32⟩ : BufTy).Contents (Elt F)) ]

/-- Statements 121 … 173. The second call (three operations): the second quotient where its regrouped table is positive, zero elsewhere. The test that a row's label lies in [0, 5), the label clamped between 0 and 4 (third call, six operations), the gather of the label's row of the 5×65 table, and that row where the test holds, zero elsewhere (fourth call, four operations). Then a combination of the two with two constant weights, a small constant added to it and to the first selection, each divided by its row sums, and the row sums of one quotient times the logarithm of the ratio of the two: the result. 62 operations, in order. -/
abbrev ops2 : List (HloOp τ sig (Elt F)) :=
  [ StableHlo.nullary main_cst_27 (constant S_ .f32 0x00000000#32),
    StableHlo.TRef.unary (.of main_cst_27 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S512x65, .f32⟩) (broadcastInDim S512x65 ![] bcast_S_S512x65),
    StableHlo.TRef.ternary (.of main_v84 : StableHlo.TRef sig ⟨S512x65, .i1⟩) (.of main_v90 : StableHlo.TRef sig ⟨S512x65, .f32⟩) (.of main_call1_v1 : StableHlo.TRef sig ⟨S512x65, .f32⟩) (.of main_v91 : StableHlo.TRef sig ⟨S512x65, .f32⟩) select,
    StableHlo.nullary main_c_28 (constantI S_ 32 0#32),
    StableHlo.unary main_c_28 main_v92 (broadcastInDim S512 ![] bcast_S_S512 : (⟨S_, .i32⟩ : BufTy).Contents (Elt F) → (⟨S512, .i32⟩ : BufTy).Contents (Elt F)),
    StableHlo.binary main_arg3 main_v92 main_v93 (cmpi .sge : (⟨S512, .i32⟩ : BufTy).Contents (Elt F) → (⟨S512, .i32⟩ : BufTy).Contents (Elt F) → (⟨S512, .i1⟩ : BufTy).Contents (Elt F)),
    StableHlo.nullary main_c_29 (constantI S_ 32 5#32),
    StableHlo.unary main_c_29 main_v94 (broadcastInDim S512 ![] bcast_S_S512 : (⟨S_, .i32⟩ : BufTy).Contents (Elt F) → (⟨S512, .i32⟩ : BufTy).Contents (Elt F)),
    StableHlo.binary main_arg3 main_v94 main_v95 (cmpi .slt : (⟨S512, .i32⟩ : BufTy).Contents (Elt F) → (⟨S512, .i32⟩ : BufTy).Contents (Elt F) → (⟨S512, .i1⟩ : BufTy).Contents (Elt F)),
    StableHlo.binary main_v93 main_v95 main_v96 (andi : (⟨S512, .i1⟩ : BufTy).Contents (Elt F) → (⟨S512, .i1⟩ : BufTy).Contents (Elt F) → (⟨S512, .i1⟩ : BufTy).Contents (Elt F)),
    StableHlo.unary main_v96 main_v97 (broadcastInDim S512x1 ![0] bcast_S512_S512x1_0 : (⟨S512, .i1⟩ : BufTy).Contents (Elt F) → (⟨S512x1, .i1⟩ : BufTy).Contents (Elt F)),
    StableHlo.nullary main_c_30 (constantI S_ 32 0#32),
    StableHlo.nullary main_c_31 (constantI S_ 32 4#32),
    StableHlo.TRef.unary (.of main_c_30 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S512, .i32⟩) (broadcastInDim S512 ![] bcast_S_S512),
    StableHlo.TRef.binary (.of main_call2_v1 : StableHlo.TRef sig ⟨S512, .i32⟩) (.of main_arg3 : StableHlo.TRef sig ⟨S512, .i32⟩) (.of main_call2_v2 : StableHlo.TRef sig ⟨S512, .i32⟩) maxsi,
    StableHlo.TRef.unary (.of main_c_31 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S512, .i32⟩) (broadcastInDim S512 ![] bcast_S_S512),
    StableHlo.TRef.binary (.of main_call2_v4 : StableHlo.TRef sig ⟨S512, .i32⟩) (.of main_call2_v2 : StableHlo.TRef sig ⟨S512, .i32⟩) (.of main_v98 : StableHlo.TRef sig ⟨S512, .i32⟩) minsi,
    StableHlo.nullary main_c_32 (constantI S_ 32 0#32),
    StableHlo.unary main_c_32 main_v99 (broadcastInDim S512 ![] bcast_S_S512 : (⟨S_, .i32⟩ : BufTy).Contents (Elt F) → (⟨S512, .i32⟩ : BufTy).Contents (Elt F)),
    StableHlo.binary main_v98 main_v99 main_v100 (cmpi .slt : (⟨S512, .i32⟩ : BufTy).Contents (Elt F) → (⟨S512, .i32⟩ : BufTy).Contents (Elt F) → (⟨S512, .i1⟩ : BufTy).Contents (Elt F)),
    StableHlo.nullary main_c_33 (constantI S_ 32 5#32),
    StableHlo.unary main_c_33 main_v101 (broadcastInDim S512 ![] bcast_S_S512 : (⟨S_, .i32⟩ : BufTy).Contents (Elt F) → (⟨S512, .i32⟩ : BufTy).Contents (Elt F)),
    StableHlo.binary main_v98 main_v101 main_v102 (addi : (⟨S512, .i32⟩ : BufTy).Contents (Elt F) → (⟨S512, .i32⟩ : BufTy).Contents (Elt F) → (⟨S512, .i32⟩ : BufTy).Contents (Elt F)),
    StableHlo.ternary main_v100 main_v102 main_v98 main_v103 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v103 main_v104 (broadcastInDim S512x1 ![0] bcast_S512_S512x1_0 : (⟨S512, .i32⟩ : BufTy).Contents (Elt F) → (⟨S512x1, .i32⟩ : BufTy).Contents (Elt F)),
    StableHlo.binary main_arg5 main_v104 main_v105 ((fun x i => Host.gather gather_S5x65_S512x1_S512x65_1_0_n_n_0_1_165 x i) : (⟨S5x65, .f32⟩ : BufTy).Contents (Elt F) → (⟨S512x1, .i32⟩ : BufTy).Contents (Elt F) → (⟨S512x65, .f32⟩ : BufTy).Contents (Elt F)),
    StableHlo.nullary main_cst_34 (constant S_ .f32 0x00000000#32),
    StableHlo.TRef.unary (.of main_cst_34 : StableHlo.TRef sig ⟨S_, .f32⟩) (.of main_call3_v0 : StableHlo.TRef sig ⟨S_, .f32⟩) id,
    StableHlo.TRef.unary (.of main_v97 : StableHlo.TRef sig ⟨S512x1, .i1⟩) (.of main_call3_v1 : StableHlo.TRef sig ⟨S512x65, .i1⟩) (broadcastInDim S512x65 ![0, 1] bcast_S512x1_S512x65_0_1),
    StableHlo.TRef.unary (.of main_call3_v0 : StableHlo.TRef sig ⟨S_, .f32⟩) (.of main_call3_v2 : StableHlo.TRef sig ⟨S512x65, .f32⟩) (broadcastInDim S512x65 ![] bcast_S_S512x65),
    StableHlo.TRef.ternary (.of main_call3_v1 : StableHlo.TRef sig ⟨S512x65, .i1⟩) (.of main_v105 : StableHlo.TRef sig ⟨S512x65, .f32⟩) (.of main_call3_v2 : StableHlo.TRef sig ⟨S512x65, .f32⟩) (.of main_v106 : StableHlo.TRef sig ⟨S512x65, .f32⟩) select,
    StableHlo.nullary main_cst_35 (constant S_ .f32 0x3F333333#32),
    StableHlo.unary main_cst_35 main_v107 (broadcastInDim S512x65 ![] bcast_S_S512x65 : (⟨S_, .f32⟩ : BufTy).Contents (Elt F) → (⟨S512x65, .f32⟩ : BufTy).Contents (Elt F)),
    StableHlo.binary main_v107 main_v91 main_v108 (mulf : (⟨S512x65, .f32⟩ : BufTy).Contents (Elt F) → (⟨S512x65, .f32⟩ : BufTy).Contents (Elt F) → (⟨S512x65, .f32⟩ : BufTy).Contents (Elt F)),
    StableHlo.nullary main_cst_36 (constant S_ .f32 0x3E99999A#32),
    StableHlo.unary main_cst_36 main_v109 (broadcastInDim S512x65 ![] bcast_S_S512x65 : (⟨S_, .f32⟩ : BufTy).Contents (Elt F) → (⟨S512x65, .f32⟩ : BufTy).Contents (Elt F)),
    StableHlo.binary main_v109 main_v106 main_v110 (mulf : (⟨S512x65, .f32⟩ : BufTy).Contents (Elt F) → (⟨S512x65, .f32⟩ : BufTy).Contents (Elt F) → (⟨S512x65, .f32⟩ : BufTy).Contents (Elt F)),
    StableHlo.binary main_v108 main_v110 main_v111 (addf : (⟨S512x65, .f32⟩ : BufTy).Contents (Elt F) → (⟨S512x65, .f32⟩ : BufTy).Contents (Elt F) → (⟨S512x65, .f32⟩ : BufTy).Contents (Elt F)),
    StableHlo.nullary main_cst_37 (constant S_ .f32 0x322BCC77#32),
    StableHlo.unary main_cst_37 main_v112 (broadcastInDim S512x65 ![] bcast_S_S512x65 : (⟨S_, .f32⟩ : BufTy).Contents (Elt F) → (⟨S512x65, .f32⟩ : BufTy).Contents (Elt F)),
    StableHlo.binary main_v45 main_v112 main_v113 (addf : (⟨S512x65, .f32⟩ : BufTy).Contents (Elt F) → (⟨S512x65, .f32⟩ : BufTy).Contents (Elt F) → (⟨S512x65, .f32⟩ : BufTy).Contents (Elt F)),
    StableHlo.nullary main_cst_38 (constant S_ .f32 0x322BCC77#32),
    StableHlo.unary main_cst_38 main_v114 (broadcastInDim S512x65 ![] bcast_S_S512x65 : (⟨S_, .f32⟩ : BufTy).Contents (Elt F) → (⟨S512x65, .f32⟩ : BufTy).Contents (Elt F)),
    StableHlo.binary main_v111 main_v114 main_v115 (addf : (⟨S512x65, .f32⟩ : BufTy).Contents (Elt F) → (⟨S512x65, .f32⟩ : BufTy).Contents (Elt F) → (⟨S512x65, .f32⟩ : BufTy).Contents (Elt F)),
    StableHlo.nullary main_cst_39 (constant S_ .f32 0x00000000#32),
    StableHlo.binary main_v113 main_cst_39 main_v116 ((fun x v => Host.reduceAdd x v reducesTo_S512x65_S512_d1 h_S_) : (⟨S512x65, .f32⟩ : BufTy).Contents (Elt F) → (⟨S_, .f32⟩ : BufTy).Contents (Elt F) → (⟨S512, .f32⟩ : BufTy).Contents (Elt F)),
    StableHlo.unary main_v116 main_v117 (broadcastInDim S512x1 ![0] bcast_S512_S512x1_0 : (⟨S512, .f32⟩ : BufTy).Contents (Elt F) → (⟨S512x1, .f32⟩ : BufTy).Contents (Elt F)),
    StableHlo.unary main_v117 main_v118 (broadcastInDim S512x65 ![0, 1] bcast_S512x1_S512x65_0_1 : (⟨S512x1, .f32⟩ : BufTy).Contents (Elt F) → (⟨S512x65, .f32⟩ : BufTy).Contents (Elt F)),
    StableHlo.binary main_v113 main_v118 main_v119 (Host.divf : (⟨S512x65, .f32⟩ : BufTy).Contents (Elt F) → (⟨S512x65, .f32⟩ : BufTy).Contents (Elt F) → (⟨S512x65, .f32⟩ : BufTy).Contents (Elt F)),
    StableHlo.nullary main_cst_40 (constant S_ .f32 0x00000000#32),
    StableHlo.binary main_v115 main_cst_40 main_v120 ((fun x v => Host.reduceAdd x v reducesTo_S512x65_S512_d1 h_S_) : (⟨S512x65, .f32⟩ : BufTy).Contents (Elt F) → (⟨S_, .f32⟩ : BufTy).Contents (Elt F) → (⟨S512, .f32⟩ : BufTy).Contents (Elt F)),
    StableHlo.unary main_v120 main_v121 (broadcastInDim S512x1 ![0] bcast_S512_S512x1_0 : (⟨S512, .f32⟩ : BufTy).Contents (Elt F) → (⟨S512x1, .f32⟩ : BufTy).Contents (Elt F)),
    StableHlo.unary main_v121 main_v122 (broadcastInDim S512x65 ![0, 1] bcast_S512x1_S512x65_0_1 : (⟨S512x1, .f32⟩ : BufTy).Contents (Elt F) → (⟨S512x65, .f32⟩ : BufTy).Contents (Elt F)),
    StableHlo.binary main_v115 main_v122 main_v123 (Host.divf : (⟨S512x65, .f32⟩ : BufTy).Contents (Elt F) → (⟨S512x65, .f32⟩ : BufTy).Contents (Elt F) → (⟨S512x65, .f32⟩ : BufTy).Contents (Elt F)),
    StableHlo.binary main_v123 main_v119 main_v124 (Host.divf : (⟨S512x65, .f32⟩ : BufTy).Contents (Elt F) → (⟨S512x65, .f32⟩ : BufTy).Contents (Elt F) → (⟨S512x65, .f32⟩ : BufTy).Contents (Elt F)),
    StableHlo.unary main_v124 main_v125 (Host.log : (⟨S512x65, .f32⟩ : BufTy).Contents (Elt F) → (⟨S512x65, .f32⟩ : BufTy).Contents (Elt F)),
    StableHlo.binary main_v123 main_v125 main_v126 (mulf : (⟨S512x65, .f32⟩ : BufTy).Contents (Elt F) → (⟨S512x65, .f32⟩ : BufTy).Contents (Elt F) → (⟨S512x65, .f32⟩ : BufTy).Contents (Elt F)),
    StableHlo.nullary main_cst_41 (constant S_ .f32 0x00000000#32),
    StableHlo.binary main_v126 main_cst_41 main_v127 ((fun x v => Host.reduceAdd x v reducesTo_S512x65_S512_d1 h_S_) : (⟨S512x65, .f32⟩ : BufTy).Contents (Elt F) → (⟨S_, .f32⟩ : BufTy).Contents (Elt F) → (⟨S512, .f32⟩ : BufTy).Contents (Elt F)) ]

end Cert.ReferenceIdeal.HandRun

end
-- ==== Proof.RefRun.lean ====
/-
  The reference program's @main read as ONE straight line of host operations, and its run.

  @main is printed in three windows; each window is a sequence of single operations, and four of its
  statements are calls of module-local functions (two selections against a scalar, a clamp between two
  scalars, a selection under a broadcast mask). A call executes the callee's body on the caller's
  buffers, so the body's operations are listed in the call's place, over the call's own buffers.
  `ops0`, `ops1`, `ops2` (stated in the sibling module of the lists) are the three windows' lists and
  `ops` their concatenation: 184 operations in program order. Each window equals the sequence of its
  list by unfolding alone; the three equations are joined by the law that two lines run one after the
  other are their concatenation.

  No buffer of the signature is scoped and there is no semaphore, so the straight-line run theorem
  applies: every weakly fair execution terminates, and each buffer ends at the fold of the
  operations' results over what the memory held at launch. No operation writes one of the six
  arguments, so the fold leaves them as they were: that is the frame.
-/
import proofs.«415818_j19533511262776_3_alg».proof.Proof.Gen.ReferenceIdeal
import Idealize.ShloMosaic.Lib.StableHlo.Run
import Idealize.ShloMosaic.Lib.Pipeline.Regions
import proofs.«415818_j19533511262776_3_alg».proof.Proof.RefOps

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-! ## The operations -/

/-- @main's 184 operations, in program order: the three windows' lists one after the other. -/
abbrev ops : List (HloOp τ sig (Elt F)) := ops0 ++ ops1 ++ ops2

/-! ## The program is the sequence of the list -/

/-- Window 0 (statements 1 … 60) is the sequence of its list: both sides unfold to the same chain of single steps. -/
theorem main_part0_eq (c : Dev nD) : main_part0 (F := F) c = (StableHlo.seq ops0 : Prog (TpuEff nD τ sig (Elt F) (Pipeline.Sig Λ₀ (Fin 0) fun p => (pcfgs (F := F) p).Adm) .tc) PUnit) := by
  chain_rfl

/-- Window 1 (statements 61 … 120) is the sequence of its list: both sides unfold to the same chain of single steps, a call's body being its operations over the call's buffers. -/
theorem main_part1_eq (c : Dev nD) : main_part1 (F := F) c = (StableHlo.seq ops1 : Prog (TpuEff nD τ sig (Elt F) (Pipeline.Sig Λ₀ (Fin 0) fun p => (pcfgs (F := F) p).Adm) .tc) PUnit) := by
  chain_rfl

/-- Window 2 (statements 121 … 173) is the sequence of its list: both sides unfold to the same chain of single steps, a call's body being its operations over the call's buffers. -/
theorem main_part2_eq (c : Dev nD) : main_part2 (F := F) c = (StableHlo.seq ops2 : Prog (TpuEff nD τ sig (Elt F) (Pipeline.Sig Λ₀ (Fin 0) fun p => (pcfgs (F := F) p).Adm) .tc) PUnit) := by
  chain_rfl

/-- @main is the sequence of all its operations: the windows run in order, and sequences run in order are the
    sequence of the concatenation. -/
theorem main_eq (c : Dev nD) : main (F := F) c = StableHlo.seq ops := by
  show (main_part0 (F := F) c >>= fun _ => main_part1 (F := F) c >>= fun _ => main_part2 (F := F) c) = _
  rw [main_part0_eq, main_part1_eq, main_part2_eq, seq_append, seq_append, bind_assoc]

/-! ## Side conditions of the run -/

/-- The signature scopes no buffer. -/
theorem scopedRefs_eq : (Finset.univ.filter fun b : Ref sig .tc => b.isScoped) = ∅ := by decide
/-- The signature has no scoped semaphore (it has no semaphore at all). -/
theorem scopedSems_eq : (Finset.univ.filter fun sm : SemLoc sig => sm.isScoped .tc) = ∅ := by decide

/-- Every operation of window 0 touches TensorCore references only. -/
theorem ops0_sub : (ops0 : List (HloOp τ sig (Elt F))).Forall fun op => op.bufs ⊆ StableHlo.tcRefs τ sig :=
  ⟨nullary_bufs_sub .., nullary_bufs_sub .., nullary_bufs_sub .., unary_bufs_sub .., binary_bufs_sub .., binary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub ..⟩
/-- Every operation of window 0 determines its result: none leaves a buffer's contents free. -/
theorem ops0_fresh : ∀ op ∈ (ops0 : List (HloOp τ sig (Elt F))), op.fresh = ∅ :=
  List.forall_iff_forall_mem.1 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 1 touches TensorCore references only. -/
theorem ops1_sub : (ops1 : List (HloOp τ sig (Elt F))).Forall fun op => op.bufs ⊆ StableHlo.tcRefs τ sig :=
  ⟨nullary_bufs_sub .., unary_bufs_sub .., unary_bufs_sub .., ternary_bufs_sub .., nullary_bufs_sub .., unary_bufs_sub .., binary_bufs_sub .., binary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub ..⟩
/-- Every operation of window 1 determines its result: none leaves a buffer's contents free. -/
theorem ops1_fresh : ∀ op ∈ (ops1 : List (HloOp τ sig (Elt F))), op.fresh = ∅ :=
  List.forall_iff_forall_mem.1 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of window 2 touches TensorCore references only. -/
theorem ops2_sub : (ops2 : List (HloOp τ sig (Elt F))).Forall fun op => op.bufs ⊆ StableHlo.tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., nullary_bufs_sub .., binary_bufs_sub .., unary_bufs_sub .., unary_bufs_sub .., binary_bufs_sub .., binary_bufs_sub .., unary_bufs_sub .., binary_bufs_sub .., nullary_bufs_sub .., binary_bufs_sub ..⟩
/-- Every operation of window 2 determines its result: none leaves a buffer's contents free. -/
theorem ops2_fresh : ∀ op ∈ (ops2 : List (HloOp τ sig (Elt F))), op.fresh = ∅ :=
  List.forall_iff_forall_mem.1 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ StableHlo.tcRefs τ sig :=
  List.forall_append.2 ⟨List.forall_append.2 ⟨ops0_sub, ops1_sub⟩, ops2_sub⟩

theorem ops_fresh : ∀ op ∈ (ops : List (HloOp τ sig (Elt F))), op.fresh = ∅ := by
  intro op h
  rcases List.mem_append.1 h with h | h
  · rcases List.mem_append.1 h with h | h
    · exact ops0_fresh op h
    · exact ops1_fresh op h
  · exact ops2_fresh op h

/-! ## The run -/

/-- On every device, for any float values, from any memory with zero counters: every weakly fair execution of
    @main terminates, and every buffer ends at the fold of the 184 operations' results over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  run_seq scopedRefs_eq scopedSems_eq defs main (fun _ => ops) main_eq (fun _ => ops_sub) m ρ (fun _ => ops_fresh)

/-- The fold over a concatenation is the fold over the second list after the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, after_cons, ih]

/-- The fold over @main's operations, window after window. -/
theorem after_ops (V : Valuation τ sig (Elt F)) :
    StableHlo.after ops V = StableHlo.after ops2 (StableHlo.after ops1 (StableHlo.after ops0 V)) := by
  rw [after_append, after_append]

/-! ## The arguments are kept

An operation writes its result buffer only, and no result buffer of the 184 is one of the six arguments
(the references are told apart by computation), so the fold leaves each argument as it found it. -/

/-- A buffer that no operation of a literal line writes: the line is unfolded, each operation's written set is
    its result's singleton, and the reference differs from every result. -/
local macro "kept_by " l:ident : tactic => `(tactic| (
  refine StableHlo.after_of_forall_not_mem _ _ (List.forall_iff_forall_mem.mp ?_)
  simp only [$l:ident, List.Forall, StableHlo.nullary_writes, StableHlo.unary_writes, StableHlo.binary_writes,
    StableHlo.ternary_writes, Finset.mem_singleton]
  repeat' apply And.intro
  all_goals exact StableHlo.devRef_ne_of_ne (by decide)))

theorem kept0_main_arg0 (V : Valuation τ sig (Elt F)) :
    StableHlo.after ops0 V (Proc.devRef .tc main_arg0) = V (Proc.devRef .tc main_arg0) := by kept_by ops0
theorem kept0_main_arg1 (V : Valuation τ sig (Elt F)) :
    StableHlo.after ops0 V (Proc.devRef .tc main_arg1) = V (Proc.devRef .tc main_arg1) := by kept_by ops0
theorem kept0_main_arg2 (V : Valuation τ sig (Elt F)) :
    StableHlo.after ops0 V (Proc.devRef .tc main_arg2) = V (Proc.devRef .tc main_arg2) := by kept_by ops0
theorem kept0_main_arg3 (V : Valuation τ sig (Elt F)) :
    StableHlo.after ops0 V (Proc.devRef .tc main_arg3) = V (Proc.devRef .tc main_arg3) := by kept_by ops0
theorem kept0_main_arg4 (V : Valuation τ sig (Elt F)) :
    StableHlo.after ops0 V (Proc.devRef .tc main_arg4) = V (Proc.devRef .tc main_arg4) := by kept_by ops0
theorem kept0_main_arg5 (V : Valuation τ sig (Elt F)) :
    StableHlo.after ops0 V (Proc.devRef .tc main_arg5) = V (Proc.devRef .tc main_arg5) := by kept_by ops0
theorem kept1_main_arg0 (V : Valuation τ sig (Elt F)) :
    StableHlo.after ops1 V (Proc.devRef .tc main_arg0) = V (Proc.devRef .tc main_arg0) := by kept_by ops1
theorem kept1_main_arg1 (V : Valuation τ sig (Elt F)) :
    StableHlo.after ops1 V (Proc.devRef .tc main_arg1) = V (Proc.devRef .tc main_arg1) := by kept_by ops1
theorem kept1_main_arg2 (V : Valuation τ sig (Elt F)) :
    StableHlo.after ops1 V (Proc.devRef .tc main_arg2) = V (Proc.devRef .tc main_arg2) := by kept_by ops1
theorem kept1_main_arg3 (V : Valuation τ sig (Elt F)) :
    StableHlo.after ops1 V (Proc.devRef .tc main_arg3) = V (Proc.devRef .tc main_arg3) := by kept_by ops1
theorem kept1_main_arg4 (V : Valuation τ sig (Elt F)) :
    StableHlo.after ops1 V (Proc.devRef .tc main_arg4) = V (Proc.devRef .tc main_arg4) := by kept_by ops1
theorem kept1_main_arg5 (V : Valuation τ sig (Elt F)) :
    StableHlo.after ops1 V (Proc.devRef .tc main_arg5) = V (Proc.devRef .tc main_arg5) := by kept_by ops1
theorem kept2_main_arg0 (V : Valuation τ sig (Elt F)) :
    StableHlo.after ops2 V (Proc.devRef .tc main_arg0) = V (Proc.devRef .tc main_arg0) := by kept_by ops2
theorem kept2_main_arg1 (V : Valuation τ sig (Elt F)) :
    StableHlo.after ops2 V (Proc.devRef .tc main_arg1) = V (Proc.devRef .tc main_arg1) := by kept_by ops2
theorem kept2_main_arg2 (V : Valuation τ sig (Elt F)) :
    StableHlo.after ops2 V (Proc.devRef .tc main_arg2) = V (Proc.devRef .tc main_arg2) := by kept_by ops2
theorem kept2_main_arg3 (V : Valuation τ sig (Elt F)) :
    StableHlo.after ops2 V (Proc.devRef .tc main_arg3) = V (Proc.devRef .tc main_arg3) := by kept_by ops2
theorem kept2_main_arg4 (V : Valuation τ sig (Elt F)) :
    StableHlo.after ops2 V (Proc.devRef .tc main_arg4) = V (Proc.devRef .tc main_arg4) := by kept_by ops2
theorem kept2_main_arg5 (V : Valuation τ sig (Elt F)) :
    StableHlo.after ops2 V (Proc.devRef .tc main_arg5) = V (Proc.devRef .tc main_arg5) := by kept_by ops2

/-- No operation of @main writes `main_arg0`. -/
theorem kept_main_arg0 (V : Valuation τ sig (Elt F)) :
    StableHlo.after ops V (Proc.devRef .tc main_arg0) = V (Proc.devRef .tc main_arg0) := by
  rw [after_ops, kept2_main_arg0, kept1_main_arg0, kept0_main_arg0]

/-- No operation of @main writes `main_arg1`. -/
theorem kept_main_arg1 (V : Valuation τ sig (Elt F)) :
    StableHlo.after ops V (Proc.devRef .tc main_arg1) = V (Proc.devRef .tc main_arg1) := by
  rw [after_ops, kept2_main_arg1, kept1_main_arg1, kept0_main_arg1]

/-- No operation of @main writes `main_arg2`. -/
theorem kept_main_arg2 (V : Valuation τ sig (Elt F)) :
    StableHlo.after ops V (Proc.devRef .tc main_arg2) = V (Proc.devRef .tc main_arg2) := by
  rw [after_ops, kept2_main_arg2, kept1_main_arg2, kept0_main_arg2]

/-- No operation of @main writes `main_arg3`. -/
theorem kept_main_arg3 (V : Valuation τ sig (Elt F)) :
    StableHlo.after ops V (Proc.devRef .tc main_arg3) = V (Proc.devRef .tc main_arg3) := by
  rw [after_ops, kept2_main_arg3, kept1_main_arg3, kept0_main_arg3]

/-- No operation of @main writes `main_arg4`. -/
theorem kept_main_arg4 (V : Valuation τ sig (Elt F)) :
    StableHlo.after ops V (Proc.devRef .tc main_arg4) = V (Proc.devRef .tc main_arg4) := by
  rw [after_ops, kept2_main_arg4, kept1_main_arg4, kept0_main_arg4]

/-- No operation of @main writes `main_arg5`. -/
theorem kept_main_arg5 (V : Valuation τ sig (Elt F)) :
    StableHlo.after ops V (Proc.devRef .tc main_arg5) = V (Proc.devRef .tc main_arg5) := by
  rw [after_ops, kept2_main_arg5, kept1_main_arg5, kept0_main_arg5]

/-! ## The frame -/

/-- Every weakly fair execution of @main terminates with the six arguments as the memory held them at launch. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0).trans (kept_main_arg0 _),
     (h c main_arg1).trans (kept_main_arg1 _),
     (h c main_arg2).trans (kept_main_arg2 _),
     (h c main_arg3).trans (kept_main_arg3 _),
     (h c main_arg4).trans (kept_main_arg4 _),
     (h c main_arg5).trans (kept_main_arg5 _)⟩)
    (run m ρ)

end Cert.ReferenceIdeal.HandRun

end
-- ==== Proof.KIHist.lean ====
/-
  One grid point's result block read at an element, at the ideal values.  The block's column 0 is zero and its
  column c, for c = 1 … 64, holds per row the sum, over the row's 8192 positions, of the weight
  [mask word ≠ 0] · [id > 0] at the positions whose id, as a real, equals the value of codon c's float constant.
  Those constants are the reals 1, 2, …, 64 (each 16-bit pattern evaluated once), an integer equals a natural
  number as extended reals exactly when they are equal as integers, and an id equal to c ≥ 1 is positive.  Hence
  the element (r, c) of the block is the number of positions of row r whose id is c, is positive, and whose mask
  word is not zero — for c = 0 there is none, since no id is both 0 and positive.
-/
import proofs.«415818_j19533511262776_3_alg».proof.Proof.KIBlk
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Blk

open Idealize.ShloMosaic Idealize.ShloMosaic.ValueIdx Cert.KernelIdeal Cert.KernelIdeal.Facts₀ Cert.KernelIdeal.Facts

variable [Cert.KernelIdeal.Facts]

/-! ## The codon constants

The 16-bit patterns of the codon constants, in the order of the block's columns 1 … 64. Read as bf16 values they are
the reals 1, 2, …, 64: a pattern with exponent field `e` and fraction field `f` denotes `(128 + f) · 2^(e − 134)`. -/

/-- The constants' patterns, codon 1 first. -/
def pats : List (BitVec 16) :=
  [0x3F80#16, 0x4000#16, 0x4040#16, 0x4080#16, 0x40A0#16, 0x40C0#16, 0x40E0#16, 0x4100#16,
   0x4110#16, 0x4120#16, 0x4130#16, 0x4140#16, 0x4150#16, 0x4160#16, 0x4170#16, 0x4180#16,
   0x4188#16, 0x4190#16, 0x4198#16, 0x41A0#16, 0x41A8#16, 0x41B0#16, 0x41B8#16, 0x41C0#16,
   0x41C8#16, 0x41D0#16, 0x41D8#16, 0x41E0#16, 0x41E8#16, 0x41F0#16, 0x41F8#16, 0x4200#16,
   0x4204#16, 0x4208#16, 0x420C#16, 0x4210#16, 0x4214#16, 0x4218#16, 0x421C#16, 0x4220#16,
   0x4224#16, 0x4228#16, 0x422C#16, 0x4230#16, 0x4234#16, 0x4238#16, 0x423C#16, 0x4240#16,
   0x4244#16, 0x4248#16, 0x424C#16, 0x4250#16, 0x4254#16, 0x4258#16, 0x425C#16, 0x4260#16,
   0x4264#16, 0x4268#16, 0x426C#16, 0x4270#16, 0x4274#16, 0x4278#16, 0x427C#16, 0x4280#16]

theorem pats_length : pats.length = 64 := rfl

/-- Evaluates one bf16 pattern to the real it denotes. -/
local macro "bf16_value" : tactic =>
  `(tactic| (simp [Ideal.ofBits, Ideal.ieee, -EReal.coe_mul]; norm_num))

theorem pat_1 : Ideal.ofBits .bf16 0x3F80#16 = (((1 : ℕ) : ℝ) : EReal) := by bf16_value
theorem pat_2 : Ideal.ofBits .bf16 0x4000#16 = (((2 : ℕ) : ℝ) : EReal) := by bf16_value
theorem pat_3 : Ideal.ofBits .bf16 0x4040#16 = (((3 : ℕ) : ℝ) : EReal) := by bf16_value
theorem pat_4 : Ideal.ofBits .bf16 0x4080#16 = (((4 : ℕ) : ℝ) : EReal) := by bf16_value
theorem pat_5 : Ideal.ofBits .bf16 0x40A0#16 = (((5 : ℕ) : ℝ) : EReal) := by bf16_value
theorem pat_6 : Ideal.ofBits .bf16 0x40C0#16 = (((6 : ℕ) : ℝ) : EReal) := by bf16_value
theorem pat_7 : Ideal.ofBits .bf16 0x40E0#16 = (((7 : ℕ) : ℝ) : EReal) := by bf16_value
theorem pat_8 : Ideal.ofBits .bf16 0x4100#16 = (((8 : ℕ) : ℝ) : EReal) := by bf16_value
theorem pat_9 : Ideal.ofBits .bf16 0x4110#16 = (((9 : ℕ) : ℝ) : EReal) := by bf16_value
theorem pat_10 : Ideal.ofBits .bf16 0x4120#16 = (((10 : ℕ) : ℝ) : EReal) := by bf16_value
theorem pat_11 : Ideal.ofBits .bf16 0x4130#16 = (((11 : ℕ) : ℝ) : EReal) := by bf16_value
theorem pat_12 : Ideal.ofBits .bf16 0x4140#16 = (((12 : ℕ) : ℝ) : EReal) := by bf16_value
theorem pat_13 : Ideal.ofBits .bf16 0x4150#16 = (((13 : ℕ) : ℝ) : EReal) := by bf16_value
theorem pat_14 : Ideal.ofBits .bf16 0x4160#16 = (((14 : ℕ) : ℝ) : EReal) := by bf16_value
theorem pat_15 : Ideal.ofBits .bf16 0x4170#16 = (((15 : ℕ) : ℝ) : EReal) := by bf16_value
theorem pat_16 : Ideal.ofBits .bf16 0x4180#16 = (((16 : ℕ) : ℝ) : EReal) := by bf16_value
theorem pat_17 : Ideal.ofBits .bf16 0x4188#16 = (((17 : ℕ) : ℝ) : EReal) := by bf16_value
theorem pat_18 : Ideal.ofBits .bf16 0x4190#16 = (((18 : ℕ) : ℝ) : EReal) := by bf16_value
theorem pat_19 : Ideal.ofBits .bf16 0x4198#16 = (((19 : ℕ) : ℝ) : EReal) := by bf16_value
theorem pat_20 : Ideal.ofBits .bf16 0x41A0#16 = (((20 : ℕ) : ℝ) : EReal) := by bf16_value
theorem pat_21 : Ideal.ofBits .bf16 0x41A8#16 = (((21 : ℕ) : ℝ) : EReal) := by bf16_value
theorem pat_22 : Ideal.ofBits .bf16 0x41B0#16 = (((22 : ℕ) : ℝ) : EReal) := by bf16_value
theorem pat_23 : Ideal.ofBits .bf16 0x41B8#16 = (((23 : ℕ) : ℝ) : EReal) := by bf16_value
theorem pat_24 : Ideal.ofBits .bf16 0x41C0#16 = (((24 : ℕ) : ℝ) : EReal) := by bf16_value
theorem pat_25 : Ideal.ofBits .bf16 0x41C8#16 = (((25 : ℕ) : ℝ) : EReal) := by bf16_value
theorem pat_26 : Ideal.ofBits .bf16 0x41D0#16 = (((26 : ℕ) : ℝ) : EReal) := by bf16_value
theorem pat_27 : Ideal.ofBits .bf16 0x41D8#16 = (((27 : ℕ) : ℝ) : EReal) := by bf16_value
theorem pat_28 : Ideal.ofBits .bf16 0x41E0#16 = (((28 : ℕ) : ℝ) : EReal) := by bf16_value
theorem pat_29 : Ideal.ofBits .bf16 0x41E8#16 = (((29 : ℕ) : ℝ) : EReal) := by bf16_value
theorem pat_30 : Ideal.ofBits .bf16 0x41F0#16 = (((30 : ℕ) : ℝ) : EReal) := by bf16_value
theorem pat_31 : Ideal.ofBits .bf16 0x41F8#16 = (((31 : ℕ) : ℝ) : EReal) := by bf16_value
theorem pat_32 : Ideal.ofBits .bf16 0x4200#16 = (((32 : ℕ) : ℝ) : EReal) := by bf16_value
theorem pat_33 : Ideal.ofBits .bf16 0x4204#16 = (((33 : ℕ) : ℝ) : EReal) := by bf16_value
theorem pat_34 : Ideal.ofBits .bf16 0x4208#16 = (((34 : ℕ) : ℝ) : EReal) := by bf16_value
theorem pat_35 : Ideal.ofBits .bf16 0x420C#16 = (((35 : ℕ) : ℝ) : EReal) := by bf16_value
theorem pat_36 : Ideal.ofBits .bf16 0x4210#16 = (((36 : ℕ) : ℝ) : EReal) := by bf16_value
theorem pat_37 : Ideal.ofBits .bf16 0x4214#16 = (((37 : ℕ) : ℝ) : EReal) := by bf16_value
theorem pat_38 : Ideal.ofBits .bf16 0x4218#16 = (((38 : ℕ) : ℝ) : EReal) := by bf16_value
theorem pat_39 : Ideal.ofBits .bf16 0x421C#16 = (((39 : ℕ) : ℝ) : EReal) := by bf16_value
theorem pat_40 : Ideal.ofBits .bf16 0x4220#16 = (((40 : ℕ) : ℝ) : EReal) := by bf16_value
theorem pat_41 : Ideal.ofBits .bf16 0x4224#16 = (((41 : ℕ) : ℝ) : EReal) := by bf16_value
theorem pat_42 : Ideal.ofBits .bf16 0x4228#16 = (((42 : ℕ) : ℝ) : EReal) := by bf16_value
theorem pat_43 : Ideal.ofBits .bf16 0x422C#16 = (((43 : ℕ) : ℝ) : EReal) := by bf16_value
theorem pat_44 : Ideal.ofBits .bf16 0x4230#16 = (((44 : ℕ) : ℝ) : EReal) := by bf16_value
theorem pat_45 : Ideal.ofBits .bf16 0x4234#16 = (((45 : ℕ) : ℝ) : EReal) := by bf16_value
theorem pat_46 : Ideal.ofBits .bf16 0x4238#16 = (((46 : ℕ) : ℝ) : EReal) := by bf16_value
theorem pat_47 : Ideal.ofBits .bf16 0x423C#16 = (((47 : ℕ) : ℝ) : EReal) := by bf16_value
theorem pat_48 : Ideal.ofBits .bf16 0x4240#16 = (((48 : ℕ) : ℝ) : EReal) := by bf16_value
theorem pat_49 : Ideal.ofBits .bf16 0x4244#16 = (((49 : ℕ) : ℝ) : EReal) := by bf16_value
theorem pat_50 : Ideal.ofBits .bf16 0x4248#16 = (((50 : ℕ) : ℝ) : EReal) := by bf16_value
theorem pat_51 : Ideal.ofBits .bf16 0x424C#16 = (((51 : ℕ) : ℝ) : EReal) := by bf16_value
theorem pat_52 : Ideal.ofBits .bf16 0x4250#16 = (((52 : ℕ) : ℝ) : EReal) := by bf16_value
theorem pat_53 : Ideal.ofBits .bf16 0x4254#16 = (((53 : ℕ) : ℝ) : EReal) := by bf16_value
theorem pat_54 : Ideal.ofBits .bf16 0x4258#16 = (((54 : ℕ) : ℝ) : EReal) := by bf16_value
theorem pat_55 : Ideal.ofBits .bf16 0x425C#16 = (((55 : ℕ) : ℝ) : EReal) := by bf16_value
theorem pat_56 : Ideal.ofBits .bf16 0x4260#16 = (((56 : ℕ) : ℝ) : EReal) := by bf16_value
theorem pat_57 : Ideal.ofBits .bf16 0x4264#16 = (((57 : ℕ) : ℝ) : EReal) := by bf16_value
theorem pat_58 : Ideal.ofBits .bf16 0x4268#16 = (((58 : ℕ) : ℝ) : EReal) := by bf16_value
theorem pat_59 : Ideal.ofBits .bf16 0x426C#16 = (((59 : ℕ) : ℝ) : EReal) := by bf16_value
theorem pat_60 : Ideal.ofBits .bf16 0x4270#16 = (((60 : ℕ) : ℝ) : EReal) := by bf16_value
theorem pat_61 : Ideal.ofBits .bf16 0x4274#16 = (((61 : ℕ) : ℝ) : EReal) := by bf16_value
theorem pat_62 : Ideal.ofBits .bf16 0x4278#16 = (((62 : ℕ) : ℝ) : EReal) := by bf16_value
theorem pat_63 : Ideal.ofBits .bf16 0x427C#16 = (((63 : ℕ) : ℝ) : EReal) := by bf16_value
theorem pat_64 : Ideal.ofBits .bf16 0x4280#16 = (((64 : ℕ) : ℝ) : EReal) := by bf16_value

/-- The pattern in place `k` (from 0) denotes the real `k + 1`. -/
theorem pats_val (k : ℕ) (hk : k < pats.length) :
    Ideal.ofBits .bf16 (pats[k]'hk) = (((k + 1 : ℕ) : ℝ) : EReal) := by
  have hk' : k < 64 := hk
  interval_cases k
  · exact pat_1
  · exact pat_2
  · exact pat_3
  · exact pat_4
  · exact pat_5
  · exact pat_6
  · exact pat_7
  · exact pat_8
  · exact pat_9
  · exact pat_10
  · exact pat_11
  · exact pat_12
  · exact pat_13
  · exact pat_14
  · exact pat_15
  · exact pat_16
  · exact pat_17
  · exact pat_18
  · exact pat_19
  · exact pat_20
  · exact pat_21
  · exact pat_22
  · exact pat_23
  · exact pat_24
  · exact pat_25
  · exact pat_26
  · exact pat_27
  · exact pat_28
  · exact pat_29
  · exact pat_30
  · exact pat_31
  · exact pat_32
  · exact pat_33
  · exact pat_34
  · exact pat_35
  · exact pat_36
  · exact pat_37
  · exact pat_38
  · exact pat_39
  · exact pat_40
  · exact pat_41
  · exact pat_42
  · exact pat_43
  · exact pat_44
  · exact pat_45
  · exact pat_46
  · exact pat_47
  · exact pat_48
  · exact pat_49
  · exact pat_50
  · exact pat_51
  · exact pat_52
  · exact pat_53
  · exact pat_54
  · exact pat_55
  · exact pat_56
  · exact pat_57
  · exact pat_58
  · exact pat_59
  · exact pat_60
  · exact pat_61
  · exact pat_62
  · exact pat_63
  · exact pat_64

/-! ## The weight and one column -/

/-- A 0/1 bit, widened to 32 bits and read as a signed integer, is 0 or 1. -/
theorem bit_toInt (b : Bool) : (((BitVec.ofBool b).setWidth 32).toInt : ℤ) = if b then 1 else 0 := by
  cases b <;> rfl

/-- The weight at a position is the product of the two indicators: mask word not zero, id positive. -/
theorem wgt_apply (ids msk : IVec S64x8192 32) (i : S64x8192.Idx) :
    wgt (F := Ideal) ids msk i =
      (if msk i ≠ 0#32 then (1 : EReal) else 0) * (if 0 < (ids i).toInt then (1 : EReal) else 0) := by
  show ((((BitVec.ofBool (msk i != 0#32)).setWidth 32).toInt : ℝ) : EReal)
      * ((((BitVec.ofBool ((0#32).slt (ids i))).setWidth 32).toInt : ℝ) : EReal) = _
  rw [bit_toInt, bit_toInt]
  by_cases hm : msk i = 0#32 <;> by_cases hp : 0 < (ids i).toInt <;> simp [hm, hp, BitVec.slt]

/-- The row index `r` of the reduced vector with the position `l` put back on the summed axis is `(r, l)`. -/
theorem lift_eq (r : Fin 64) (l : Fin 8192) :
    (reduces_S64x8192_S64).lift (ix1 r) l = ix2 r l := by
  funext a
  match a with
  | ⟨0, _⟩ => exact Fin.ext rfl
  | ⟨1, _⟩ => exact Fin.ext rfl

/-- One column at row `r`: the sum over the positions of the weight where the id, as a real, is the constant's value. -/
theorem col_apply (w : BitVec 16) (ids msk : IVec S64x8192 32) (r : Fin 64) :
    col (F := Ideal) w ids msk (ix2 r (0 : Fin 1)) =
      ∑ l : Fin 8192, if (((ids (ix2 r l)).toInt : ℝ) : EReal) = Ideal.ofBits .bf16 w
        then wgt (F := Ideal) ids msk (ix2 r l) else 0 := by
  unfold col
  refine (shapeCast_apply _ _ (ix2 r (0 : Fin 1)) (ix1 r) ?_).trans ?_
  · rw [Shape.rowMajor_val_one, Shape.rowMajor_val_two]; simp
  refine (Ideal.multiReduction_add_single _ _ reduces_S64x8192_S64 _ _ (ix1 r)).trans ?_
  refine Finset.sum_congr rfl fun (l : Fin 8192) _ => ?_
  rw [lift_eq]
  show Scalar.select (Ideal.cmp .oeq (((ids (ix2 r l)).toInt : ℝ) : EReal) (Ideal.ofBits .bf16 w))
      (wgt (F := Ideal) ids msk (ix2 r l)) (Ideal.ofBits .f32 0x00000000#32) = _
  by_cases h : (((ids (ix2 r l)).toInt : ℝ) : EReal) = Ideal.ofBits .bf16 w
  · rw [if_pos h]; simp [Ideal.cmp, h, Scalar.select]
  · rw [if_neg h]; simp [Ideal.cmp, h, Scalar.select]

/-! ## Columns side by side -/

section Concat
variable {α : Type}

/-- Pieces that all have shape [64, 1] have extents along axis 1 that add up to their number. -/
theorem unit_extents_sum (ys : List ((s : Shape) × (s.Idx → α))) (hall : ∀ p ∈ ys, p.1 = S64x1) :
    (((ys.map (·.1)).map fun s : Shape =>
        if h : s.rank = S64x65.rank then s.size ((1 : Fin S64x65.rank).cast h.symm) else 0).sum) = ys.length := by
  induction ys with
  | nil => rfl
  | cons p ys ih =>
    have hp : p.1 = S64x1 := hall p (List.mem_cons_self ..)
    simp only [List.map_cons, List.sum_cons, List.length_cons]
    rw [ih (fun q hq => hall q (List.mem_cons_of_mem _ hq)), hp]
    show 1 + ys.length = ys.length + 1
    omega

/-- A concatenation along axis 1 of [64, 1] pieces into [64, 65], read at `(r, c)`: piece number `c` at `(r, 0)`. -/
theorem concat_cols_apply (xs : List ((s : Shape) × (s.Idx → α)))
    (h : Shape.Concatenates (xs.map (·.1)) S64x65 1) (hall : ∀ p ∈ xs, p.1 = S64x1)
    (r : Fin 64) (c : Fin 65) (hc : c.val < xs.length) (x₁ : S64x1.Idx → α) (hxk : xs[c.val] = ⟨S64x1, x₁⟩) :
    concatenate S64x65 1 xs h (ix2 r c) = x₁ (ix2 r (0 : Fin 1)) := by
  refine concatenate_apply_piece 1 xs h (ix2 r c) c.val hc S64x1 x₁ hxk rfl c.val ?_ (ix2 r (0 : Fin 1)) ?_ ?_
  · rw [unit_extents_sum _ (fun p hp => hall p (List.mem_of_mem_take hp)), List.length_take]
    omega
  · intro b hb
    match b with
    | ⟨0, _⟩ => rfl
    | ⟨1, _⟩ => exact absurd rfl hb
  · rfl

end Concat

/-! ## The block -/

/-- The block's pieces: the zero column, then the column of each constant of `pats` in order. -/
def pieces (ids msk : IVec S64x8192 32) : List ((s : Shape) × (s.Idx → Ideal .f32)) :=
  ⟨S64x1, zcol (F := Ideal)⟩ :: pats.map fun w => ⟨S64x1, col (F := Ideal) w ids msk⟩

theorem pieces_length (ids msk : IVec S64x8192 32) : (pieces ids msk).length = 65 := rfl

/-- The block is the concatenation of these pieces. -/
theorem blk_eq (ids msk : IVec S64x8192 32) :
    ∃ h, blk (F := Ideal) ids msk = concatenate S64x65 1 (pieces ids msk) h :=
  ⟨_, rfl⟩

/-- Every piece is a [64, 1] column. -/
theorem pieces_shape (ids msk : IVec S64x8192 32) : ∀ p ∈ pieces ids msk, p.1 = S64x1 := by
  intro p hp
  rcases List.mem_cons.1 hp with rfl | hp
  · rfl
  · obtain ⟨w, _, rfl⟩ := List.mem_map.1 hp
    rfl

/-- Piece `k + 1` is the column of the constant in place `k`. -/
theorem pieces_succ (ids msk : IVec S64x8192 32) (k : ℕ) (hk : k < pats.length)
    (hk' : k + 1 < (pieces ids msk).length) :
    (pieces ids msk)[k + 1]'hk' = ⟨S64x1, col (F := Ideal) (pats[k]'hk) ids msk⟩ := by
  simp only [pieces, List.getElem_cons_succ, List.getElem_map]

/-- An integer and a natural number agree as extended reals exactly when they agree as integers. -/
theorem int_eq_nat_iff (n : ℤ) (k : ℕ) : ((n : ℝ) : EReal) = ((k : ℝ) : EReal) ↔ n = (k : ℤ) := by
  rw [EReal.coe_eq_coe_iff]
  exact_mod_cast Iff.rfl

open Classical in
/-- **One block at `(r, c)`**: the number of positions of row `r` whose id is `c`, is positive, and whose mask
    word is not zero. Column 0 is the zero column, and no id is both 0 and positive; column `c ≥ 1` sums the weight
    over the positions whose id is `c`, where the id is positive, so the weight is the mask's indicator. -/
theorem blk_apply (ids msk : IVec S64x8192 32) (r : Fin 64) (c : Fin 65) :
    blk (F := Ideal) ids msk (ix2 r c) =
      ∑ l : Fin 8192, if (ids (ix2 r l)).toInt = (c.val : ℤ) ∧ 0 < (ids (ix2 r l)).toInt ∧ msk (ix2 r l) ≠ 0#32
        then (1 : EReal) else 0 := by
  obtain ⟨h, e⟩ := blk_eq ids msk
  rw [e]
  obtain ⟨c, hc⟩ := c
  cases c with
  | zero =>
    rw [concat_cols_apply _ h (pieces_shape ids msk) r ⟨0, hc⟩ (by rw [pieces_length]; exact hc)
      (zcol (F := Ideal)) rfl]
    show Ideal.ofBits .f32 0x00000000#32 = _
    rw [Ideal.ofBits_zero_f32]
    refine (Finset.sum_eq_zero fun l _ => ?_).symm
    rw [if_neg]
    rintro ⟨h1, h2, _⟩
    rw [h1] at h2
    exact absurd h2 (by simp)
  | succ k =>
    have hk : k < pats.length := by rw [pats_length]; omega
    rw [concat_cols_apply _ h (pieces_shape ids msk) r ⟨k + 1, hc⟩ (by rw [pieces_length]; exact hc)
      (col (F := Ideal) (pats[k]'hk) ids msk) (pieces_succ ids msk k hk _)]
    rw [col_apply, pats_val k hk]
    refine Finset.sum_congr rfl fun l _ => ?_
    rw [wgt_apply]
    show _ = if (ids (ix2 r l)).toInt = ((k + 1 : ℕ) : ℤ) ∧ 0 < (ids (ix2 r l)).toInt ∧ msk (ix2 r l) ≠ 0#32
      then (1 : EReal) else 0
    by_cases hid : (ids (ix2 r l)).toInt = ((k + 1 : ℕ) : ℤ)
    · have hpos : 0 < (ids (ix2 r l)).toInt := by rw [hid]; exact_mod_cast Nat.succ_pos k
      rw [if_pos ((int_eq_nat_iff _ _).2 hid), if_pos hpos, mul_one]
      by_cases hm : msk (ix2 r l) = 0#32
      · rw [if_neg (fun hne => hne hm), if_neg (fun hh => hh.2.2 hm)]
      · rw [if_pos hm, if_pos ⟨hid, hpos, hm⟩]
    · rw [if_neg (fun hh => hid ((int_eq_nat_iff _ _).1 hh)), if_neg (fun hh => hid hh.1)]

end Cert.KernelIdeal.Blk

end
-- ==== Proof.Spec.lean ====
/-
  The specification both programs meet before their shared host tail: the per-row codon histogram.
  Entry (b, c) counts the positions l of row b whose codon id equals c, is positive, and is not masked
  out.  Column 0 is therefore zero: an id that equals 0 is not positive.  Ids outside 0..64 count for no
  column at all.
-/
import Idealize.ShloMosaic.Lib.ValueIdx

noncomputable section

open scoped BigOperators

namespace Cert.Spec

open Idealize.ShloMosaic Idealize.ShloMosaic.ValueIdx

abbrev S512x8192 : Shape := ⟨2, ![512, 8192]⟩
abbrev S512x65 : Shape := ⟨2, ![512, 65]⟩

/-- Position `l` of row `b` counts for codon `c`: its id, read signed, is `c` and is positive, and its
    mask bit is set. -/
def Counts (ids : IVec S512x8192 32) (mask : IVec S512x8192 1) (b : Fin 512) (c : Fin 65) (l : Fin 8192) : Prop :=
  (ids (ix2 b l)).toInt = (c.val : ℤ) ∧ 0 < (ids (ix2 b l)).toInt ∧ mask (ix2 b l) = 1#1

open Classical in
/-- The histogram as an array of extended reals: entry (b, c) is the number of positions that count for it. -/
def hist (ids : IVec S512x8192 32) (mask : IVec S512x8192 1) : S512x65.Idx → EReal :=
  fun i => ∑ l : Fin 8192, if Counts ids mask (i 0) (i 1) l then (1 : EReal) else 0

end Cert.Spec

end
-- ==== Proof.KIValue.lean ====
/-
  From the blocks each grid point writes back to the two whole result arrays.  The grid has 8 points; point t
  stages rows 64 t … 64 t + 63 (all columns) of the two id arrays and of the mask words, and writes back the
  same rows of the two 512 × 65 result arrays.  The block a point writes is the histogram block of the rows it
  staged; entry by entry that is the specification's per-row histogram of the launched id array under the launched
  mask bits, because the mask words are the mask bits widened to 32 bits and a widened bit is non-zero exactly when it
  is set.  The 8 row blocks cover each result array, so each array ends holding the specification's histogram.
-/
import proofs.«415818_j19533511262776_3_alg».proof.Proof.KIFrame
import proofs.«415818_j19533511262776_3_alg».proof.Proof.KIHist
import proofs.«415818_j19533511262776_3_alg».proof.Proof.Spec
import Idealize.ShloMosaic.Lib.Pipeline.Value
import Idealize.ShloMosaic.Lib.ValueIdx
import Idealize.ShloMosaic.Lib.StableHlo.Run

noncomputable section

namespace Cert.KernelIdeal.HValue

open Cert.KernelIdeal Cert.KernelIdeal.Gen Cert.KernelIdeal.HFrame
open Idealize.ShloMosaic Idealize.ShloMosaic.TcCoe Idealize.ShloMosaic.ValueIdx Idealize.SL.Sem
open Idealize.ShloMosaic.Pipeline (Dat)
open scoped BigOperators

/-! ## One block against the specification, over plain arrays -/

/-- A one-bit word widened to 32 bits is not zero exactly when the bit is set. -/
theorem setWidth_ne_zero_iff (b : BitVec 1) : b.setWidth 32 ≠ 0#32 ↔ b = 1#1 := by
  rcases BitVec.eq_zero_or_eq_one b with rfl | rfl <;> decide

open Classical in
/-- If row `r` of an id block is row `i 0` of the id array, and row `r` of a mask-word block is row `i 0` of the mask
    bits widened to words, then entry (r, q) of the block's histogram is the specification's entry at `i` whenever
    `i`'s column is `q`: both count the same positions of that row. -/
theorem blk_eq_hist (ids : IVec Cert.Spec.S512x8192 32) (mask : IVec Cert.Spec.S512x8192 1) (x0 x2 : IVec S64x8192 32)
    (r : Fin 64) (q : Fin 65) (i : Cert.Spec.S512x65.Idx) (hq : (i 1).val = q.val)
    (h0 : ∀ l : Fin 8192, x0 (ix2 r l) = ids (ix2 (i 0) l))
    (h2 : ∀ l : Fin 8192, x2 (ix2 r l) = (mask (ix2 (i 0) l)).setWidth 32) :
    Cert.KernelIdeal.Blk.blk (F := Ideal) x0 x2 (ix2 r q) = Cert.Spec.hist ids mask i := by
  rw [Cert.KernelIdeal.Blk.blk_apply]
  unfold Cert.Spec.hist
  refine Finset.sum_congr rfl fun l _ => if_congr ?_ rfl rfl
  unfold Cert.Spec.Counts
  rw [h0 l, h2 l, setWidth_ne_zero_iff, hq]

variable (m : (ℓ : Loc nD τ sig) → Buf (Elt Ideal) ℓ)

/-! ## The arrays the region stages, as launched -/

theorem hz : (![0, 0] : Fin 2 → Nat) = fun _ => 0 := funext fun a => by fin_cases a <;> rfl

/-- The mask words the region stages are the launched mask bits widened to 32 bits: the third host operation before
    the region writes them, and nothing after it does. -/
theorem V_main_v0 (c : Dev nD) :
    V m c main_v0 = extui 32 (m ((c : Thread nD τ).loc main_arg4)) natLt_1_32 := by
  show StableHlo.after (List.flatten [hostOps0]) (fun b => m (c, b)) (Proc.devRef .tc main_v0) = _
  simp only [hostOps0, List.flatten_cons, List.flatten_nil, List.append_nil]
  after_results

/-- The printed index maps, decided over the grid: every window's block at point `t` is block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The first id window's block at point `t` is rows `64 t … 64 t + 63` of the first id array as launched. -/
theorem iblk0_apply (c : Dev nD) (t : Fin cfg0.N) (x : S64x8192.Idx) (k : S512x8192.Idx)
    (hk0 : (k 0).val = 64 * t.val + (x 0).val) (hk1 : (k 1).val = (x 1).val) :
    (iblk m c 0 t : IVec S64x8192 32) x = (m ((c : Thread nD τ).loc main_arg0) : IVec S512x8192 32) k := by
  obtain ⟨e0, e1, -⟩ := idx_facts t
  unfold iblk
  rw [View.read_apply]
  show V m c main_arg0 _ = m (c.tc.loc main_arg0) _
  rw [V_of_not_written m c main_arg0 (by decide) (by decide) (by decide)]
  congr 1
  funext a
  apply Fin.ext
  match a with
  | ⟨0, _⟩ => show win0_0.index t 0 * 64 + 1 * (x 0).val = (k 0).val; rw [e0, hk0]; omega
  | ⟨1, _⟩ => show win0_0.index t 1 * 8192 + 1 * (x 1).val = (k 1).val; rw [e1, hk1]; omega

/-- The second id window's block likewise, of the second id array. -/
theorem iblk1_apply (c : Dev nD) (t : Fin cfg0.N) (x : S64x8192.Idx) (k : S512x8192.Idx)
    (hk0 : (k 0).val = 64 * t.val + (x 0).val) (hk1 : (k 1).val = (x 1).val) :
    (iblk m c 1 t : IVec S64x8192 32) x = (m ((c : Thread nD τ).loc main_arg1) : IVec S512x8192 32) k := by
  obtain ⟨-, -, e0, e1, -⟩ := idx_facts t
  unfold iblk
  rw [View.read_apply]
  show V m c main_arg1 _ = m (c.tc.loc main_arg1) _
  rw [V_of_not_written m c main_arg1 (by decide) (by decide) (by decide)]
  congr 1
  funext a
  apply Fin.ext
  match a with
  | ⟨0, _⟩ => show win0_1.index t 0 * 64 + 1 * (x 0).val = (k 0).val; rw [e0, hk0]; omega
  | ⟨1, _⟩ => show win0_1.index t 1 * 8192 + 1 * (x 1).val = (k 1).val; rw [e1, hk1]; omega

/-- The mask-word window's block at point `t` is the same rows of the launched mask bits, each widened to a word. -/
theorem iblk2_apply (c : Dev nD) (t : Fin cfg0.N) (x : S64x8192.Idx) (k : S512x8192.Idx)
    (hk0 : (k 0).val = 64 * t.val + (x 0).val) (hk1 : (k 1).val = (x 1).val) :
    (iblk m c 2 t : IVec S64x8192 32) x = ((m ((c : Thread nD τ).loc main_arg4) : IVec S512x8192 1) k).setWidth 32 := by
  obtain ⟨-, -, -, -, e0, e1, -⟩ := idx_facts t
  unfold iblk
  rw [View.read_apply]
  show V m c main_v0 _ = _
  rw [V_main_v0 m c, extui_apply]
  congr 2
  funext a
  apply Fin.ext
  match a with
  | ⟨0, _⟩ => show win0_2.index t 0 * 64 + 1 * (x 0).val = (k 0).val; rw [e0, hk0]; omega
  | ⟨1, _⟩ => show win0_2.index t 1 * 8192 + 1 * (x 1).val = (k 1).val; rw [e1, hk1]; omega

/-! ## Result window 3: the histogram of the first id array -/

/-- What point `t` writes back to the first result array is block `t` of the specification's histogram of the first
    id array under the mask, both as launched. -/
theorem flushed3_eq (c : Dev nD) (t : Fin cfg0.N) :
    (dats (F := Ideal) m 0 c).flushed 3 t = ((cfg0.win 3).blk t).view.read (Elt Ideal)
      (Cert.Spec.hist (m ((c : Thread nD τ).loc main_arg0)) (m ((c : Thread nD τ).loc main_arg4))) := by
  show (cfg0.win 3).cut (grid0.coords t) ((dats (F := Ideal) m 0 c).after 3 t) = _
  rw [after0_3]
  unfold outOf
  rw [View.canon_unit_zero hz]
  simp only [View.ld_unit_zero (S := S64x8192) hz]
  obtain ⟨-, -, -, -, -, -, e0, e1, -⟩ := idx_facts t
  funext j
  obtain ⟨r, q, rfl⟩ : ∃ (r : Fin 64) (q : Fin 65), j = ix2 r q := ⟨j 0, j 1, eq_ix2 j⟩
  show Cert.KernelIdeal.Blk.blk (F := Ideal) (iblk m c 0 t) (iblk m c 2 t) (ix2 r q)
    = Cert.Spec.hist (m ((c : Thread nD τ).loc main_arg0)) (m ((c : Thread nD τ).loc main_arg4)) (((cfg0.win 3).blk t).view.emb (ix2 r q))
  have hi0 : ((((cfg0.win 3).blk t).view.emb (ix2 r q)) 0).val = 64 * t.val + r.val := by
    show win0_3.index t 0 * 64 + 1 * r.val = _; rw [e0]; omega
  have hi1 : ((((cfg0.win 3).blk t).view.emb (ix2 r q)) 1).val = q.val := by
    show win0_3.index t 1 * 65 + 1 * q.val = _; rw [e1]; omega
  exact blk_eq_hist _ _ _ _ r q _ hi1
    (fun l => iblk0_apply m c t (ix2 r l) _ hi0 rfl)
    (fun l => iblk2_apply m c t (ix2 r l) _ hi0 rfl)

/-- An index of the first result array is in point `t`'s block iff each coordinate is in the block's range on its axis. -/
theorem mem_blk3 (t : Fin cfg0.N) (i : S512x65.Idx) :
    i ∈ ((cfg0.win 3).blk t).view.set ↔ ∀ a : Fin 2, win0_3.index t a * S64x65.size a ≤ (i a).val ∧ (i a).val < win0_3.index t a * S64x65.size a + S64x65.size a := by
  show i ∈ ((View.whole main_v1_0).slice (win0_3.rect t)).set ↔ _
  rw [View.set_slice_whole, Rect.mem_set_unit]
  exact Iff.rfl

/-- Every index of the first result array is in the block of the point its row falls under, `row / 64`. -/
theorem cover3 (i : S512x65.Idx) : ∃ t : Fin cfg0.N, (cfg0.win 3).flush t = true ∧ i ∈ ((cfg0.win 3).blk t).view.set := by
  have hi0 : (i 0).val < 512 := (i 0).isLt
  have hi1 : (i 1).val < 65 := (i 1).isLt
  have hN : cfg0.N = 8 := N_0
  refine ⟨⟨(i 0).val / 64, by rw [hN]; omega⟩, flush0_3 _, ?_⟩
  obtain ⟨-, -, -, -, -, -, e0, e1, -⟩ := idx_facts ⟨(i 0).val / 64, by rw [hN]; omega⟩
  rw [mem_blk3]
  intro a
  match a with
  | ⟨0, _⟩ =>
    show win0_3.index _ (0 : Fin 2) * 64 ≤ (i 0).val ∧ (i 0).val < win0_3.index _ (0 : Fin 2) * 64 + 64
    rw [e0]; show (i 0).val / 64 * 64 ≤ (i 0).val ∧ (i 0).val < (i 0).val / 64 * 64 + 64; omega
  | ⟨1, _⟩ =>
    show win0_3.index _ (1 : Fin 2) * 65 ≤ (i 1).val ∧ (i 1).val < win0_3.index _ (1 : Fin 2) * 65 + 65
    rw [e1]; omega

/-- The first result array after the run is the specification's histogram of the first id array under the mask. -/
theorem final3 (c : Dev nD) : (dats (F := Ideal) m 0 c).arrAt 3 cfg0.N
      = Cert.Spec.hist (m ((c : Thread nD τ).loc main_arg0)) (m ((c : Thread nD τ).loc main_arg4)) :=
  (dats (F := Ideal) m 0 c).arrAt_eq_of_cover 3 _ (fun t _ => flushed3_eq m c t) cover3

/-! ## Result window 4: the histogram of the second id array -/

/-- What point `t` writes back to the second result array is block `t` of the specification's histogram of the second
    id array under the mask, both as launched. -/
theorem flushed4_eq (c : Dev nD) (t : Fin cfg0.N) :
    (dats (F := Ideal) m 0 c).flushed 4 t = ((cfg0.win 4).blk t).view.read (Elt Ideal)
      (Cert.Spec.hist (m ((c : Thread nD τ).loc main_arg1)) (m ((c : Thread nD τ).loc main_arg4))) := by
  show (cfg0.win 4).cut (grid0.coords t) ((dats (F := Ideal) m 0 c).after 4 t) = _
  rw [after0_4]
  unfold outOf
  rw [View.canon_unit_zero hz]
  simp only [View.ld_unit_zero (S := S64x8192) hz]
  obtain ⟨-, -, -, -, -, -, -, -, e0, e1⟩ := idx_facts t
  funext j
  obtain ⟨r, q, rfl⟩ : ∃ (r : Fin 64) (q : Fin 65), j = ix2 r q := ⟨j 0, j 1, eq_ix2 j⟩
  show Cert.KernelIdeal.Blk.blk (F := Ideal) (iblk m c 1 t) (iblk m c 2 t) (ix2 r q)
    = Cert.Spec.hist (m ((c : Thread nD τ).loc main_arg1)) (m ((c : Thread nD τ).loc main_arg4)) (((cfg0.win 4).blk t).view.emb (ix2 r q))
  have hi0 : ((((cfg0.win 4).blk t).view.emb (ix2 r q)) 0).val = 64 * t.val + r.val := by
    show win0_4.index t 0 * 64 + 1 * r.val = _; rw [e0]; omega
  have hi1 : ((((cfg0.win 4).blk t).view.emb (ix2 r q)) 1).val = q.val := by
    show win0_4.index t 1 * 65 + 1 * q.val = _; rw [e1]; omega
  exact blk_eq_hist _ _ _ _ r q _ hi1
    (fun l => iblk1_apply m c t (ix2 r l) _ hi0 rfl)
    (fun l => iblk2_apply m c t (ix2 r l) _ hi0 rfl)

/-- An index of the second result array is in point `t`'s block iff each coordinate is in the block's range on its axis. -/
theorem mem_blk4 (t : Fin cfg0.N) (i : S512x65.Idx) :
    i ∈ ((cfg0.win 4).blk t).view.set ↔ ∀ a : Fin 2, win0_4.index t a * S64x65.size a ≤ (i a).val ∧ (i a).val < win0_4.index t a * S64x65.size a + S64x65.size a := by
  show i ∈ ((View.whole main_v1_1).slice (win0_4.rect t)).set ↔ _
  rw [View.set_slice_whole, Rect.mem_set_unit]
  exact Iff.rfl

/-- Every index of the second result array is in the block of the point its row falls under, `row / 64`. -/
theorem cover4 (i : S512x65.Idx) : ∃ t : Fin cfg0.N, (cfg0.win 4).flush t = true ∧ i ∈ ((cfg0.win 4).blk t).view.set := by
  have hi0 : (i 0).val < 512 := (i 0).isLt
  have hi1 : (i 1).val < 65 := (i 1).isLt
  have hN : cfg0.N = 8 := N_0
  refine ⟨⟨(i 0).val / 64, by rw [hN]; omega⟩, flush0_4 _, ?_⟩
  obtain ⟨-, -, -, -, -, -, -, -, e0, e1⟩ := idx_facts ⟨(i 0).val / 64, by rw [hN]; omega⟩
  rw [mem_blk4]
  intro a
  match a with
  | ⟨0, _⟩ =>
    show win0_4.index _ (0 : Fin 2) * 64 ≤ (i 0).val ∧ (i 0).val < win0_4.index _ (0 : Fin 2) * 64 + 64
    rw [e0]; show (i 0).val / 64 * 64 ≤ (i 0).val ∧ (i 0).val < (i 0).val / 64 * 64 + 64; omega
  | ⟨1, _⟩ =>
    show win0_4.index _ (1 : Fin 2) * 65 ≤ (i 1).val ∧ (i 1).val < win0_4.index _ (1 : Fin 2) * 65 + 65
    rw [e1]; omega

/-- The second result array after the run is the specification's histogram of the second id array under the mask. -/
theorem final4 (c : Dev nD) : (dats (F := Ideal) m 0 c).arrAt 4 cfg0.N
      = Cert.Spec.hist (m ((c : Thread nD τ).loc main_arg1)) (m ((c : Thread nD τ).loc main_arg4)) :=
  (dats (F := Ideal) m 0 c).arrAt_eq_of_cover 4 _ (fun t _ => flushed4_eq m c t) cover4

end Cert.KernelIdeal.HValue

end
-- ==== Proof.RefHist.lean ====
/-
  The reference's histogram stage as one term, and what it is.  The reference scatters the weight
  [mask ∧ id > 0] of every position (b, l) to the entry (row, column) = (b, id) of a zero array, an id below 0
  first moved up by 65 (a negative index counts from the end).  An update whose column falls outside 0 … 64 is
  dropped.  A negative id has weight 0, so it adds nothing wherever it lands; hence entry (b, c) is the number
  of unmasked positions of row b whose id is c and positive.
-/
import proofs.«415818_j19533511262776_3_alg».proof.Proof.Gen.ReferenceIdeal
import proofs.«415818_j19533511262776_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hist

open Idealize.ShloMosaic Idealize.ShloMosaic.ValueIdx Cert.ReferenceIdeal Cert.ReferenceIdeal.Facts₀ Cert.ReferenceIdeal.Facts

variable {F : FTy → Type} [FloatOps F] [Cert.ReferenceIdeal.Facts]

/-- The row coordinate of the scatter: the row number b, moved up by 512 if negative (it never is). -/
def rowIdx : IVec S512x1 32 :=
  select (cmpi .slt (broadcastInDim S512x1 ![0] bcast_S512_S512x1_0 (iotaInDim S512 32 0))
      (broadcastInDim S512x1 ![] bcast_S_S512x1 (constantI S_ 32 0#32)))
    (addi (broadcastInDim S512x1 ![0] bcast_S512_S512x1_0 (iotaInDim S512 32 0))
      (broadcastInDim S512x1 ![] bcast_S_S512x1 (constantI S_ 32 512#32)))
    (broadcastInDim S512x1 ![0] bcast_S512_S512x1_0 (iotaInDim S512 32 0))

/-- The column coordinate of the scatter: the id, moved up by 65 if negative. -/
def colIdx (ids : IVec S512x8192 32) : IVec S512x8192 32 :=
  select (cmpi .slt ids (broadcastInDim S512x8192 ![] bcast_S_S512x8192 (constantI S_ 32 0#32)))
    (addi ids (broadcastInDim S512x8192 ![] bcast_S_S512x8192 (constantI S_ 32 65#32))) ids

/-- The reference's histogram of `ids` under `mask`: the scatter-add of the weights into a zero array at the
    (row, column) pairs. -/
def refCounts (ids : IVec S512x8192 32) (mask : IVec S512x8192 1) : FVec F S512x65 .f32 :=
  Host.scatterAdd scatter_S512x65_S512x8192x2_S512x8192_n_01_01_2
    (broadcastInDim S512x65 ![] bcast_S_S512x65 (constant S_ .f32 0x00000000#32 : FVec F S_ .f32))
    (concatenate S512x8192x2 2
      [⟨S512x8192x1, broadcastInDim S512x8192x1 ![0, 1] bcast_S512x8192_S512x8192x1_0_1
          (broadcastInDim S512x8192 ![0, 1] bcast_S512x1_S512x8192_0_1 rowIdx)⟩,
       ⟨S512x8192x1, broadcastInDim S512x8192x1 ![0, 1] bcast_S512x8192_S512x8192x1_0_1 (colIdx ids)⟩]
      concatenates_S512x8192x1_S512x8192x1_S512x8192x2_d2)
    (uitofp .f32 (andi mask (cmpi .sgt ids (broadcastInDim S512x8192 ![] bcast_S_S512x8192 (constantI S_ 32 0#32)))) : FVec F S512x8192 .f32)

/-! ## Words -/

/-- A row number below 512, as a 32-bit word read signed, is itself. -/
theorem toInt_row (b : Fin 512) : (BitVec.ofNat 32 b.val).toInt = (b.val : ℤ) := by
  have hb := b.isLt
  have h1 : (BitVec.ofNat 32 b.val).toNat = b.val := by
    rw [BitVec.toNat_ofNat]; exact Nat.mod_eq_of_lt (by omega)
  rw [BitVec.toInt_eq_toNat_of_lt (by rw [h1]; omega), h1]

/-- The row word of the scatter is the row number: it is never negative, so the wrap-around leaves it alone. -/
theorem row_word (b : Fin 512) :
    Scalar.select (IntOp.cmpi .slt (BitVec.ofNat 32 b.val) 0#32) (IntOp.addi (BitVec.ofNat 32 b.val) 512#32)
      (BitVec.ofNat 32 b.val) = BitVec.ofNat 32 b.val := by
  have h : (BitVec.ofNat 32 b.val).slt 0#32 = false := by
    rw [BitVec.slt_eq_decide, BitVec.toInt_zero, toInt_row]; simp
  simp [Scalar.select, IntOp.cmpi, h]

/-- The column word of a non-negative id is the id. -/
theorem col_word_of_nonneg (id : BitVec 32) (h : 0 ≤ id.toInt) :
    Scalar.select (IntOp.cmpi .slt id 0#32) (IntOp.addi id 65#32) id = id := by
  have h' : id.slt 0#32 = false := by
    rw [BitVec.slt_eq_decide, BitVec.toInt_zero]; simpa using h
  simp [Scalar.select, IntOp.cmpi, h']

/-- The weight of a position: 1 when its id is positive and its mask bit set, else 0. -/
theorem weight_word (id : BitVec 32) (m : BitVec 1) :
    (((IntOp.andi m (IntOp.cmpi .sgt id 0#32)).toNat : ℝ) : EReal) = if 0 < id.toInt ∧ m = 1#1 then 1 else 0 := by
  unfold IntOp.andi IntOp.cmpi
  simp only
  rw [BitVec.slt_eq_decide, BitVec.toInt_zero]
  by_cases h : 0 < id.toInt
  · rcases BitVec.eq_zero_or_eq_one m with rfl | rfl <;> simp [h]
  · simp [h]

/-- One position's contribution to column c, in words: the weight if the column word is c, else nothing;
    that is 1 exactly when the id is c, positive and unmasked. -/
theorem term_word (id : BitVec 32) (m : BitVec 1) (c : ℤ) :
    (if (Scalar.select (IntOp.cmpi .slt id 0#32) (IntOp.addi id 65#32) id).toInt = c then
        (((IntOp.andi m (IntOp.cmpi .sgt id 0#32)).toNat : ℝ) : EReal) else 0)
      = if id.toInt = c ∧ 0 < id.toInt ∧ m = 1#1 then 1 else 0 := by
  rw [weight_word]
  by_cases h : 0 < id.toInt
  · rw [col_word_of_nonneg id (le_of_lt h)]
    by_cases hc : id.toInt = c <;> simp [hc, h]
  · simp [h]

/-! ## The scatter's operands at an index -/

/-- The scatter's index array: the (row, column) pair of every position. -/
def idxArr (ids : IVec S512x8192 32) : IVec S512x8192x2 32 :=
  concatenate S512x8192x2 2
    [⟨S512x8192x1, broadcastInDim S512x8192x1 ![0, 1] bcast_S512x8192_S512x8192x1_0_1
        (broadcastInDim S512x8192 ![0, 1] bcast_S512x1_S512x8192_0_1 rowIdx)⟩,
     ⟨S512x8192x1, broadcastInDim S512x8192x1 ![0, 1] bcast_S512x8192_S512x8192x1_0_1 (colIdx ids)⟩]
    concatenates_S512x8192x1_S512x8192x1_S512x8192x2_d2

/-- The scatter's updates: the weight of every position. -/
def weights (ids : IVec S512x8192 32) (mask : IVec S512x8192 1) : FVec F S512x8192 .f32 :=
  uitofp .f32 (andi mask (cmpi .sgt ids (broadcastInDim S512x8192 ![] bcast_S_S512x8192 (constantI S_ 32 0#32))))

theorem refCounts_eq (ids : IVec S512x8192 32) (mask : IVec S512x8192 1) :
    refCounts (F := F) ids mask = Host.scatterAdd scatter_S512x65_S512x8192x2_S512x8192_n_01_01_2
      (broadcastInDim S512x65 ![] bcast_S_S512x65 (constant S_ .f32 0x00000000#32 : FVec F S_ .f32))
      (idxArr ids) (weights ids mask) := rfl

/-- The row array at (b, 0) is the word of b. -/
theorem rowIdx_apply (b : Fin 512) : rowIdx (ix2 b 0) = BitVec.ofNat 32 b.val := by
  have h := row_word b
  exact h

/-- The column array at (b, l): the id, moved up by 65 if negative. -/
theorem colIdx_apply (ids : IVec S512x8192 32) (b : Fin 512) (l : Fin 8192) :
    colIdx ids (ix2 b l) = Scalar.select (IntOp.cmpi .slt (ids (ix2 b l)) 0#32) (IntOp.addi (ids (ix2 b l)) 65#32)
      (ids (ix2 b l)) := rfl

/-- The index array's row component. -/
theorem idxArr_row (ids : IVec S512x8192 32) (b : Fin 512) (l : Fin 8192) :
    idxArr ids (ix3 b l 0) = BitVec.ofNat 32 b.val := by
  unfold idxArr
  rw [concatenate_pair_apply_left (t := S512x8192x2) (s₁ := S512x8192x1) (s₂ := S512x8192x1) (2 : Fin 3) _ _ _ (ix3 b l (0 : Fin 2)) rfl (ix3 b l (0 : Fin 1))
    (by intro a; match a with | ⟨0, _⟩ => rfl | ⟨1, _⟩ => rfl | ⟨2, _⟩ => rfl)]
  rw [broadcastInDim_apply _ _ _ (ix3 b l (0 : Fin 1)) (ix2 b l)
    (by intro a; match a with | ⟨0, _⟩ => rfl | ⟨1, _⟩ => rfl)]
  rw [broadcastInDim_apply _ _ _ (ix2 b l) (ix2 b (0 : Fin 1))
    (by intro a; match a with | ⟨0, _⟩ => rfl | ⟨1, _⟩ => rfl)]
  exact rowIdx_apply b

/-- The index array's column component. -/
theorem idxArr_col (ids : IVec S512x8192 32) (b : Fin 512) (l : Fin 8192) :
    idxArr ids (ix3 b l 1) = Scalar.select (IntOp.cmpi .slt (ids (ix2 b l)) 0#32) (IntOp.addi (ids (ix2 b l)) 65#32)
      (ids (ix2 b l)) := by
  unfold idxArr
  rw [concatenate_pair_apply_right (t := S512x8192x2) (s₁ := S512x8192x1) (s₂ := S512x8192x1) (2 : Fin 3) _ _ _ (ix3 b l (1 : Fin 2)) rfl rfl (ix3 b l (0 : Fin 1))
    (by intro a ha; match a, ha with | ⟨0, _⟩, _ => rfl | ⟨1, _⟩, _ => rfl | ⟨2, _⟩, ha => exact absurd rfl ha)
    rfl]
  rw [broadcastInDim_apply _ _ _ (ix3 b l (0 : Fin 1)) (ix2 b l)
    (by intro a; match a with | ⟨0, _⟩ => rfl | ⟨1, _⟩ => rfl)]
  rfl

/-- The weight array at (b, l), at the ideal instance. -/
theorem weights_apply (ids : IVec S512x8192 32) (mask : IVec S512x8192 1) (b : Fin 512) (l : Fin 8192) :
    weights (F := Ideal) ids mask (ix2 b l)
      = (((IntOp.andi (mask (ix2 b l)) (IntOp.cmpi .sgt (ids (ix2 b l)) 0#32)).toNat : ℝ) : EReal) := rfl

/-! ## Where an update lands -/

/-- An update lands at operand index i exactly when, on every axis, its start plus its window coordinate is
    i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · next hh =>
      have e := Option.some.inj h
      intro a
      have ea := congrArg Fin.val (congrFun e a)
      have := hh a
      simp only at ea
      omega
    · exact absurd h (by simp)
  · intro h
    have hh : ∀ a, 0 ≤ d.start j idx a + (d.window j a : ℤ) ∧ d.start j idx a + (d.window j a : ℤ) < s.size a := by
      intro a
      rw [h a]
      exact ⟨by omega, by exact_mod_cast (i a).isLt⟩
    rw [dif_pos hh]
    congr 1
    funext a
    apply Fin.ext
    simp only
    rw [h a]
    simp

/-- The scatter's dimension numbers: no window axes, both operand axes inserted, index component k names operand axis k. -/
abbrev dn : ScatterDims S512x65 S512x8192x2 S512x8192 := scatter_S512x65_S512x8192x2_S512x8192_n_01_01_2

/-- The window start on the row axis is the index array's row component, read signed. -/
theorem start_row (idx : IVec S512x8192x2 32) (b : Fin 512) (l : Fin 8192) :
    dn.start (ix2 b l) idx 0 = (idx (ix3 b l 0)).toInt := by
  unfold ScatterDims.start
  rw [dif_pos (by decide)]
  congr 2
  funext a
  apply Fin.ext
  match a with
  | ⟨0, _⟩ => rfl
  | ⟨1, _⟩ => rfl
  | ⟨2, _⟩ => rfl

/-- The window start on the column axis is the index array's column component, read signed. -/
theorem start_col (idx : IVec S512x8192x2 32) (b : Fin 512) (l : Fin 8192) :
    dn.start (ix2 b l) idx 1 = (idx (ix3 b l 1)).toInt := by
  unfold ScatterDims.start
  rw [dif_pos (by decide)]
  congr 2
  funext a
  apply Fin.ext
  match a with
  | ⟨0, _⟩ => rfl
  | ⟨1, _⟩ => rfl
  | ⟨2, _⟩ => rfl

/-- Both operand axes are inserted: the window has no coordinate. -/
theorem window_zero (j : S512x8192.Idx) (a : Fin 2) : dn.window j a = 0 := by
  have h : dn.sKept = [] := by decide
  unfold ScatterDims.window
  rw [dif_neg (by rw [h]; exact List.not_mem_nil)]

/-- Position (b, l) lands at entry (b', c) exactly when the two components of its index pair are b' and c. -/
theorem lands_iff (idx : IVec S512x8192x2 32) (b : Fin 512) (l : Fin 8192) (b' : Fin 512) (c : Fin 65) :
    dn.resultIdx? (ix2 b l) idx = some (ix2 b' c) ↔
      (idx (ix3 b l 0)).toInt = (b'.val : ℤ) ∧ (idx (ix3 b l 1)).toInt = (c.val : ℤ) := by
  rw [resultIdx?_eq_some_iff]
  constructor
  · intro h
    have h0 := h 0
    have h1 := h 1
    rw [start_row, window_zero] at h0
    rw [start_col, window_zero] at h1
    exact ⟨by simpa using h0, by simpa using h1⟩
  · rintro ⟨h0, h1⟩ a
    match a with
    | ⟨0, _⟩ =>
      show dn.start (ix2 b l) idx 0 + (dn.window (ix2 b l) 0 : ℤ) = _
      rw [start_row, window_zero, h0]; simp
    | ⟨1, _⟩ =>
      show dn.start (ix2 b l) idx 1 + (dn.window (ix2 b l) 1 : ℤ) = _
      rw [start_col, window_zero, h1]; simp

/-! ## The sum -/

/-- The accumulating scatter at the ideal instance, read at an entry: the operand's entry plus the sum of the
    updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := rfl

/-- The zero array's entries are zero. -/
theorem zeros_apply (i : S512x65.Idx) :
    (broadcastInDim S512x65 ![] bcast_S_S512x65 (constant (F := Ideal) S_ .f32 0x00000000#32)) i = 0 :=
  Ideal.ofBits_zero_f32
/-- One position's contribution to entry (b', c) from row b' itself: the weight when it lands there; that is 1
    exactly when the position counts for (b', c). Stated for any way of deciding the two conditions. -/
theorem term_eq (ids : IVec S512x8192 32) (mask : IVec S512x8192 1) (b' : Fin 512) (c : Fin 65) (l : Fin 8192)
    {_ : Decidable (dn.resultIdx? (ix2 b' l) (idxArr ids) = some (ix2 b' c))}
    {_ : Decidable (Cert.Spec.Counts ids mask b' c l)} :
    (if dn.resultIdx? (ix2 b' l) (idxArr ids) = some (ix2 b' c) then weights (F := Ideal) ids mask (ix2 b' l) else 0)
      = if Cert.Spec.Counts ids mask b' c l then (1 : EReal) else 0 := by
  rw [weights_apply]
  refine (if_congr ?_ rfl rfl).trans
    ((term_word (ids (ix2 b' l)) (mask (ix2 b' l)) (c.val : ℤ)).trans (if_congr ?_ rfl rfl))
  · rw [lands_iff, idxArr_row, idxArr_col, toInt_row]
    exact and_iff_right rfl
  · exact Iff.rfl

/-- A position of another row never lands in row b'. -/
theorem not_lands_of_ne (ids : IVec S512x8192 32) (b b' : Fin 512) (c : Fin 65) (l : Fin 8192) (hb : b ≠ b') :
    ¬ dn.resultIdx? (ix2 b l) (idxArr ids) = some (ix2 b' c) := by
  rw [lands_iff, idxArr_row, toInt_row]
  intro h
  exact hb (Fin.ext (by exact_mod_cast h.1))

/-- THE HISTOGRAM STAGE: the reference's scatter-add of the weights into a zero array is the histogram. -/
theorem refCounts_eq_hist (ids : IVec S512x8192 32) (mask : IVec S512x8192 1) :
    refCounts (F := Ideal) ids mask = Cert.Spec.hist ids mask := by
  funext i
  obtain ⟨b', c, rfl⟩ : ∃ p q, i = ix2 p q := ⟨i 0, i 1, eq_ix2 i⟩
  unfold Cert.Spec.hist
  rw [refCounts_eq, scatterAdd_apply, zeros_apply, zero_add, Finset.sum_filter, sum_idx2, Finset.sum_eq_single b']
  · exact Finset.sum_congr rfl fun l _ => term_eq ids mask b' c l
  · intro b _ hb
    exact Finset.sum_eq_zero fun l _ => if_neg (not_lands_of_ne ids b b' c l hb)
  · intro h
    exact absurd (Finset.mem_univ _) h

end Cert.ReferenceIdeal.Hist

end
-- ==== Proof.Bridge.lean ====
/-
  The bridge between the two programs' results.  After its region the kernel's program applies to its two histogram
  arrays the same host operations the reference applies to its two scatter histograms: the per-amino-acid totals by a
  scatter-add and a gather, the usage ratio, the blend with the species' reference row, the two normalisations and
  the divergence sum.  Both runs are read back as one composed term each; the histograms are equal (each is the
  counting function of the specification), the constant tables are the same tables, and the rest of the two terms
  is the same operations, one for one.
-/
import proofs.«415818_j19533511262776_3_alg».proof.Proof.KIValue
import proofs.«415818_j19533511262776_3_alg».proof.Proof.RefRun
import proofs.«415818_j19533511262776_3_alg».proof.Proof.RefHist
import Idealize.ShloMosaic.Lib.StableHlo.Run

set_option maxRecDepth 16384

noncomputable section

namespace Cert.Bridge

open Idealize.ShloMosaic Idealize.ShloMosaic.TcCoe Idealize.SL.Sem Idealize.ShloMosaic.StableHlo

/-! ## The constant tables are the same in both programs -/

theorem lit0_eq : Cert.ReferenceIdeal.lit0 = Cert.KernelIdeal.lit0 := by funext i; fin_cases i <;> rfl
theorem lit1_eq : Cert.ReferenceIdeal.lit1 = Cert.KernelIdeal.lit1 := by funext i; fin_cases i <;> rfl

/-! ## What the kernel program's later operations read -/

section KernelSide

open Cert.KernelIdeal Cert.KernelIdeal.Gen Cert.KernelIdeal.HFrame

variable (m : (ℓ : Loc Cert.KernelIdeal.nD Cert.KernelIdeal.τ Cert.KernelIdeal.sig) → Buf (Elt Ideal) ℓ)

/-- The contents the operations after the region start from: the region's arrays at what the run left, every other
    buffer as the region found it. -/
abbrev W (c : Dev Cert.KernelIdeal.nD) : Valuation Cert.KernelIdeal.τ Cert.KernelIdeal.sig (Elt Ideal) :=
  Pipeline.withArrays (Cert.KernelIdeal.cfgs 0).spec c (V0 m c) fun w => (dats (F := Ideal) m 0 c).arrAt w (Cert.KernelIdeal.cfgs 0).N

theorem W_counts_pred (c : Dev Cert.KernelIdeal.nD) : W m c (Proc.devRef .tc Cert.KernelIdeal.main_v1_0)
    = Cert.Spec.hist (m ((c : Thread Cert.KernelIdeal.nD Cert.KernelIdeal.τ).loc Cert.KernelIdeal.main_arg0)) (m ((c : Thread Cert.KernelIdeal.nD Cert.KernelIdeal.τ).loc Cert.KernelIdeal.main_arg4)) :=
  (Pipeline.withArrays_arr spec0 launch0.win.arr_inj c _ _ 3).trans (Cert.KernelIdeal.HValue.final3 m c)
theorem W_counts_tgt (c : Dev Cert.KernelIdeal.nD) : W m c (Proc.devRef .tc Cert.KernelIdeal.main_v1_1)
    = Cert.Spec.hist (m ((c : Thread Cert.KernelIdeal.nD Cert.KernelIdeal.τ).loc Cert.KernelIdeal.main_arg1)) (m ((c : Thread Cert.KernelIdeal.nD Cert.KernelIdeal.τ).loc Cert.KernelIdeal.main_arg4)) :=
  (Pipeline.withArrays_arr spec0 launch0.win.arr_inj c _ _ 4).trans (Cert.KernelIdeal.HValue.final4 m c)
theorem W_arg3 (c : Dev Cert.KernelIdeal.nD) : W m c (Proc.devRef .tc Cert.KernelIdeal.main_arg3) = m ((c : Thread Cert.KernelIdeal.nD Cert.KernelIdeal.τ).loc Cert.KernelIdeal.main_arg3) :=
  (Pipeline.withArrays_of_ne _ c (V0 m c) _ main_arg3 (by exact (by decide : ∀ w, Pipeline.arrRef spec0 w ≠ main_arg3))).trans
    (V_of_not_written m c main_arg3 (by decide) (by decide) (by decide))
theorem W_arg5 (c : Dev Cert.KernelIdeal.nD) : W m c (Proc.devRef .tc Cert.KernelIdeal.main_arg5) = m ((c : Thread Cert.KernelIdeal.nD Cert.KernelIdeal.τ).loc Cert.KernelIdeal.main_arg5) :=
  (Pipeline.withArrays_of_ne _ c (V0 m c) _ main_arg5 (by exact (by decide : ∀ w, Pipeline.arrRef spec0 w ≠ main_arg5))).trans
    (V_of_not_written m c main_arg5 (by decide) (by decide) (by decide))
/-- The codon → amino-acid table, written before the region. -/
theorem W_c (c : Dev Cert.KernelIdeal.nD) : W m c (Proc.devRef .tc Cert.KernelIdeal.main_c) = fun i => Cert.KernelIdeal.lit0 (Cert.KernelIdeal.S65.rowMajor i) :=
  (Pipeline.withArrays_of_ne _ c (V0 m c) _ main_c (by exact (by decide : ∀ w, Pipeline.arrRef spec0 w ≠ main_c))).trans (by
    show StableHlo.after (List.flatten [hostOps0]) (fun b => m (c, b)) (Proc.devRef .tc main_c) = _
    simp only [hostOps0, List.flatten_cons, List.flatten_nil, List.append_nil]
    after_results
    rfl)
/-- The synonymous-codon counts, written before the region. -/
theorem W_cst (c : Dev Cert.KernelIdeal.nD) : W m c (Proc.devRef .tc Cert.KernelIdeal.main_cst) = fun i => FloatOps.ofBits (F := Ideal) .f32 (Cert.KernelIdeal.lit1 (Cert.KernelIdeal.S65.rowMajor i)) :=
  (Pipeline.withArrays_of_ne _ c (V0 m c) _ main_cst (by exact (by decide : ∀ w, Pipeline.arrRef spec0 w ≠ main_cst))).trans (by
    show StableHlo.after (List.flatten [hostOps0]) (fun b => m (c, b)) (Proc.devRef .tc main_cst) = _
    simp only [hostOps0, List.flatten_cons, List.flatten_nil, List.append_nil]
    after_results
    rfl)

/-- The kernel program's result is what the later operations make of those contents. -/
theorem afterTail_eq (c : Dev Cert.KernelIdeal.nD) :
    Pipeline.afterTail₀ Cert.KernelIdeal.cfgs (dats (F := Ideal) m) 0 (V0 m) tailOps c Cert.KernelIdeal.main_v85
      = StableHlo.after (tailOps (F := Ideal)).flatten (W m c) (Proc.devRef .tc Cert.KernelIdeal.main_v85) := rfl

end KernelSide

/-! ## The reference's histogram term -/

/-- The scatter's index array: a row-number array and a column-number array side by side along a last axis of 2. -/
def idxPair (a b : (⟨Cert.ReferenceIdeal.S512x8192x1, .i32⟩ : BufTy).Contents (Elt Ideal)) : (⟨Cert.ReferenceIdeal.S512x8192x2, .i32⟩ : BufTy).Contents (Elt Ideal) :=
  concatenate Cert.ReferenceIdeal.S512x8192x2 2 [⟨Cert.ReferenceIdeal.S512x8192x1, a⟩, ⟨Cert.ReferenceIdeal.S512x8192x1, b⟩] Cert.ReferenceIdeal.Facts₀.concatenates_S512x8192x1_S512x8192x1_S512x8192x2_d2

theorem idxPair_fold : ((fun a b => concatenate Cert.ReferenceIdeal.S512x8192x2 2 [⟨Cert.ReferenceIdeal.S512x8192x1, a⟩, ⟨Cert.ReferenceIdeal.S512x8192x1, b⟩] Cert.ReferenceIdeal.Facts₀.concatenates_S512x8192x1_S512x8192x1_S512x8192x2_d2) : (⟨Cert.ReferenceIdeal.S512x8192x1, .i32⟩ : BufTy).Contents (Elt Ideal) → (⟨Cert.ReferenceIdeal.S512x8192x1, .i32⟩ : BufTy).Contents (Elt Ideal) → (⟨Cert.ReferenceIdeal.S512x8192x2, .i32⟩ : BufTy).Contents (Elt Ideal)) = idxPair := rfl

/-- The reference's scatter histogram, in the form its run is read back in, is the specification's histogram. -/
theorem refCounts_term (ids : IVec Cert.ReferenceIdeal.S512x8192 32) (mask : IVec Cert.ReferenceIdeal.S512x8192 1) :
    Host.scatterAdd (F := Ideal) Cert.ReferenceIdeal.scatter_S512x65_S512x8192x2_S512x8192_n_01_01_2
      (broadcastInDim Cert.ReferenceIdeal.S512x65 ![] Cert.ReferenceIdeal.Facts₀.bcast_S_S512x65 (constant (F := Ideal) Cert.ReferenceIdeal.S_ .f32 0x00000000#32))
      (idxPair (broadcastInDim Cert.ReferenceIdeal.S512x8192x1 ![0, 1] Cert.ReferenceIdeal.Facts₀.bcast_S512x8192_S512x8192x1_0_1 (broadcastInDim Cert.ReferenceIdeal.S512x8192 ![0, 1] Cert.ReferenceIdeal.Facts₀.bcast_S512x1_S512x8192_0_1 (select (cmpi .slt (broadcastInDim Cert.ReferenceIdeal.S512x1 ![0] Cert.ReferenceIdeal.Facts₀.bcast_S512_S512x1_0 (iotaInDim Cert.ReferenceIdeal.S512 32 0)) (broadcastInDim Cert.ReferenceIdeal.S512x1 ![] Cert.ReferenceIdeal.Facts₀.bcast_S_S512x1 (constantI Cert.ReferenceIdeal.S_ 32 0#32))) (addi (broadcastInDim Cert.ReferenceIdeal.S512x1 ![0] Cert.ReferenceIdeal.Facts₀.bcast_S512_S512x1_0 (iotaInDim Cert.ReferenceIdeal.S512 32 0)) (broadcastInDim Cert.ReferenceIdeal.S512x1 ![] Cert.ReferenceIdeal.Facts₀.bcast_S_S512x1 (constantI Cert.ReferenceIdeal.S_ 32 512#32))) (broadcastInDim Cert.ReferenceIdeal.S512x1 ![0] Cert.ReferenceIdeal.Facts₀.bcast_S512_S512x1_0 (iotaInDim Cert.ReferenceIdeal.S512 32 0)))))
        (broadcastInDim Cert.ReferenceIdeal.S512x8192x1 ![0, 1] Cert.ReferenceIdeal.Facts₀.bcast_S512x8192_S512x8192x1_0_1 (select (cmpi .slt ids (broadcastInDim Cert.ReferenceIdeal.S512x8192 ![] Cert.ReferenceIdeal.Facts₀.bcast_S_S512x8192 (constantI Cert.ReferenceIdeal.S_ 32 0#32))) (addi ids (broadcastInDim Cert.ReferenceIdeal.S512x8192 ![] Cert.ReferenceIdeal.Facts₀.bcast_S_S512x8192 (constantI Cert.ReferenceIdeal.S_ 32 65#32))) ids)))
      (uitofp (F := Ideal) .f32 (andi mask (cmpi .sgt ids (broadcastInDim Cert.ReferenceIdeal.S512x8192 ![] Cert.ReferenceIdeal.Facts₀.bcast_S_S512x8192 (constantI Cert.ReferenceIdeal.S_ 32 0#32)))))
      = Cert.Spec.hist ids mask :=
  Cert.ReferenceIdeal.Hist.refCounts_eq_hist ids mask

/-! ## The two results are equal -/

section Main

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 40000000 in
/-- From launch memories that agree on the arguments, the reference's result array is the kernel program's. -/
theorem ref_eq_kernel (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after (Cert.ReferenceIdeal.HandRun.ops (F := Ideal)) (StableHlo.launchContents m' c) (Proc.devRef .tc Cert.ReferenceIdeal.main_v127)
      = Pipeline.afterTail₀ Cert.KernelIdeal.cfgs (Cert.KernelIdeal.HFrame.dats (F := Ideal) m) 0 (Cert.KernelIdeal.HFrame.V0 m) Cert.KernelIdeal.HFrame.tailOps c Cert.KernelIdeal.main_v85 := by
  rw [afterTail_eq]
  -- what the kernel program's later operations read of the region's exit contents
  have e0 := W_counts_pred m c
  have e1 := W_counts_tgt m c
  have e3 := W_arg3 m c
  have e5 := W_arg5 m c
  have ec := W_c m c
  have ecst := W_cst m c
  generalize W m c = Wv at e0 e1 e3 e5 ec ecst ⊢
  -- what the reference reads of its launch contents
  have g0 : StableHlo.launchContents m' c (Proc.devRef .tc Cert.ReferenceIdeal.main_arg0) = _ := h0
  have g1 : StableHlo.launchContents m' c (Proc.devRef .tc Cert.ReferenceIdeal.main_arg1) = _ := h1
  have g3 : StableHlo.launchContents m' c (Proc.devRef .tc Cert.ReferenceIdeal.main_arg3) = _ := h3
  have g4 : StableHlo.launchContents m' c (Proc.devRef .tc Cert.ReferenceIdeal.main_arg4) = _ := h4
  have g5 : StableHlo.launchContents m' c (Proc.devRef .tc Cert.ReferenceIdeal.main_arg5) = _ := h5
  generalize StableHlo.launchContents m' c = Lv at g0 g1 g3 g4 g5 ⊢
  rw [Cert.ReferenceIdeal.HandRun.after_ops]
  simp only [Cert.ReferenceIdeal.HandRun.ops0, Cert.ReferenceIdeal.HandRun.ops1, Cert.ReferenceIdeal.HandRun.ops2, Cert.KernelIdeal.HFrame.tailOps, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8,
    List.flatten_cons, List.flatten_nil, List.append_nil, List.cons_append, List.nil_append]
  simp only [idxPair_fold]
  after_results_simp
  rw [refCounts_term (Lv (Proc.devRef .tc Cert.ReferenceIdeal.main_arg0)) (Lv (Proc.devRef .tc Cert.ReferenceIdeal.main_arg4)),
    refCounts_term (Lv (Proc.devRef .tc Cert.ReferenceIdeal.main_arg1)) (Lv (Proc.devRef .tc Cert.ReferenceIdeal.main_arg4))]
  rw [g0, g1, g3, g4, g5, e0, e1, e3, e5, ec, ecst, lit0_eq, lit1_eq]
  rfl

end Main

/-! ## The kernel program's run with its result named -/

section KernelRun

open Cert.KernelIdeal Cert.KernelIdeal.Gen Cert.KernelIdeal.HFrame

variable (m : (ℓ : Loc Cert.KernelIdeal.nD Cert.KernelIdeal.τ Cert.KernelIdeal.sig) → Buf (Elt Ideal) ℓ) (ρ : Dev Cert.KernelIdeal.nD → PrngReg)

/-- Every weakly fair execution of the kernel program terminates with its result array at what the operations after
    the region make of the region's exit contents, and its six arguments as launched. -/
theorem kernel_run : θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v85)
        = Pipeline.afterTail₀ Cert.KernelIdeal.cfgs (dats (F := Ideal) m) 0 (V0 m) tailOps c Cert.KernelIdeal.main_v85
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c =>
    ⟨(h c).2 main_v85 (Pipeline.mem_restRefs_of main_v85 (by decide) (by decide)),
     ((h c).1 0).trans ((((dats m) 0 c).arrAt_in 0 rfl _).trans ((A_eq m c 0).trans (V_of_not_written m c main_arg0 (by decide) (by decide) (by decide)))),
     ((h c).1 1).trans ((((dats m) 0 c).arrAt_in 1 rfl _).trans ((A_eq m c 1).trans (V_of_not_written m c main_arg1 (by decide) (by decide) (by decide)))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩) (run_main m ρ)

end KernelRun

end Cert.Bridge

end
-- ==== Proof.lean ====
/-
  The certificate of a codon-usage kernel against its reference.  Both programs turn two arrays of codon ids and a
  mask into per-row codon histograms, then apply the same host operations to them: per-amino-acid totals, usage
  ratios, a blend with a reference row chosen by species, two normalisations and a divergence sum.
  The kernel builds each histogram column as a masked row sum over the positions whose id equals the codon; the
  reference scatter-adds the mask weights at the ids.  Over the extended reals both count, for every row and codon,
  the unmasked positions whose id is that codon and positive — for every 32-bit id: a negative id has weight zero
  wherever the reference's wrapped index lands, and an id above 64 is dropped by the scatter and equals no codon.
  The three frames: each kernel program by the library's launch theorem for a region with host operations on both
  sides (the body run once at symbolic blocks), the reference by its list of host operations.  The ideal pass rewrote
  nothing, so the kernel's idealization is its own text.
-/
import proofs.«415818_j19533511262776_3_alg».proof.Defs
import proofs.«415818_j19533511262776_3_alg».proof.Proof.Gen.Kernel
import proofs.«415818_j19533511262776_3_alg».proof.Proof.Gen.KernelIdeal
import proofs.«415818_j19533511262776_3_alg».proof.Proof.Gen.ReferenceIdeal
import proofs.«415818_j19533511262776_3_alg».proof.Proof.Gen.Pre_finite_inputs
import proofs.«415818_j19533511262776_3_alg».proof.Proof.KFrame
import proofs.«415818_j19533511262776_3_alg».proof.Proof.KIFrame
import proofs.«415818_j19533511262776_3_alg».proof.Proof.RefRun
import proofs.«415818_j19533511262776_3_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.HFrame.frame m ρ
/-- So does the program read over the extended reals. -/
theorem frame_kernelIdeal : Cert.frame_KernelIdeal := fun m ρ _ => Cert.KernelIdeal.HFrame.frame m ρ
/-- And the reference, a list of host operations none of which writes an argument. -/
theorem frame_referenceIdeal : Cert.frame_ReferenceIdeal := fun m ρ _ => Cert.ReferenceIdeal.HandRun.frame m ρ

/-- The ideal pass rewrote no operation. -/
theorem preserves : Cert.preserves_Kernel_KernelIdeal := trivial

/-- From memories agreeing on the arguments both programs end with the same result array: the kernel program's, as
    its later host operations compute it from the two histograms; the reference's composed term is that term. -/
theorem algebraic : Cert.algebraic_KernelIdeal_ReferenceIdeal := by
  intro m g m' g' _ hagree
  refine ⟨fun c => Pipeline.afterTail₀ Cert.KernelIdeal.cfgs (Cert.KernelIdeal.HFrame.dats (F := Ideal) m) 0
      (Cert.KernelIdeal.HFrame.V0 m) Cert.KernelIdeal.HFrame.tailOps c Cert.KernelIdeal.main_v85,
    Cert.Bridge.kernel_run m g, ?_⟩
  refine (θ_run Cert.ReferenceIdeal.defs _ _).mono (fun r h c => ⟨?_, ?_, ?_, ?_, ?_, ?_, ?_⟩)
    (Cert.ReferenceIdeal.HandRun.run (F := Ideal) m' g')
  · exact (h c Cert.ReferenceIdeal.main_v127).trans
      (Cert.Bridge.ref_eq_kernel m m' c (hagree c).1 (hagree c).2.1 (hagree c).2.2.2.1 (hagree c).2.2.2.2.1 (hagree c).2.2.2.2.2)
  · exact (h c Cert.ReferenceIdeal.main_arg0).trans (Cert.ReferenceIdeal.HandRun.kept_main_arg0 _)
  · exact (h c Cert.ReferenceIdeal.main_arg1).trans (Cert.ReferenceIdeal.HandRun.kept_main_arg1 _)
  · exact (h c Cert.ReferenceIdeal.main_arg2).trans (Cert.ReferenceIdeal.HandRun.kept_main_arg2 _)
  · exact (h c Cert.ReferenceIdeal.main_arg3).trans (Cert.ReferenceIdeal.HandRun.kept_main_arg3 _)
  · exact (h c Cert.ReferenceIdeal.main_arg4).trans (Cert.ReferenceIdeal.HandRun.kept_main_arg4 _)
  · exact (h c Cert.ReferenceIdeal.main_arg5).trans (Cert.ReferenceIdeal.HandRun.kept_main_arg5 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
